-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S256x256 : Shape := ⟨2, ![256, 256]⟩
abbrev S256 : Shape := ⟨1, ![256]⟩
abbrev S512 : Shape := ⟨1, ![512]⟩
abbrev S1024x512 : Shape := ⟨2, ![1024, 512]⟩
abbrev S1024 : Shape := ⟨1, ![1024]⟩
abbrev S256x1024 : Shape := ⟨2, ![256, 1024]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_

variable [Facts]

def fn_part3 {F : FTy → Type} [FloatOps F] (main_arg11 : FVec F S256x1024 .f32) (main_arg12 : FVec F S256 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S256x1024 .f32 := Host.absf main_arg11
  let main_cst_20 : FVec F S_ .f32 := constant S_ .f32 0x7F800000#32
  let main_v55 : FVec F S256x1024 .f32 := broadcastInDim S256x1024 ![] bcast_S_S256x1024 main_cst_20
  let main_v56 : IVec S256x1024 1 := cmpf .olt main_v54 main_v55
  let main_c_21 : IVec S_ 1 := constantI S_ 1 1#1
  let main_v57 : IVec S_ 1 := (fun x v => Host.reduce IntOp.andi x v reducesTo_S256x1024_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S1024x512 .f32) (main_arg8 : FVec F S1024 .f32) (main_arg9 : FVec F S1024 .f32) (main_arg10 : FVec F S1024 .f32) (main_arg11 : FVec F S256x1024 .f32) (main_arg12 : FVec F S256 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S256 .f32) (main_arg5 : FVec F S512 .f32) (main_arg6 : FVec F S512 .f32) (main_arg7 : FVec F S1024x512 .f32) (main_arg8 : FVec F S1024 .f32) (main_arg9 : FVec F S1024 .f32) (main_arg10 : FVec F S1024 .f32) (main_arg11 : FVec F S256x1024 .f32) (main_arg12 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x256 .f32) (main_arg1 : FVec F S16384x256 .f32) (main_arg2 : FVec F S16384x16384 .f32) (main_arg3 : FVec F S256x256 .f32) (main_arg4 : FVec F S256 .f32) (main_arg5 : FVec F S512 .f32) (main_arg6 : FVec F S512 .f32) (main_arg7 : FVec F S1024x512 .f32) (main_arg8 : FVec F S1024 .f32) (main_arg9 : FVec F S1024 .f32) (main_arg10 : FVec F S1024 .f32) (main_arg11 : FVec F S256x1024 .f32) (main_arg12 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_v13 main_v16
-- ==== Kernel.lean ====
abbrev S16384x256 : Shape := ⟨2, ![16384, 256]⟩
abbrev S16384x16384 : Shape := ⟨2, ![16384, 16384]⟩
abbrev S256x256 : Shape := ⟨2, ![256, 256]⟩
abbrev S256 : Shape := ⟨1, ![256]⟩
abbrev S512 : Shape := ⟨1, ![512]⟩
abbrev S1024x512 : Shape := ⟨2, ![1024, 512]⟩
abbrev S1024 : Shape := ⟨1, ![1024]⟩
abbrev S256x1024 : Shape := ⟨2, ![256, 1024]⟩
abbrev S1x256 : Shape := ⟨2, ![1, 256]⟩
abbrev S2048x256 : Shape := ⟨2, ![2048, 256]⟩
abbrev S1024x2048 : Shape := ⟨2, ![1024, 2048]⟩
abbrev S1024x256 : Shape := ⟨2, ![1024, 256]⟩
abbrev S_ : Shape := ⟨0, ![]⟩
abbrev S1x1024 : Shape := ⟨2, ![1, 1024]⟩
abbrev S16384x1024 : Shape := ⟨2, ![16384, 1024]⟩
abbrev S2048x1024 : Shape := ⟨2, ![2048, 1024]⟩

abbrev nBuf : Space → Nat
  | .hbm => 80
  | .vmem => 42
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x16384, .f32⟩
  | .hbm, ⟨3, _⟩ => ⟨S256x256, .f32⟩
  | .hbm, ⟨4, _⟩ => ⟨S256, .f32⟩
  | .hbm, ⟨5, _⟩ => ⟨S512, .f32⟩
  | .hbm, ⟨6, _⟩ => ⟨S512, .f32⟩
  | .hbm, ⟨7, _⟩ => ⟨S1024x512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S256x1024, .f32⟩
  | .hbm, ⟨12, _⟩ => ⟨S256, .f32⟩
  | .hbm, ⟨13, _⟩ => ⟨S1x256, .f32⟩
  | .hbm, ⟨14, _⟩ => ⟨S16384x256, .f32⟩
  | .hbm, ⟨15, _⟩ => ⟨S16384x256, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S1x256, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S1x256, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S_, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S1024x256, .f32⟩
  | .hbm, ⟨49, _⟩ => ⟨S1024x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x1024, .f32⟩
  | .hbm, ⟨59, _⟩ => ⟨S16384x1024, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x256, .f32⟩
  | .hbm, ⟨79, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | .local _ .vmem, ⟨6, _⟩ => ⟨S1024x2048, .f32⟩
  | .local _ .vmem, ⟨7, _⟩ => ⟨S1024x2048, .f32⟩
  | .local _ .vmem, ⟨8, _⟩ => ⟨S2048x256, .f32⟩
  | .local _ .vmem, ⟨9, _⟩ => ⟨S2048x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1024x256, .f32⟩
  | .local _ .vmem, ⟨26, _⟩ => ⟨S1024x256, .f32⟩
  | .local _ .vmem, ⟨27, _⟩ => ⟨S1x1024, .f32⟩
  | .local _ .vmem, ⟨28, _⟩ => ⟨S2048x1024, .f32⟩
  | .local _ .vmem, ⟨29, _⟩ => ⟨S2048x1024, .f32⟩
  | .local _ .vmem, ⟨30, _⟩ => ⟨S2048x1024, .f32⟩
  | .local _ .vmem, ⟨31, _⟩ => ⟨S2048x1024, .f32⟩
  | .local _ .vmem, ⟨32, _⟩ => ⟨S2048x256, .f32⟩
  | .local _ .vmem, ⟨33, _⟩ => ⟨S2048x256, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S256x1024, .f32⟩
  | .local _ .vmem, ⟨39, _⟩ => ⟨S1x256, .f32⟩
  | .local _ .vmem, ⟨40, _⟩ => ⟨S2048x256, .f32⟩
  | .local _ .vmem, ⟨41, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg12_0 : Ref sig .tc := ⟨.vmem, 27, rfl⟩
abbrev cc2_stg13_0 : Ref sig .tc := ⟨.vmem, 28, rfl⟩
abbrev cc2_stg13_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg8_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25
abbrev cc2_sem12_0 : DmaSem sig := 26
abbrev cc2_sem13_0 : DmaSem sig := 27
abbrev cc2_sem13_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem8_1 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1024x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1024 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S2048x1024 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2048x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S2048x256_S2048x256 : S2048x256.ShapeCasts S2048x256
  reducesTo_S16384x256_S256_d0 : S16384x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  slices_S512_S256_0 : S512.Slices ![0] S256
  slices_S512_S256_256 : S512.Slices ![256] S256
  slices_S1024x512_S1024x256_0_0 : S1024x512.Slices ![0, 0] S1024x256
  slices_S1024x512_S1024x256_0_256 : S1024x512.Slices ![0, 256] S1024x256
  shapeCasts_S1024_S1x1024 : S1024.ShapeCasts S1x1024
  transposes_S1024x256_p1_0_S256x1024 : S1024x256.Transposes [1, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  reducesTo_S16384x1024_S1024_d0 : S16384x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S2048x1024_S2048x1024 : S2048x1024.ShapeCasts S2048x1024
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  dot_S2048x256_S256x256_S2048x256_1_0_0_1_n_n_wf : DotDims.WF S2048x256 S256x256 S2048x256 [1] [0] [0] [1] [] []
  dot_S1024x2048_S2048x256_S1024x256_1_0_0_1_n_n_wf : DotDims.WF S1024x2048 S2048x256 S1024x256 [1] [0] [0] [1] [] []
  dot_S2048x256_S256x1024_S2048x1024_1_0_0_1_n_n_wf : DotDims.WF S2048x256 S256x1024 S2048x1024 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .f32 = 32 ∨ (Rect.block (s := S16384x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S16384x256.size a
  hwx1_1 : ∀ i : grid1.Coords, EltTy.bits .f32 = 32 ∨ (Rect.block (s := S16384x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S16384x256.size a
  hwx1_2 : ∀ i : grid1.Coords, EltTy.bits .f32 = 32 ∨ (Rect.block (s := S16384x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S16384x256.size a
  hwx2_0 : ∀ i : grid2.Coords, EltTy.bits .f32 = 32 ∨ (Rect.block (s := S16384x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S16384x256.size a
  hwx2_1 : ∀ i : grid2.Coords, EltTy.bits .f32 = 32 ∨ (Rect.block (s := S16384x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1024x256.size a ≤ S1024x256.size a
  hwx2_10 : ∀ i : grid2.Coords, EltTy.bits .f32 = 32 ∨ (Rect.block (s := S1024x256) S1024x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1024x256.size a ≤ S1024x256.size a
  hwx2_11 : ∀ i : grid2.Coords, EltTy.bits .f32 = 32 ∨ (Rect.block (s := S1024x256) S1024x256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x1024.size a ≤ S1x1024.size a
  hwx2_12 : ∀ i : grid2.Coords, EltTy.bits .f32 = 32 ∨ (Rect.block (s := S1x1024) S1x1024.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2048x1024.size a ≤ S16384x1024.size a
  hwx2_13 : ∀ i : grid2.Coords, EltTy.bits .f32 = 32 ∨ (Rect.block (s := S16384x1024) S2048x1024.size (cc2_transform_13 i) (hinb2_13 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S16384x1024.size a
  hwx3_0 : ∀ i : grid3.Coords, EltTy.bits .f32 = 32 ∨ (Rect.block (s := S16384x1024) S2048x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S16384x256.size a
  hwx3_1 : ∀ i : grid3.Coords, EltTy.bits .f32 = 32 ∨ (Rect.block (s := S16384x256) S2048x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x1024.size a ≤ S256x1024.size a
  hwx3_6 : ∀ i : grid3.Coords, EltTy.bits .f32 = 32 ∨ (Rect.block (s := S256x1024) S256x1024.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2048x256.size a ≤ S16384x256.size a
  hwx3_8 : ∀ i : grid3.Coords, EltTy.bits .f32 = 32 ∨ (Rect.block (s := S16384x256) S2048x256.size (cc3_transform_8 i) (hinb3_8 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v34) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v35) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v36) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v27) S1024x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v28) S1024x256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v37) S1x1024.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v38) S2048x1024.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v38) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg11) S256x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v53) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v54) S2048x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S16384x256 : Shape := ⟨2, ![16384, 256]⟩
abbrev S16384x16384 : Shape := ⟨2, ![16384, 16384]⟩
abbrev S256x256 : Shape := ⟨2, ![256, 256]⟩
abbrev S256 : Shape := ⟨1, ![256]⟩
abbrev S512 : Shape := ⟨1, ![512]⟩
abbrev S1024x512 : Shape := ⟨2, ![1024, 512]⟩
abbrev S1024 : Shape := ⟨1, ![1024]⟩
abbrev S256x1024 : Shape := ⟨2, ![256, 1024]⟩
abbrev S1x256 : Shape := ⟨2, ![1, 256]⟩
abbrev S16384x512 : Shape := ⟨2, ![16384, 512]⟩
abbrev S_ : Shape := ⟨0, ![]⟩
abbrev S1x512 : Shape := ⟨2, ![1, 512]⟩
abbrev S512x1024 : Shape := ⟨2, ![512, 1024]⟩
abbrev S16384x1024 : Shape := ⟨2, ![16384, 1024]⟩
abbrev S1x1024 : Shape := ⟨2, ![1, 1024]⟩
abbrev S1024x256 : Shape := ⟨2, ![1024, 256]⟩

abbrev nBuf : Space → Nat
  | .hbm => 103
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x16384, .f32⟩
  | .hbm, ⟨3, _⟩ => ⟨S256x256, .f32⟩
  | .hbm, ⟨4, _⟩ => ⟨S256, .f32⟩
  | .hbm, ⟨5, _⟩ => ⟨S512, .f32⟩
  | .hbm, ⟨6, _⟩ => ⟨S512, .f32⟩
  | .hbm, ⟨7, _⟩ => ⟨S1024x512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S256x1024, .f32⟩
  | .hbm, ⟨12, _⟩ => ⟨S256, .f32⟩
  | .hbm, ⟨13, _⟩ => ⟨S256x256, .f32⟩
  | .hbm, ⟨14, _⟩ => ⟨S16384x256, .f32⟩
  | .hbm, ⟨15, _⟩ => ⟨S1x256, .f32⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S16384x512, .f32⟩
  | .hbm, ⟨20, _⟩ => ⟨S_, .f32⟩
  | .hbm, ⟨21, _⟩ => ⟨S512, .f32⟩
  | .hbm, ⟨22, _⟩ => ⟨S1x512, .f32⟩
  | .hbm, ⟨23, _⟩ => ⟨S_, .f32⟩
  | .hbm, ⟨24, _⟩ => ⟨S1x512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S16384x512, .f32⟩
  | .hbm, ⟨42, _⟩ => ⟨S16384x512, .f32⟩
  | .hbm, ⟨43, _⟩ => ⟨S1x512, .f32⟩
  | .hbm, ⟨44, _⟩ => ⟨S16384x512, .f32⟩
  | .hbm, ⟨45, _⟩ => ⟨S16384x512, .f32⟩
  | .hbm, ⟨46, _⟩ => ⟨S1x512, .f32⟩
  | .hbm, ⟨47, _⟩ => ⟨S16384x512, .f32⟩
  | .hbm, ⟨48, _⟩ => ⟨S16384x512, .f32⟩
  | .hbm, ⟨49, _⟩ => ⟨S512x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .i1⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S1x1024, .f32⟩
  | .hbm, ⟨88, _⟩ => ⟨S16384x1024, .f32⟩
  | .hbm, ⟨89, _⟩ => ⟨S16384x1024, .f32⟩
  | .hbm, ⟨90, _⟩ => ⟨S1024x256, .f32⟩
  | .hbm, ⟨91, _⟩ => ⟨S16384x256, .f32⟩
  | .hbm, ⟨92, _⟩ => ⟨S1x256, .f32⟩
  | .hbm, ⟨93, _⟩ => ⟨S16384x256, .f32⟩
  | .hbm, ⟨94, _⟩ => ⟨S16384x256, .f32⟩
  | .hbm, ⟨95, _⟩ => ⟨S_, .f32⟩
  | .hbm, ⟨96, _⟩ => ⟨S16384x256, .f32⟩
  | .hbm, ⟨97, _⟩ => ⟨S16384x256, .i1⟩
  | .hbm, ⟨98, _⟩ => ⟨S_, .f32⟩
  | .hbm, ⟨99, _⟩ => ⟨S16384x256, .f32⟩
  | .hbm, ⟨100, _⟩ => ⟨S16384x256, .f32⟩
  | .hbm, ⟨101, _⟩ => ⟨S16384x256, .f32⟩
  | .hbm, ⟨102, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  concatenates_S16384x256_S16384x256_S16384x512_d1 : Shape.Concatenates [S16384x256, S16384x256] S16384x512 1
  reducesTo_S16384x512_S512_d0 : S16384x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  bcast_S1x512_S16384x512_0_1 : S1x512.BroadcastsInDim S16384x512 (![0, 1] : Fin 2 → Fin S16384x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  reducesTo_S16384x1024_S1024_d0 : S16384x1024.ReducesTo [0] S1024
  bcast_S_S1x1024 : S_.BroadcastsInDim S1x1024 (![] : Fin 0 → Fin S1x1024.rank)
  transposes_S256x1024_S1024x256_1_0 : S256x1024.Transposes [1, 0] S1024x256
  bcast_S_S16384x256 : S_.BroadcastsInDim S16384x256 (![] : Fin 0 → Fin S16384x256.rank)
  dot_S16384x256_S256x256_S16384x256_1_0_0_1_n_n_wf : DotDims.WF S16384x256 S256x256 S16384x256 [1] [0] [0] [1] [] []
  dot_S16384x16384_S16384x256_S16384x256_1_0_0_1_n_n_wf : DotDims.WF S16384x16384 S16384x256 S16384x256 [1] [0] [0] [1] [] []
  dot_S16384x512_S512x1024_S16384x1024_1_0_0_1_n_n_wf : DotDims.WF S16384x512 S512x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.K.R0.lean ====
import proofs.«150604_j36773509988939_1_alg».proof.Proof.K.Launch
import proofs.«150604_j36773509988939_1_alg».proof.Proof.Gen.Kernel.Skeleton
import proofs.«150604_j36773509988939_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 0 of @main: the body half of its frame

Region 0 is the pipelined call of the kernel function that computes one 2048×256 row block of
`Mh = bf16(M) · bf16(W_in)ᵀ + b_in` per grid point, over a grid of 8 points. Its four windows are: window 0, the row
block of `M` at the point; window 1, `W_in` whole; window 2, `b_in` as one row; window 3, the row block of the result.

Everything here is stated at a PARAMETER `V`: the TensorCore's buffer contents when the region is entered. For that
`V` this file gives each window's block at a point, what the body leaves in the output window's staging buffer as a
function of the three input blocks, the body's triple, the pipeline's proof data and the body obligation. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of `M`): its current staging buffer holds its block at every point, for ANY proof
    data whose array is `V`'s (`hA`) and whose body leaves the block in place (`hafter`). The window is an input,
    never idle and uncut, so what is in the buffer before the body is what the last fetch brought, and between fetches
    the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (`W_in` whole, one block for the whole grid): the same statement. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (`b_in` as one row, one block for the whole grid): the same statement. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer is read or written whole -/

/-- The whole of a 2048×256 buffer (the row block of `M`, and the row block of the result). -/
abbrev r0_0 : Rect S2048x256 := Rect.unit (s := S2048x256) ![0, 0] S2048x256.size inb_S2048x256_S2048x256_0_0
/-- The whole of the 256×256 buffer (`W_in`). -/
abbrev r0_1 : Rect S256x256 := Rect.unit (s := S256x256) ![0, 0] S256x256.size inb_S256x256_S256x256_0_0
/-- The whole of the 1×256 buffer (`b_in`). -/
abbrev r0_2 : Rect S1x256 := Rect.unit (s := S1x256) ![0, 0] S1x256.size inb_S1x256_S1x256_0_0

/-! ## What the body leaves in the output window's buffer -/

/-- Window 3's staging buffer after the body, from the three input blocks: the body's one store, of
    `bf16(x0) · bf16(x1)ᵀ + x2` broadcast along the rows (the payload `k0_pay1`), over the whole buffer. What the
    buffer held before is overwritten everywhere, so it does not enter. -/
def out0_3 (x0 : Vec F S2048x256 .f32) (x1 : Vec F S256x256 .f32) (x2 : Vec F S1x256 .f32) : Vec F S2048x256 .f32 :=
  View.canon [⟨r0_0, k0_pay1 (View.ld x0 r0_0) (View.ld x1 r0_1) (View.ld x2 r0_2)⟩]

/-- The one store is of the whole buffer, so it covers it. -/
theorem cover0_3 (p0 : Vec F S2048x256 .f32) (y : S2048x256.Idx) :
    ∃ pc ∈ ([⟨r0_0, p0⟩] : List (View.Piece (Elt F) S2048x256 .f32)), y ∈ pc.1.set :=
  View.cover_of_tiled [⟨r0_0, p0⟩] S2048x256.size (by rfl) y

/-! ## The body's triple -/

set_option maxHeartbeats 1000000 in
/-- The kernel body on whole staging memrefs, the three inputs' at read contents `x0 x1 x2` and the output's at
    anything, runs to the continuation holding the inputs' as they were and the output's at `out0_3 x0 x1 x2`. The body
    is its three whole loads, a load of the output buffer whose value is not used, and the one whole store. -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (x0 : Vec F S2048x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mh_kernel i arg1 harg1 arg2 harg2 arg3 harg3 arg4 harg4) K := by
  simp only [cc0__mh_kernel_eq_skeleton]; unfold cc0__mh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's owed count, and each window's current
    staging memref, whole, at what the pipeline has left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, each memref at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_w`), so `sound_kernel0` applies; the
    invariant and the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.K.R1.lean ====
/- Kernel region 1, the K-blocked product `M2N = adj · Mh` (grid (16, 8); the second coordinate is the contraction
   step `k`): the BODY HALF of its frame proof, at a parameter `V` — the TensorCore's buffer contents when the region is
   entered — and at any float family.
   The body zeroes a scratch accumulator at `k = 0`, adds the product of the two input blocks to it at every step, and
   copies it into the output window's block at `k = 7`. So three cases occur: A (`k = 0`), B (`0 < k < 7`), C (`k = 7`).
   In order: each window's block at a point; the two conditions in closed form over the point's position (≡ 0, ≡ 7
   mod 8); where the output window is idle and not written back (A, B) and where it is live (C); the region invariant
   with the accumulator taken out of the core's other scoped buffers; the body's triple per case, as a subtype whose
   witness is the pieces the output's buffer and the accumulator end with; what those hold after each point
   (`outsAt1`, the accumulation); the proof data `dat1`; the body obligation; and the invariant's two ends
   (`hin1`, `hout1`). -/
import proofs.«150604_j36773509988939_1_alg».proof.Proof.K.Launch
import proofs.«150604_j36773509988939_1_alg».proof.Proof.Gen.Kernel.Skeleton
import proofs.«150604_j36773509988939_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the block of `adj` at row block `i`, column block `k`): its current staging buffer holds its
    block at every point, fetched there or not, for any proof data whose array is `V`'s and whose body leaves the
    block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the block of `Mh` at row block `k`): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's first conditional (zero the accumulator): the contraction step is 0. -/
abbrev cond1_0 (i : grid1.Coords) : Prop := (Scalar.cmpi .ne (Scalar.extui (Scalar.cmpi .eq (BitVec.ofNat 32 (i 1).val) 0#32)) 0#32) = 1#1
/-- It holds at the positions ≡ 0 (mod 8) — decided over the grid's 128 points. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (copy the accumulator out): the contraction step is 7, the last. -/
abbrev cond1_1 (i : grid1.Coords) : Prop := k1_cond2 i = 1#1
/-- It holds at the positions ≡ 7 (mod 8) — decided over the grid's 128 points. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- At the first contraction step the output window is idle: the body stores nothing into it. -/
theorem idleAt1_2_A : ∀ t : Fin cfg1.N, cond1_0 (grid1.coords t) → ¬cond1_1 (grid1.coords t) → cfg1.idle 2 (grid1.coords t) = true := by decide +kernel
/-- And its block is not written back there. -/
theorem noFlush1_2_A : ∀ t : Fin cfg1.N, cond1_0 (grid1.coords t) → ¬cond1_1 (grid1.coords t) → (cfg1.win 2).flush t = false := by decide +kernel
/-- At the contraction steps strictly between the first and the last the output window is idle. -/
theorem idleAt1_2_B : ∀ t : Fin cfg1.N, ¬cond1_0 (grid1.coords t) → ¬cond1_1 (grid1.coords t) → cfg1.idle 2 (grid1.coords t) = true := by decide +kernel
/-- And its block is not written back there. -/
theorem noFlush1_2_B : ∀ t : Fin cfg1.N, ¬cond1_0 (grid1.coords t) → ¬cond1_1 (grid1.coords t) → (cfg1.win 2).flush t = false := by decide +kernel
/-- At the last contraction step the output window is live: the body stores into it. -/
theorem liveAt1_2_C : ∀ t : Fin cfg1.N, ¬cond1_0 (grid1.coords t) → cond1_1 (grid1.coords t) → cfg1.idle 2 (grid1.coords t) = false := by decide +kernel

/-! ## The staging and scratch memrefs -/

/-- One staging buffer of output window 2, through which its contents are stated (the choice does not matter: a
    whole buffer's contents read back through its own view). -/
abbrev VO1_2 : View sig .tc .vmem S1024x256 .f32 := (Memref.whole cc1_stg2_0 : Memref sig .tc .vmem S1024x256 .f32).view
/-- The scratch accumulator: a whole scoped buffer of the kernel's own, passed beside the windows. -/
abbrev scM1_0 : Memref sig .tc .vmem S1024x256 .f32 := Memref.whole cc1_scratch0
/-- The accumulator as a view: what it holds between points is stated through it. -/
abbrev VS1_0 : View sig .tc .vmem S1024x256 .f32 := scM1_0.view

/-- The region invariant with the accumulator as a memref owned at some contents, the core's other scoped buffers
    (no staging buffer of this region) left conjoined and unopened, and the generator register at some state. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body's triple, case by case -/

set_option maxHeartbeats 1000000 in
/-- CASE A, the first contraction step (first conditional taken, second not). What the body's stores leave in the
    output window's staging memref (no piece: it stores nothing there) and in the accumulator (its pieces, last
    first: the zero fill, then the zero fill plus this step's product), WITH the proof that on whole memrefs — the two
    input blocks at their contents `x0`, `x1`, the output's buffer at contents `xi2` handed back untouched, the
    accumulator at anything — the body runs to the continuation holding the inputs as they were, the output's buffer
    as it was and the accumulator with its pieces written. -/
noncomputable def kernelRun1_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B, a contraction step strictly between the first and the last (neither conditional taken). What the body's
    stores leave in the output window's staging memref (no piece) and in the accumulator (one piece: what it held,
    `xs0`, plus this step's product), WITH the proof that on whole memrefs — the two input blocks at `x0`, `x1`, the
    output's buffer at `xi2` handed back untouched, the accumulator at what the point before left, `xs0` — the body
    runs to the continuation holding the inputs and the output's buffer as they were and the accumulator with its
    piece written. -/
noncomputable def kernelRun1_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C, the last contraction step (first conditional not taken, second taken). What the body's stores leave in
    the output window's staging memref (one piece: the accumulator's final contents) and in the accumulator (one
    piece: what it held, `xs0`, plus this step's product), WITH the proof that on whole memrefs — the two input
    blocks at `x0`, `x1`, the output's buffer at anything, the accumulator at what the point before left, `xs0` — the
    body runs to the continuation holding the inputs as they were and the output's buffer and the accumulator with
    their pieces written. -/
noncomputable def kernelRun1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## What each case leaves in the output window's buffer and in the accumulator -/

/-- Case A stores nothing into the output window (idle at its points and not written back there): no pieces — a
    placeholder (junk read back) that nothing consults. -/
def out1_A_2 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .f32) : Vec F S1024x256 .f32 :=
  VO1_2.read (Elt F) (VO1_2.writes (Elt F) VO1_2.junk (kernelRun1_A c i arg2 harg2 arg3 harg3 arg4 harg4 arg5 harg5 hc0 hc1 x0 x1).1)

/-- Case A's pieces for the accumulator cover it: whole-buffer pieces tiling it. -/
theorem scover1_A_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .f32) (y : S1024x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x256.size (by sl_kernel_rfl) y

/-- What case A leaves in the accumulator: its pieces read back over junk. -/
def sout1_A_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .f32) : Vec F S1024x256 .f32 :=
  VS1_0.read (Elt F) (VS1_0.writes (Elt F) VS1_0.junk (kernelRun1_A c i arg2 harg2 arg3 harg3 arg4 harg4 arg5 harg5 hc0 hc1 x0 x1).2.1)

/-- Case B stores nothing into the output window: no pieces, a placeholder that nothing consults. -/
def out1_B_2 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .f32) (xs0 : Vec F S1024x256 .f32) : Vec F S1024x256 .f32 :=
  VO1_2.read (Elt F) (VO1_2.writes (Elt F) VO1_2.junk (kernelRun1_B c i arg2 harg2 arg3 harg3 arg4 harg4 arg5 harg5 hc0 hc1 x0 x1 xs0).1)

/-- Case B's piece for the accumulator covers it. -/
theorem scover1_B_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .f32) (xs0 : Vec F S1024x256 .f32) (y : S1024x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x256.size (by sl_kernel_rfl) y

/-- What case B leaves in the accumulator: its piece read back over junk. -/
def sout1_B_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .f32) (xs0 : Vec F S1024x256 .f32) : Vec F S1024x256 .f32 :=
  VS1_0.read (Elt F) (VS1_0.writes (Elt F) VS1_0.junk (kernelRun1_B c i arg2 harg2 arg3 harg3 arg4 harg4 arg5 harg5 hc0 hc1 x0 x1 xs0).2.1)

/-- Case C's piece for the output window tiles its block (one whole-block store), so it covers it. -/
theorem cover1_C_2 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) (y : S1024x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x256.size (by sl_kernel_rfl) y

/-- What case C leaves in the output window's staging buffer: its piece read back over junk. -/
def out1_C_2 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) : Vec F S1024x256 .f32 :=
  VO1_2.read (Elt F) (VO1_2.writes (Elt F) VO1_2.junk (kernelRun1_C c i arg2 harg2 arg3 harg3 arg4 harg4 arg5 harg5 hc0 hc1 x0 x1 xs0).1)

/-- Case C's piece for the accumulator covers it. -/
theorem scover1_C_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) (y : S1024x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x256.size (by sl_kernel_rfl) y

/-- What case C leaves in the accumulator: its piece read back over junk. -/
def sout1_C_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) : Vec F S1024x256 .f32 :=
  VS1_0.read (Elt F) (VS1_0.writes (Elt F) VS1_0.junk (kernelRun1_C c i arg2 harg2 arg3 harg3 arg4 harg4 arg5 harg5 hc0 hc1 x0 x1 xs0).2.1)

/-! ## The staging memrefs at a point -/

/-- Each window's current staging memref at point `t`, spelled as the pipeline passes it to the body, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)

section Region
-- the TensorCore's buffer contents when the region is entered: the parameter the region's half is stated at
variable (V : (c : Dev nD) → (b : Ref sig .tc) → Buf (Elt F) ((c : Thread nD τ).loc b))

/-! ## What the output window's buffer and the accumulator hold after each point -/

/-- THE ACCUMULATION. What the output window's staging buffer and the accumulator hold after the body at position
    `n` (a pair: the output's buffer, then the accumulator): the case the closed forms select at `n`, run at the
    point's memrefs and the two input blocks there, the accumulator read at what this leaves at `n - 1`. The two
    conditions never hold together (0 ≠ 7 mod 8): that assignment is no case. -/
def outsAt1 (c : Dev nD) : (n : ℕ) → n < cfg1.N → Vec F S1024x256 .f32 × Vec F S1024x256 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left in the accumulator. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the accumulator. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of the region at anything, the generator register at some state); afterwards the accumulator at
    what the point before left in it, the core's other scoped buffers at anything (conjoined, unopened), and the
    generator register at some state. -/
def PhiS (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the accumulator at that point's contents. -/
theorem PhiS_succ (c : Dev nD) (n : ℕ) (hn : n < cfg1.N) :
    PhiS V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them (`V`); after the body
    at point `t` each input's buffer at its block and the output's at `outsAt1`'s first component; the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the closed forms say which case the point is in.
    At the first contraction step (A) the invariant hands the body the accumulator at anything (before the first point
    of all) or at what the point before left, which the case overwrites; at the later steps (B, C) at what the point
    before left. The case's run applies; the invariant takes the accumulator back at this point's contents (its pieces
    cover it), the core's other scoped buffers and the generator register pass through unread, the core owes nothing
    throughout; the output's buffer is handed back untouched where the window is idle (A, B) and at its piece read back
    where it is stored (C). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _)
            iexact HR
          iexact Hg
        isplitl [Ho]; · iexact Ho
        isplitl [H0]; · iexact H0
        isplitl [H1]; · iexact H1
        iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region

end Cert.Kernel.Fr

end
-- ==== Proof.K.R2.lean ====
/- The body half of the frame proof for kernel region 2 of KernelIdeal's @main (custom_call 2,
   `cc2__linear1_kernel`, pipeline 2), stated at a parameter `V`: the TensorCore's buffer contents when the region is
   entered. Thirteen input windows (two 2048×256 row blocks, eight 1×256 rows, two 1024×256 weight halves, one 1×1024
   bias row) and one output window (a 2048×1024 block). The body reads every input staging buffer whole, normalises
   the two row blocks, multiplies each by its transposed weight half, adds the products and the bias, applies the
   leaky rectifier, and writes the output staging buffer whole with one store. So what it leaves in the output
   buffer is a closed function of the thirteen input blocks at the point, and it leaves every input block in place.
   Generic in the float family. -/
import proofs.«150604_j36773509988939_1_alg».proof.Proof.K.Launch
import proofs.«150604_j36773509988939_1_alg».proof.Proof.Gen.Kernel.Skeleton
import proofs.«150604_j36773509988939_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # REGION 2 of @main: custom_call 2, `cc2__linear1_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not, for ANY proof
    data whose array is `V`'s (`hA`) and whose body leaves the block in place (`hafter`): where the window is not
    fetched its block index has not moved, so the block the previous point left is this point's. Every input window
    here is uncut and never idle. Windows 0 and 1 move with the grid; windows 2 to 12 have a constant index map and
    are fetched at the first point only. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole, one rectangle per block shape -/

abbrev r2_0 : Rect S2048x256 := Rect.unit (s := S2048x256) ![0, 0] S2048x256.size inb_S2048x256_S2048x256_0_0
abbrev r2_1 : Rect S1x256 := Rect.unit (s := S1x256) ![0, 0] S1x256.size inb_S1x256_S1x256_0_0
abbrev r2_2 : Rect S1024x256 := Rect.unit (s := S1024x256) ![0, 0] S1024x256.size inb_S1024x256_S1024x256_0_0
abbrev r2_3 : Rect S1x1024 := Rect.unit (s := S1x1024) ![0, 0] S1x1024.size inb_S1x1024_S1x1024_0_0
abbrev r2_4 : Rect S2048x1024 := Rect.unit (s := S2048x1024) ![0, 0] S2048x1024.size inb_S2048x1024_S2048x1024_0_0

/-! ## What the body leaves in the output window's buffer -/

/-- Window 13's staging buffer after the body, from the thirteen input blocks in window order: its one store, of
    the whole buffer. The payload is the leaky rectifier of `n0 · w10ᵀ + n1 · w11ᵀ + bias`, where `n0` is block 0
    normalised by rows 2 to 5 (mean, variance, scale, shift) and `n1` is block 1 normalised by rows 6 to 8 with
    row 9 added (mean, variance, scale; shift), both rounded to bf16 before the products. -/
def out2_13 (x0 : Vec F S2048x256 .f32) (x1 : Vec F S2048x256 .f32) (x2 : Vec F S1x256 .f32) (x3 : Vec F S1x256 .f32)
    (x4 : Vec F S1x256 .f32) (x5 : Vec F S1x256 .f32) (x6 : Vec F S1x256 .f32) (x7 : Vec F S1x256 .f32)
    (x8 : Vec F S1x256 .f32) (x9 : Vec F S1x256 .f32) (x10 : Vec F S1024x256 .f32) (x11 : Vec F S1024x256 .f32)
    (x12 : Vec F S1x1024 .f32) : Vec F S2048x1024 .f32 :=
  View.canon [⟨r2_4, k2_pay1
    (k2_pay2 (View.ld x0 r2_0) (View.ld x2 r2_1) (View.ld x3 r2_1) (View.ld x4 r2_1) (View.ld x5 r2_1))
    (k2_pay3 (View.ld x1 r2_0) (View.ld x6 r2_1) (View.ld x7 r2_1) (View.ld x8 r2_1))
    (View.ld x9 r2_1) (View.ld x10 r2_2) (View.ld x11 r2_2) (View.ld x12 r2_3)⟩]

/-- The one store is of the whole buffer, so it covers it. -/
theorem cover2_13 (p0 : Vec F S2048x1024 .f32) (y : S2048x1024.Idx) :
    ∃ pc ∈ ([⟨r2_4, p0⟩] : List (View.Piece (Elt F) S2048x1024 .f32)), y ∈ pc.1.set :=
  View.cover_of_tiled [⟨r2_4, p0⟩] S2048x1024.size (by rfl) y

/-! ## The body's triple -/

set_option maxHeartbeats 4000000 in
/-- The kernel body on whole staging memrefs, the inputs' at read contents `xW` and the output's at anything, runs
    to the continuation holding the inputs' as they were and the output's at `out2_13` of the inputs': the printed
    function and its part are their skeletons, a sequence of whole-buffer loads and one whole-buffer store. -/
theorem sound_kernel2 (c : Dev nD) (E : Set ℕ) (i : grid2.Coords)
    (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (arg10 : Memref sig .tc .vmem S1x256 .f32) (harg10 : arg10.IsWhole)
    (arg11 : Memref sig .tc .vmem S1024x256 .f32) (harg11 : arg11.IsWhole) (arg12 : Memref sig .tc .vmem S1024x256 .f32) (harg12 : arg12.IsWhole)
    (arg13 : Memref sig .tc .vmem S1x1024 .f32) (harg13 : arg13.IsWhole) (arg14 : Memref sig .tc .vmem S2048x1024 .f32) (harg14 : arg14.IsWhole)
    (x0 : Vec F S2048x256 .f32) (x1 : Vec F S2048x256 .f32) (x2 : Vec F S1x256 .f32) (x3 : Vec F S1x256 .f32)
    (x4 : Vec F S1x256 .f32) (x5 : Vec F S1x256 .f32) (x6 : Vec F S1x256 .f32) (x7 : Vec F S1x256 .f32)
    (x8 : Vec F S1x256 .f32) (x9 : Vec F S1x256 .f32) (x10 : Vec F S1024x256 .f32) (x11 : Vec F S1024x256 .f32)
    (x12 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ owns (c : Thread nD τ) arg13 fullShare x12 ∗ (∃ d, owns (c : Thread nD τ) arg14 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare x12
            ∗ owns (c : Thread nD τ) arg14 fullShare (out2_13 x0 x1 x2 x3 x4 x5 x6 x7 x8 x9 x10 x11 x12)) -∗ K ⟨⟩))
      ⊢ wp frame (wpE (defs₀ (F := F)) Variants.none c none) E
          (cc2__linear1_kernel i arg1 harg1 arg2 harg2 arg3 harg3 arg4 harg4 arg5 harg5 arg6 harg6 arg7 harg7 arg8 harg8
            arg9 harg9 arg10 harg10 arg11 harg11 arg12 harg12 arg13 harg13 arg14 harg14) K := by
  simp only [cc2__linear1_kernel_eq_skeleton]; unfold cc2__linear1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover2_13 _)

/-! ## The pipeline's proof data -/

/-- The proof data of pipeline 2 on core `c`: the arrays as the region finds them (`V`); after the body at point
    `t` each input's buffer at its block and the output's at `out2_13` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => out2_13 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (iblk2 V c 12 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t =
    out2_13 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (iblk2 V c 11 t) (iblk2 V c 12 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d

/-! ## The body obligation, at a generic point -/

/-- What the body is called with at point `t`: the invariant, the core's debts, and every window's current staging
    buffer at what the point finds in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d)))

/-- and what it returns: the same with every buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t))

set_option maxHeartbeats 4000000 in
/-- The body at any point: the inputs' memrefs hold their blocks (`before2_W`), so `sound_kernel2` applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8,
    before2_9, before2_10, before2_11, before2_12]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10,
    after2_11, after2_12, after2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩⟩
  iapply (sound_kernel2 c Set.univ (grid2.coords t) _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Fr

end
-- ==== Proof.K.R3.lean ====
/- The body half of the frame proof for kernel region 3 of @main (custom_call 3, the kernel function
   `cc3__linear2_kernel`, pipeline 3: windows 0..7 are inputs, window 8 is the output), at any float family `F`
   and at a parameter `V`, the TensorCore's buffer contents when the region is entered. The kernel reads each input
   staging buffer whole, computes a 2048×256 block (batch normalisation of the 2048×1024 block by four 1×1024 rows,
   product with the transposed 256×1024 weight, a 1×256 bias row, leaky ReLU, sum with the 2048×256 block) and writes
   the output staging buffer whole, once. Here: each window's block at a grid point, what the body leaves in the
   output buffer, the body's triple, the pipeline's proof data, and the body obligation at every point. -/
import proofs.«150604_j36773509988939_1_alg».proof.Proof.K.Launch
import proofs.«150604_j36773509988939_1_alg».proof.Proof.Gen.Kernel.Skeleton
import proofs.«150604_j36773509988939_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of a coordinate in a rectangle of extent 2048 is decided by structural recursion along the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region3
-- the TensorCore's buffer contents when region 3 is entered: every statement below is at this parameter
variable (V : (c : Dev nD) → (b : Ref sig .tc) → Buf (Elt F) ((c : Thread nD τ).loc b))

/-! # Region 3 of @main: custom_call 3, `cc3__linear2_kernel` (pipeline 3), at the entry contents `V` -/

/-! ## The windows' blocks -/

/-- Window `w`'s block at point `t`: its array's contents at region entry (`V`), read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    not, for any proof data whose array is `V`'s (`hA`) and whose body leaves the block in place (`hafter`): at an
    unfetched point the block index has not moved since the point before (`Dat.before_in_eq_fetched`); the window is
    uncut and never idle, so what a fetch puts there is the block itself. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1 (the 2048×256 block added at the end). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2 (a 1×1024 row, block index constant over the grid: fetched at the first point only). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- The same of input window 3 (a 1×1024 row, fetched at the first point only). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- The same of input window 4 (a 1×1024 row, fetched at the first point only). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- The same of input window 5 (a 1×1024 row, fetched at the first point only). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- The same of input window 6 (the 256×1024 weight, fetched at the first point only). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- The same of input window 7 (the 1×256 bias row, fetched at the first point only). -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole of each staging buffer's shape, as the unit-stride rectangle at offset 0 the body reads or writes it through. -/
abbrev r3_0 : Rect S2048x1024 := Rect.unit (s := S2048x1024) ![0, 0] S2048x1024.size inb_S2048x1024_S2048x1024_0_0
abbrev r3_1 : Rect S1x1024 := Rect.unit (s := S1x1024) ![0, 0] S1x1024.size inb_S1x1024_S1x1024_0_0
abbrev r3_2 : Rect S256x1024 := Rect.unit (s := S256x1024) ![0, 0] S256x1024.size inb_S256x1024_S256x1024_0_0
abbrev r3_3 : Rect S1x256 := Rect.unit (s := S1x256) ![0, 0] S1x256.size inb_S1x256_S1x256_0_0
abbrev r3_4 : Rect S2048x256 := Rect.unit (s := S2048x256) ![0, 0] S2048x256.size inb_S2048x256_S2048x256_0_0

/-! ## What the body leaves in the output window's buffer -/

/-- Window 8's staging buffer after the body, as a function of the eight input blocks (in window order): its one
    store, of the whole 2048×256 shape, as a single piece whose payload is the kernel's value `k3_pay1` at what the
    eight whole-buffer loads read (the payload takes window 1's block, the residual summand, last). -/
def out3_8 (x0 : Vec F S2048x1024 .f32) (x1 : Vec F S2048x256 .f32) (x2 : Vec F S1x1024 .f32) (x3 : Vec F S1x1024 .f32) (x4 : Vec F S1x1024 .f32) (x5 : Vec F S1x1024 .f32) (x6 : Vec F S256x1024 .f32) (x7 : Vec F S1x256 .f32) : Vec F S2048x256 .f32 :=
  View.canon [⟨r3_4, k3_pay1 (View.ld x0 r3_0) (View.ld x2 r3_1) (View.ld x3 r3_1) (View.ld x4 r3_1) (View.ld x5 r3_1) (View.ld x6 r3_2) (View.ld x7 r3_3) (View.ld x1 r3_4)⟩]

/-- The one store is a single tile of the buffer's own size at offset 0, so it covers every coordinate. -/
theorem cover3_8 (p0 : Vec F S2048x256 .f32) (y : S2048x256.Idx) :
    ∃ pc ∈ ([⟨r3_4, p0⟩] : List (View.Piece (Elt F) S2048x256 .f32)), y ∈ pc.1.set :=
  View.cover_of_tiled [⟨r3_4, p0⟩] S2048x256.size (by rfl) y

/-! ## The body's triple -/

set_option maxHeartbeats 1000000 in
/-- The kernel body on whole staging memrefs — the inputs' held at read contents `x0 … x7`, the output's at anything —
    runs to a continuation that holds the inputs' as they were and the output's at `out3_8` of the inputs: the
    kernel function and its one part are sequences of eight whole-buffer loads, a dead whole-buffer load of the output
    and one whole-buffer store; each load returns the contents read through the rectangle, and the buffer after the
    store reads as the canonical form of its one covering piece (`View.read_writes_eq_canon`). -/
theorem sound_kernel3 (c : Dev nD) (E : Set ℕ) (i : grid3.Coords) (arg1 : Memref sig .tc .vmem S2048x1024 .f32) (harg1 : arg1.IsWhole) (arg2 : Memref sig .tc .vmem S2048x256 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S2048x256 .f32) (harg9 : arg9.IsWhole)
    (x0 : Vec F S2048x1024 .f32) (x1 : Vec F S2048x256 .f32) (x2 : Vec F S1x1024 .f32) (x3 : Vec F S1x1024 .f32) (x4 : Vec F S1x1024 .f32) (x5 : Vec F S1x1024 .f32) (x6 : Vec F S256x1024 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ K ⟨⟩))
      ⊢ wp frame (wpE (defs₀ (F := F)) Variants.none c none) E (cc3__linear2_kernel i arg1 harg1 arg2 harg2 arg3 harg3 arg4 harg4 arg5 harg5 arg6 harg6 arg7 harg7 arg8 harg8 arg9 harg9) K := by
  simp only [cc3__linear2_kernel_eq_skeleton]; unfold cc3__linear2_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover3_8 _)

/-! ## The pipeline's proof data -/

/-- The proof data of pipeline 3 on core `c`: the arrays as the region finds them (`V`); after the body at point `t`
    each input's buffer at its block and the output's at `out3_8` of the eight input blocks; the invariant is the
    untouched scoped rest and generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's case split reduced at each literal window). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t`: the invariant, the core's owed amounts, and each window's current
    staging buffer held in full at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns: the same, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' memrefs hold their blocks (`before3_w`), so the body's triple applies at those
    blocks; the invariant and the core's owed amounts pass through unread and do not depend on the point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ (grid3.coords t) _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for pipeline 3, at every point: the obligation's two products over the nine windows
    written out (`bigSep_W3`) are `bodyPre3` and `bodyPost3`. -/
theorem body_obligation3 (c : Dev nD) : BodyObligation (dat3 (F := F) V c) (defs₀ (F := F)) Variants.none () Set.univ := fun t => by
  rw [bigSep_W3, bigSep_W3]
  exact sound_body3 V c t

end Region3

end Cert.Kernel.Fr

end
-- ==== Proof.K.Run.lean ====
/-
  The run of the four-region program and its frame. @main is: a host reshape of the bias row; region 0 (the projection
  Mh = M·W_inᵀ + b_in, row block by row block); region 1 (the aggregation adj·Mh, each output row block accumulated over eight
  column blocks in a scratch buffer and stored at the last); a host stretch (the batch statistics of N and of the aggregate,
  the halves of the affine rows and of W1); region 2 (the first layer); a host stretch (the batch statistics of the first
  layer's output); region 3 (the second layer and the residual). The buffer contents at each of the seven boundaries are
  folded from the launch memory; each region's body half supplies its proof data; the library's theorem for a program of
  several regions then runs @main to a final state holding every unscoped buffer at the last boundary's contents, from which
  the frame (no host stretch writes an argument; no region's output array is one) and the result buffer are read.
-/
import proofs.«150604_j36773509988939_1_alg».proof.Proof.K.Launch
import proofs.«150604_j36773509988939_1_alg».proof.Proof.K.R0
import proofs.«150604_j36773509988939_1_alg».proof.Proof.K.R1
import proofs.«150604_j36773509988939_1_alg».proof.Proof.K.R2
import proofs.«150604_j36773509988939_1_alg».proof.Proof.K.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch, two kernel regions back to back, a host stretch, a region, a host stretch, a region

## The buffer contents at each boundary, folded from the launch memory

Each host stretch maps the contents through its operations; each region replaces its windows' arrays by what its
write-backs leave and keeps every other buffer. -/

/-- Core `c`'s buffers at launch. -/
abbrev W0 : Dev nD → Valuation τ sig (Elt F) := fun c b => m ((c : Dev nD), b)
/-- After the first host stretch (the bias row reshaped): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0 (the projection M·W_inᵀ + b_in): region 1's entry. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After region 1 (the aggregation adj·Mh). -/
def W3 (c : Dev nD) : Valuation τ sig (Elt F) :=
  Pipeline.withArrays spec1 c (W2 m c) fun w => (dat1 (V2 m) c).arrAt w cfg1.N
/-- After the second host stretch (the first batch statistics, the halves of the affine rows and of W1): region 2's entry. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After region 2 (the first layer). -/
def W5 (c : Dev nD) : Valuation τ sig (Elt F) :=
  Pipeline.withArrays spec2 c (W4 m c) fun w => (dat2 (V4 m) c).arrAt w cfg2.N
/-- After the third host stretch (the second batch statistics): region 3's entry. -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b
/-- After region 3 (the second layer and the residual): the end of @main. -/
def W7 (c : Dev nD) : Valuation τ sig (Elt F) :=
  Pipeline.withArrays spec3 c (W6 m c) fun w => (dat3 (V6 m) c).arrAt w cfg3.N
abbrev V3 : (c : Dev nD) → (b : Ref sig .tc) → Buf (Elt F) ((c : Thread nD τ).loc b) := fun c b => W3 m c b
abbrev V5 : (c : Dev nD) → (b : Ref sig .tc) → Buf (Elt F) ((c : Thread nD τ).loc b) := fun c b => W5 m c b
abbrev V7 : (c : Dev nD) → (b : Ref sig .tc) → Buf (Elt F) ((c : Thread nD τ).loc b) := fun c b => W7 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb

/-- The two hypotheses of the exit step of each region: its arrays at what the pipeline leaves, the rest as entered. -/
theorem hF0 (c : Dev nD) (w : Fin cfg0.W) : (dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
theorem hF2 (c : Dev nD) (w : Fin cfg2.W) : (dat2 (V4 m) c).arrAt w cfg2.N = V5 m c (Pipeline.arrRef spec2 w) := (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
theorem hF3 (c : Dev nD) (w : Fin cfg3.W) : (dat3 (V6 m) c).arrAt w cfg3.N = V7 m c (Pipeline.arrRef spec3 w) := (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-! ## What each host stretch writes, and what every item keeps -/

/-- The references the operations of `hostOps0` write. -/
abbrev hostOps0_W : List (Ref sig .tc) := [main_v0]
theorem hostOps0_fresh : (hostOps0 : List (HloOp τ sig (Elt F))).Forall fun op => op.fresh = ∅ := by
  simp only [List.Forall]; repeat' constructor
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references the operations of `hostOps2` write. -/
abbrev hostOps2_W : List (Ref sig .tc) := [main_cst, main_v3, main_cst_0, main_v4, main_v5, main_v6, main_v7, main_v8, main_v9, main_cst_1, main_v10, main_cst_2, main_v11, main_v12, main_cst_3, main_v13, main_cst_4, main_v14, main_v15, main_v16, main_v17, main_v18, main_v19, main_cst_5, main_v20, main_cst_6, main_v21, main_v22, main_v23, main_v24, main_v25, main_v26, main_v27, main_v28, main_v29, main_v30, main_v31, main_v32, main_v33, main_v34, main_v35, main_v36, main_v37]
theorem hostOps2_fresh : (hostOps2 : List (HloOp τ sig (Elt F))).Forall fun op => op.fresh = ∅ := by
  simp only [List.Forall]; repeat' constructor
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references the operations of `hostOps3` write. -/
abbrev hostOps3_W : List (Ref sig .tc) := [main_cst_7, main_v39, main_cst_8, main_v40, main_v41, main_v42, main_v43, main_v44, main_v45, main_cst_9, main_v46, main_cst_10, main_v47, main_v48, main_v49, main_v50, main_v51, main_v52, main_v53]
theorem hostOps3_fresh : (hostOps3 : List (HloOp τ sig (Elt F))).Forall fun op => op.fresh = ∅ := by
  simp only [List.Forall]; repeat' constructor
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem W1_keep (c : Dev nD) (b : Ref sig .tc) (h : b ∉ hostOps0_W) : W1 m c (Proc.devRef .tc b) = W0 m c (Proc.devRef .tc b) :=
  StableHlo.after_of_writes_sub hostOps0 _ hostOps0_writes h
theorem W4_keep (c : Dev nD) (b : Ref sig .tc) (h : b ∉ hostOps2_W) : W4 m c (Proc.devRef .tc b) = W3 m c (Proc.devRef .tc b) :=
  StableHlo.after_of_writes_sub hostOps2 _ hostOps2_writes h
theorem W6_keep (c : Dev nD) (b : Ref sig .tc) (h : b ∉ hostOps3_W) : W6 m c (Proc.devRef .tc b) = W5 m c (Proc.devRef .tc b) :=
  StableHlo.after_of_writes_sub hostOps3 _ hostOps3_writes h

/-- Region 0 changes only its output's array `main_v1`: an input window's array ends as entered, any other buffer is kept. -/
theorem W2_keep (c : Dev nD) (b : Ref sig .tc) (hb : b ≠ main_v1) : W2 m c (Proc.devRef .tc b) = W1 m c (Proc.devRef .tc b) := by
  by_cases h : ∃ w, Pipeline.arrRef spec0 w = b
  · obtain ⟨w, rfl⟩ := h
    match w with
    | ⟨0, _⟩ => exact (W2_arr m c _).trans (((dat0 (V1 m) c).arrAt_in _ rfl _).trans (A_eq0 (V1 m) c _))
    | ⟨1, _⟩ => exact (W2_arr m c _).trans (((dat0 (V1 m) c).arrAt_in _ rfl _).trans (A_eq0 (V1 m) c _))
    | ⟨2, _⟩ => exact (W2_arr m c _).trans (((dat0 (V1 m) c).arrAt_in _ rfl _).trans (A_eq0 (V1 m) c _))
    | ⟨3, _⟩ => exact absurd rfl hb
  · exact W2_of_ne m c b fun w e => h ⟨w, e⟩

/-- Region 1 changes only its output's array `main_v2`: an input window's array ends as entered, any other buffer is kept. -/
theorem W3_keep (c : Dev nD) (b : Ref sig .tc) (hb : b ≠ main_v2) : W3 m c (Proc.devRef .tc b) = W2 m c (Proc.devRef .tc b) := by
  by_cases h : ∃ w, Pipeline.arrRef spec1 w = b
  · obtain ⟨w, rfl⟩ := h
    match w with
    | ⟨0, _⟩ => exact (W3_arr m c _).trans (((dat1 (V2 m) c).arrAt_in _ rfl _).trans (A_eq1 (V2 m) c _))
    | ⟨1, _⟩ => exact (W3_arr m c _).trans (((dat1 (V2 m) c).arrAt_in _ rfl _).trans (A_eq1 (V2 m) c _))
    | ⟨2, _⟩ => exact absurd rfl hb
  · exact W3_of_ne m c b fun w e => h ⟨w, e⟩

/-- Region 2 changes only its output's array `main_v38`: an input window's array ends as entered, any other buffer is kept. -/
theorem W5_keep (c : Dev nD) (b : Ref sig .tc) (hb : b ≠ main_v38) : W5 m c (Proc.devRef .tc b) = W4 m c (Proc.devRef .tc b) := by
  by_cases h : ∃ w, Pipeline.arrRef spec2 w = b
  · obtain ⟨w, rfl⟩ := h
    match w with
    | ⟨0, _⟩ => exact (W5_arr m c _).trans (((dat2 (V4 m) c).arrAt_in _ rfl _).trans (A_eq2 (V4 m) c _))
    | ⟨1, _⟩ => exact (W5_arr m c _).trans (((dat2 (V4 m) c).arrAt_in _ rfl _).trans (A_eq2 (V4 m) c _))
    | ⟨2, _⟩ => exact (W5_arr m c _).trans (((dat2 (V4 m) c).arrAt_in _ rfl _).trans (A_eq2 (V4 m) c _))
    | ⟨3, _⟩ => exact (W5_arr m c _).trans (((dat2 (V4 m) c).arrAt_in _ rfl _).trans (A_eq2 (V4 m) c _))
    | ⟨4, _⟩ => exact (W5_arr m c _).trans (((dat2 (V4 m) c).arrAt_in _ rfl _).trans (A_eq2 (V4 m) c _))
    | ⟨5, _⟩ => exact (W5_arr m c _).trans (((dat2 (V4 m) c).arrAt_in _ rfl _).trans (A_eq2 (V4 m) c _))
    | ⟨6, _⟩ => exact (W5_arr m c _).trans (((dat2 (V4 m) c).arrAt_in _ rfl _).trans (A_eq2 (V4 m) c _))
    | ⟨7, _⟩ => exact (W5_arr m c _).trans (((dat2 (V4 m) c).arrAt_in _ rfl _).trans (A_eq2 (V4 m) c _))
    | ⟨8, _⟩ => exact (W5_arr m c _).trans (((dat2 (V4 m) c).arrAt_in _ rfl _).trans (A_eq2 (V4 m) c _))
    | ⟨9, _⟩ => exact (W5_arr m c _).trans (((dat2 (V4 m) c).arrAt_in _ rfl _).trans (A_eq2 (V4 m) c _))
    | ⟨10, _⟩ => exact (W5_arr m c _).trans (((dat2 (V4 m) c).arrAt_in _ rfl _).trans (A_eq2 (V4 m) c _))
    | ⟨11, _⟩ => exact (W5_arr m c _).trans (((dat2 (V4 m) c).arrAt_in _ rfl _).trans (A_eq2 (V4 m) c _))
    | ⟨12, _⟩ => exact (W5_arr m c _).trans (((dat2 (V4 m) c).arrAt_in _ rfl _).trans (A_eq2 (V4 m) c _))
    | ⟨13, _⟩ => exact absurd rfl hb
  · exact W5_of_ne m c b fun w e => h ⟨w, e⟩

/-- Region 3 changes only its output's array `main_v54`: an input window's array ends as entered, any other buffer is kept. -/
theorem W7_keep (c : Dev nD) (b : Ref sig .tc) (hb : b ≠ main_v54) : W7 m c (Proc.devRef .tc b) = W6 m c (Proc.devRef .tc b) := by
  by_cases h : ∃ w, Pipeline.arrRef spec3 w = b
  · obtain ⟨w, rfl⟩ := h
    match w with
    | ⟨0, _⟩ => exact (W7_arr m c _).trans (((dat3 (V6 m) c).arrAt_in _ rfl _).trans (A_eq3 (V6 m) c _))
    | ⟨1, _⟩ => exact (W7_arr m c _).trans (((dat3 (V6 m) c).arrAt_in _ rfl _).trans (A_eq3 (V6 m) c _))
    | ⟨2, _⟩ => exact (W7_arr m c _).trans (((dat3 (V6 m) c).arrAt_in _ rfl _).trans (A_eq3 (V6 m) c _))
    | ⟨3, _⟩ => exact (W7_arr m c _).trans (((dat3 (V6 m) c).arrAt_in _ rfl _).trans (A_eq3 (V6 m) c _))
    | ⟨4, _⟩ => exact (W7_arr m c _).trans (((dat3 (V6 m) c).arrAt_in _ rfl _).trans (A_eq3 (V6 m) c _))
    | ⟨5, _⟩ => exact (W7_arr m c _).trans (((dat3 (V6 m) c).arrAt_in _ rfl _).trans (A_eq3 (V6 m) c _))
    | ⟨6, _⟩ => exact (W7_arr m c _).trans (((dat3 (V6 m) c).arrAt_in _ rfl _).trans (A_eq3 (V6 m) c _))
    | ⟨7, _⟩ => exact (W7_arr m c _).trans (((dat3 (V6 m) c).arrAt_in _ rfl _).trans (A_eq3 (V6 m) c _))
    | ⟨8, _⟩ => exact absurd rfl hb
  · exact W7_of_ne m c b fun w e => h ⟨w, e⟩

/-- A buffer that no host stretch writes and that is no region's output ends @main as launched. -/
theorem W7_launch (c : Dev nD) (b : Ref sig .tc) (h0 : b ∉ hostOps0_W) (h1 : b ≠ main_v1) (h2 : b ≠ main_v2) (h3 : b ∉ hostOps2_W)
    (h4 : b ≠ main_v38) (h5 : b ∉ hostOps3_W) (h6 : b ≠ main_v54) : W7 m c (Proc.devRef .tc b) = m ((c : Thread nD τ).loc b) :=
  (W7_keep m c b h6).trans <| (W6_keep m c b h5).trans <| (W5_keep m c b h4).trans <| (W4_keep m c b h3).trans <|
    (W3_keep m c b h2).trans <| (W2_keep m c b h1).trans <| (W1_keep m c b h0).trans rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
  | ⟨3, _⟩ => fun c => dat3 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 as a segment: entered with every unscoped buffer at `W1`, left with them at `W2`. Its windows' arrays are
    split out of the unscoped buffers at entry and put back at what the write-backs leave at exit; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its windows' arrays are
    split out of the unscoped buffers at entry and put back at what the write-backs leave at exit; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) spec1 c) : sProp 𝕄) ⊢ Pipeline.ΦA spec1 c := by
      unfold Pipeline.ΦA
      iintro ⟨Hp, -, Hr⟩
      isplitl [Hr]; · iexact Hr
      iexact Hp
    exact h1.trans (hin1 (V2 m) c)
  hout c := by
    rw [Pipeline.ownSems0_none]
    have h2 : (Pipeline.ΦA spec1 c : sProp 𝕄) ⊢ iprop((∃ r, prngReg c r) ∗ BI.emp
        ∗ Pipeline.scopedRest (Ix := Unit) (Name := ℕ) (U := UR sig nD τ) (Lvl := ℕ) spec1 c) := by
      unfold Pipeline.ΦA
      iintro ⟨Hr, Hp⟩
      isplitl [Hp]; · iexact Hp
      isplitr; · iempintro
      iexact Hr
    exact (hout1 (V2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W4`, left with them at `W5`. Its windows' arrays are
    split out of the unscoped buffers at entry and put back at what the write-backs leave at exit; the generator register
    goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W6`, left with them at `W7`. Its windows' arrays are
    split out of the unscoped buffers at entry and put back at what the write-backs leave at exit; the generator register
    goes into the region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)),
    .region (reg3 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates without a fault, and in every final
    state each unscoped TensorCore buffer holds the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The frame, and the run with its result named -/

/-- Every weakly fair execution of @main terminates without a fault and leaves each of the thirteen argument arrays as launched:
    no host stretch writes an argument and no region's output array is one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W7_launch m c main_arg0 (by decide) (by decide) (by decide) (by decide) (by decide) (by decide) (by decide)),
     (h c _ (mem_uc main_arg1 (by decide))).trans (W7_launch m c main_arg1 (by decide) (by decide) (by decide) (by decide) (by decide) (by decide) (by decide)),
     (h c _ (mem_uc main_arg2 (by decide))).trans (W7_launch m c main_arg2 (by decide) (by decide) (by decide) (by decide) (by decide) (by decide) (by decide)),
     (h c _ (mem_uc main_arg3 (by decide))).trans (W7_launch m c main_arg3 (by decide) (by decide) (by decide) (by decide) (by decide) (by decide) (by decide)),
     (h c _ (mem_uc main_arg4 (by decide))).trans (W7_launch m c main_arg4 (by decide) (by decide) (by decide) (by decide) (by decide) (by decide) (by decide)),
     (h c _ (mem_uc main_arg5 (by decide))).trans (W7_launch m c main_arg5 (by decide) (by decide) (by decide) (by decide) (by decide) (by decide) (by decide)),
     (h c _ (mem_uc main_arg6 (by decide))).trans (W7_launch m c main_arg6 (by decide) (by decide) (by decide) (by decide) (by decide) (by decide) (by decide)),
     (h c _ (mem_uc main_arg7 (by decide))).trans (W7_launch m c main_arg7 (by decide) (by decide) (by decide) (by decide) (by decide) (by decide) (by decide)),
     (h c _ (mem_uc main_arg8 (by decide))).trans (W7_launch m c main_arg8 (by decide) (by decide) (by decide) (by decide) (by decide) (by decide) (by decide)),
     (h c _ (mem_uc main_arg9 (by decide))).trans (W7_launch m c main_arg9 (by decide) (by decide) (by decide) (by decide) (by decide) (by decide) (by decide)),
     (h c _ (mem_uc main_arg10 (by decide))).trans (W7_launch m c main_arg10 (by decide) (by decide) (by decide) (by decide) (by decide) (by decide) (by decide)),
     (h c _ (mem_uc main_arg11 (by decide))).trans (W7_launch m c main_arg11 (by decide) (by decide) (by decide) (by decide) (by decide) (by decide) (by decide)),
     (h c _ (mem_uc main_arg12 (by decide))).trans (W7_launch m c main_arg12 (by decide) (by decide) (by decide) (by decide) (by decide) (by decide) (by decide))⟩) (run_all m ρ)

/-- The same run with the result buffer `main_v54` named: it ends at the last boundary's contents, which region 3's
    write-backs left there. -/
theorem run_result : θ_run defs (onTc (τ := τ) (main (F := F))) ⟨m, fun _ => 0, ρ⟩ (fun r => ∀ c : Dev nD,
      r.2.mem ((c.tc : Thread nD τ).loc main_v54) = W7 m c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v54 (by decide)),
     (h c _ (mem_uc main_arg0 (by decide))).trans (W7_launch m c main_arg0 (by decide) (by decide) (by decide) (by decide) (by decide) (by decide) (by decide)),
     (h c _ (mem_uc main_arg1 (by decide))).trans (W7_launch m c main_arg1 (by decide) (by decide) (by decide) (by decide) (by decide) (by decide) (by decide)),
     (h c _ (mem_uc main_arg2 (by decide))).trans (W7_launch m c main_arg2 (by decide) (by decide) (by decide) (by decide) (by decide) (by decide) (by decide)),
     (h c _ (mem_uc main_arg3 (by decide))).trans (W7_launch m c main_arg3 (by decide) (by decide) (by decide) (by decide) (by decide) (by decide) (by decide)),
     (h c _ (mem_uc main_arg4 (by decide))).trans (W7_launch m c main_arg4 (by decide) (by decide) (by decide) (by decide) (by decide) (by decide) (by decide)),
     (h c _ (mem_uc main_arg5 (by decide))).trans (W7_launch m c main_arg5 (by decide) (by decide) (by decide) (by decide) (by decide) (by decide) (by decide)),
     (h c _ (mem_uc main_arg6 (by decide))).trans (W7_launch m c main_arg6 (by decide) (by decide) (by decide) (by decide) (by decide) (by decide) (by decide)),
     (h c _ (mem_uc main_arg7 (by decide))).trans (W7_launch m c main_arg7 (by decide) (by decide) (by decide) (by decide) (by decide) (by decide) (by decide)),
     (h c _ (mem_uc main_arg8 (by decide))).trans (W7_launch m c main_arg8 (by decide) (by decide) (by decide) (by decide) (by decide) (by decide) (by decide)),
     (h c _ (mem_uc main_arg9 (by decide))).trans (W7_launch m c main_arg9 (by decide) (by decide) (by decide) (by decide) (by decide) (by decide) (by decide)),
     (h c _ (mem_uc main_arg10 (by decide))).trans (W7_launch m c main_arg10 (by decide) (by decide) (by decide) (by decide) (by decide) (by decide) (by decide)),
     (h c _ (mem_uc main_arg11 (by decide))).trans (W7_launch m c main_arg11 (by decide) (by decide) (by decide) (by decide) (by decide) (by decide) (by decide)),
     (h c _ (mem_uc main_arg12 (by decide))).trans (W7_launch m c main_arg12 (by decide) (by decide) (by decide) (by decide) (by decide) (by decide) (by decide))⟩) (run_all m ρ)

end Cert.Kernel.Fr

end
-- ==== Proof.KI.R0.lean ====
import proofs.«150604_j36773509988939_1_alg».proof.Proof.KI.Launch
import proofs.«150604_j36773509988939_1_alg».proof.Proof.Gen.KernelIdeal.Skeleton
import proofs.«150604_j36773509988939_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 0 of @main: the body half of its frame

Region 0 is the pipelined call of the kernel function that computes one 2048×256 row block of
`Mh = bf16(M) · bf16(W_in)ᵀ + b_in` per grid point, over a grid of 8 points. Its four windows are: window 0, the row
block of `M` at the point; window 1, `W_in` whole; window 2, `b_in` as one row; window 3, the row block of the result.

Everything here is stated at a PARAMETER `V`: the TensorCore's buffer contents when the region is entered. For that
`V` this file gives each window's block at a point, what the body leaves in the output window's staging buffer as a
function of the three input blocks, the body's triple, the pipeline's proof data and the body obligation. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of `M`): its current staging buffer holds its block at every point, for ANY proof
    data whose array is `V`'s (`hA`) and whose body leaves the block in place (`hafter`). The window is an input,
    never idle and uncut, so what is in the buffer before the body is what the last fetch brought, and between fetches
    the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (`W_in` whole, one block for the whole grid): the same statement. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (`b_in` as one row, one block for the whole grid): the same statement. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer is read or written whole -/

/-- The whole of a 2048×256 buffer (the row block of `M`, and the row block of the result). -/
abbrev r0_0 : Rect S2048x256 := Rect.unit (s := S2048x256) ![0, 0] S2048x256.size inb_S2048x256_S2048x256_0_0
/-- The whole of the 256×256 buffer (`W_in`). -/
abbrev r0_1 : Rect S256x256 := Rect.unit (s := S256x256) ![0, 0] S256x256.size inb_S256x256_S256x256_0_0
/-- The whole of the 1×256 buffer (`b_in`). -/
abbrev r0_2 : Rect S1x256 := Rect.unit (s := S1x256) ![0, 0] S1x256.size inb_S1x256_S1x256_0_0

/-! ## What the body leaves in the output window's buffer -/

/-- Window 3's staging buffer after the body, from the three input blocks: the body's one store, of
    `bf16(x0) · bf16(x1)ᵀ + x2` broadcast along the rows (the payload `k0_pay1`), over the whole buffer. What the
    buffer held before is overwritten everywhere, so it does not enter. -/
def out0_3 (x0 : Vec F S2048x256 .f32) (x1 : Vec F S256x256 .f32) (x2 : Vec F S1x256 .f32) : Vec F S2048x256 .f32 :=
  View.canon [⟨r0_0, k0_pay1 (View.ld x0 r0_0) (View.ld x1 r0_1) (View.ld x2 r0_2)⟩]

/-- The one store is of the whole buffer, so it covers it. -/
theorem cover0_3 (p0 : Vec F S2048x256 .f32) (y : S2048x256.Idx) :
    ∃ pc ∈ ([⟨r0_0, p0⟩] : List (View.Piece (Elt F) S2048x256 .f32)), y ∈ pc.1.set :=
  View.cover_of_tiled [⟨r0_0, p0⟩] S2048x256.size (by rfl) y

/-! ## The body's triple -/

set_option maxHeartbeats 1000000 in
/-- The kernel body on whole staging memrefs, the three inputs' at read contents `x0 x1 x2` and the output's at
    anything, runs to the continuation holding the inputs' as they were and the output's at `out0_3 x0 x1 x2`. The body
    is its three whole loads, a load of the output buffer whose value is not used, and the one whole store. -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2048x256 .f32) (harg4 : arg4.IsWhole)
    (x0 : Vec F S2048x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mh_kernel i arg1 harg1 arg2 harg2 arg3 harg3 arg4 harg4) K := by
  simp only [cc0__mh_kernel_eq_skeleton]; unfold cc0__mh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's owed count, and each window's current
    staging memref, whole, at what the pipeline has left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, each memref at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_w`), so `sound_kernel0` applies; the
    invariant and the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.R1.lean ====
/- Kernel region 1, the K-blocked product `M2N = adj · Mh` (grid (16, 8); the second coordinate is the contraction
   step `k`): the BODY HALF of its frame proof, at a parameter `V` — the TensorCore's buffer contents when the region is
   entered — and at any float family.
   The body zeroes a scratch accumulator at `k = 0`, adds the product of the two input blocks to it at every step, and
   copies it into the output window's block at `k = 7`. So three cases occur: A (`k = 0`), B (`0 < k < 7`), C (`k = 7`).
   In order: each window's block at a point; the two conditions in closed form over the point's position (≡ 0, ≡ 7
   mod 8); where the output window is idle and not written back (A, B) and where it is live (C); the region invariant
   with the accumulator taken out of the core's other scoped buffers; the body's triple per case, as a subtype whose
   witness is the pieces the output's buffer and the accumulator end with; what those hold after each point
   (`outsAt1`, the accumulation); the proof data `dat1`; the body obligation; and the invariant's two ends
   (`hin1`, `hout1`). -/
import proofs.«150604_j36773509988939_1_alg».proof.Proof.KI.Launch
import proofs.«150604_j36773509988939_1_alg».proof.Proof.Gen.KernelIdeal.Skeleton
import proofs.«150604_j36773509988939_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the block of `adj` at row block `i`, column block `k`): its current staging buffer holds its
    block at every point, fetched there or not, for any proof data whose array is `V`'s and whose body leaves the
    block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the block of `Mh` at row block `k`): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The condition of the body's first conditional (zero the accumulator): the contraction step is 0. -/
abbrev cond1_0 (i : grid1.Coords) : Prop := (Scalar.cmpi .ne (Scalar.extui (Scalar.cmpi .eq (BitVec.ofNat 32 (i 1).val) 0#32)) 0#32) = 1#1
/-- It holds at the positions ≡ 0 (mod 8) — decided over the grid's 128 points. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (copy the accumulator out): the contraction step is 7, the last. -/
abbrev cond1_1 (i : grid1.Coords) : Prop := k1_cond2 i = 1#1
/-- It holds at the positions ≡ 7 (mod 8) — decided over the grid's 128 points. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- At the first contraction step the output window is idle: the body stores nothing into it. -/
theorem idleAt1_2_A : ∀ t : Fin cfg1.N, cond1_0 (grid1.coords t) → ¬cond1_1 (grid1.coords t) → cfg1.idle 2 (grid1.coords t) = true := by decide +kernel
/-- And its block is not written back there. -/
theorem noFlush1_2_A : ∀ t : Fin cfg1.N, cond1_0 (grid1.coords t) → ¬cond1_1 (grid1.coords t) → (cfg1.win 2).flush t = false := by decide +kernel
/-- At the contraction steps strictly between the first and the last the output window is idle. -/
theorem idleAt1_2_B : ∀ t : Fin cfg1.N, ¬cond1_0 (grid1.coords t) → ¬cond1_1 (grid1.coords t) → cfg1.idle 2 (grid1.coords t) = true := by decide +kernel
/-- And its block is not written back there. -/
theorem noFlush1_2_B : ∀ t : Fin cfg1.N, ¬cond1_0 (grid1.coords t) → ¬cond1_1 (grid1.coords t) → (cfg1.win 2).flush t = false := by decide +kernel
/-- At the last contraction step the output window is live: the body stores into it. -/
theorem liveAt1_2_C : ∀ t : Fin cfg1.N, ¬cond1_0 (grid1.coords t) → cond1_1 (grid1.coords t) → cfg1.idle 2 (grid1.coords t) = false := by decide +kernel

/-! ## The staging and scratch memrefs -/

/-- One staging buffer of output window 2, through which its contents are stated (the choice does not matter: a
    whole buffer's contents read back through its own view). -/
abbrev VO1_2 : View sig .tc .vmem S1024x256 .f32 := (Memref.whole cc1_stg2_0 : Memref sig .tc .vmem S1024x256 .f32).view
/-- The scratch accumulator: a whole scoped buffer of the kernel's own, passed beside the windows. -/
abbrev scM1_0 : Memref sig .tc .vmem S1024x256 .f32 := Memref.whole cc1_scratch0
/-- The accumulator as a view: what it holds between points is stated through it. -/
abbrev VS1_0 : View sig .tc .vmem S1024x256 .f32 := scM1_0.view

/-- The region invariant with the accumulator as a memref owned at some contents, the core's other scoped buffers
    (no staging buffer of this region) left conjoined and unopened, and the generator register at some state. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body's triple, case by case -/

set_option maxHeartbeats 1000000 in
/-- CASE A, the first contraction step (first conditional taken, second not). What the body's stores leave in the
    output window's staging memref (no piece: it stores nothing there) and in the accumulator (its pieces, last
    first: the zero fill, then the zero fill plus this step's product), WITH the proof that on whole memrefs — the two
    input blocks at their contents `x0`, `x1`, the output's buffer at contents `xi2` handed back untouched, the
    accumulator at anything — the body runs to the continuation holding the inputs as they were, the output's buffer
    as it was and the accumulator with its pieces written. -/
noncomputable def kernelRun1_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B, a contraction step strictly between the first and the last (neither conditional taken). What the body's
    stores leave in the output window's staging memref (no piece) and in the accumulator (one piece: what it held,
    `xs0`, plus this step's product), WITH the proof that on whole memrefs — the two input blocks at `x0`, `x1`, the
    output's buffer at `xi2` handed back untouched, the accumulator at what the point before left, `xs0` — the body
    runs to the continuation holding the inputs and the output's buffer as they were and the accumulator with its
    piece written. -/
noncomputable def kernelRun1_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C, the last contraction step (first conditional not taken, second taken). What the body's stores leave in
    the output window's staging memref (one piece: the accumulator's final contents) and in the accumulator (one
    piece: what it held, `xs0`, plus this step's product), WITH the proof that on whole memrefs — the two input
    blocks at `x0`, `x1`, the output's buffer at anything, the accumulator at what the point before left, `xs0` — the
    body runs to the continuation holding the inputs as they were and the output's buffer and the accumulator with
    their pieces written. -/
noncomputable def kernelRun1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## What each case leaves in the output window's buffer and in the accumulator -/

/-- Case A stores nothing into the output window (idle at its points and not written back there): no pieces — a
    placeholder (junk read back) that nothing consults. -/
def out1_A_2 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .f32) : Vec F S1024x256 .f32 :=
  VO1_2.read (Elt F) (VO1_2.writes (Elt F) VO1_2.junk (kernelRun1_A c i arg2 harg2 arg3 harg3 arg4 harg4 arg5 harg5 hc0 hc1 x0 x1).1)

/-- Case A's pieces for the accumulator cover it: whole-buffer pieces tiling it. -/
theorem scover1_A_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .f32) (y : S1024x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x256.size (by sl_kernel_rfl) y

/-- What case A leaves in the accumulator: its pieces read back over junk. -/
def sout1_A_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .f32) : Vec F S1024x256 .f32 :=
  VS1_0.read (Elt F) (VS1_0.writes (Elt F) VS1_0.junk (kernelRun1_A c i arg2 harg2 arg3 harg3 arg4 harg4 arg5 harg5 hc0 hc1 x0 x1).2.1)

/-- Case B stores nothing into the output window: no pieces, a placeholder that nothing consults. -/
def out1_B_2 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .f32) (xs0 : Vec F S1024x256 .f32) : Vec F S1024x256 .f32 :=
  VO1_2.read (Elt F) (VO1_2.writes (Elt F) VO1_2.junk (kernelRun1_B c i arg2 harg2 arg3 harg3 arg4 harg4 arg5 harg5 hc0 hc1 x0 x1 xs0).1)

/-- Case B's piece for the accumulator covers it. -/
theorem scover1_B_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .f32) (xs0 : Vec F S1024x256 .f32) (y : S1024x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x256.size (by sl_kernel_rfl) y

/-- What case B leaves in the accumulator: its piece read back over junk. -/
def sout1_B_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .f32) (xs0 : Vec F S1024x256 .f32) : Vec F S1024x256 .f32 :=
  VS1_0.read (Elt F) (VS1_0.writes (Elt F) VS1_0.junk (kernelRun1_B c i arg2 harg2 arg3 harg3 arg4 harg4 arg5 harg5 hc0 hc1 x0 x1 xs0).2.1)

/-- Case C's piece for the output window tiles its block (one whole-block store), so it covers it. -/
theorem cover1_C_2 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) (y : S1024x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x256.size (by sl_kernel_rfl) y

/-- What case C leaves in the output window's staging buffer: its piece read back over junk. -/
def out1_C_2 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) : Vec F S1024x256 .f32 :=
  VO1_2.read (Elt F) (VO1_2.writes (Elt F) VO1_2.junk (kernelRun1_C c i arg2 harg2 arg3 harg3 arg4 harg4 arg5 harg5 hc0 hc1 x0 x1 xs0).1)

/-- Case C's piece for the accumulator covers it. -/
theorem scover1_C_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) (y : S1024x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x256.size (by sl_kernel_rfl) y

/-- What case C leaves in the accumulator: its piece read back over junk. -/
def sout1_C_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) : Vec F S1024x256 .f32 :=
  VS1_0.read (Elt F) (VS1_0.writes (Elt F) VS1_0.junk (kernelRun1_C c i arg2 harg2 arg3 harg3 arg4 harg4 arg5 harg5 hc0 hc1 x0 x1 xs0).2.1)

/-! ## The staging memrefs at a point -/

/-- Each window's current staging memref at point `t`, spelled as the pipeline passes it to the body, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)

section Region
-- the TensorCore's buffer contents when the region is entered: the parameter the region's half is stated at
variable (V : (c : Dev nD) → (b : Ref sig .tc) → Buf (Elt F) ((c : Thread nD τ).loc b))

/-! ## What the output window's buffer and the accumulator hold after each point -/

/-- THE ACCUMULATION. What the output window's staging buffer and the accumulator hold after the body at position
    `n` (a pair: the output's buffer, then the accumulator): the case the closed forms select at `n`, run at the
    point's memrefs and the two input blocks there, the accumulator read at what this leaves at `n - 1`. The two
    conditions never hold together (0 ≠ 7 mod 8): that assignment is no case. -/
def outsAt1 (c : Dev nD) : (n : ℕ) → n < cfg1.N → Vec F S1024x256 .f32 × Vec F S1024x256 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left in the accumulator. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the accumulator. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of the region at anything, the generator register at some state); afterwards the accumulator at
    what the point before left in it, the core's other scoped buffers at anything (conjoined, unopened), and the
    generator register at some state. -/
def PhiS (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the accumulator at that point's contents. -/
theorem PhiS_succ (c : Dev nD) (n : ℕ) (hn : n < cfg1.N) :
    PhiS V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them (`V`); after the body
    at point `t` each input's buffer at its block and the output's at `outsAt1`'s first component; the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the closed forms say which case the point is in.
    At the first contraction step (A) the invariant hands the body the accumulator at anything (before the first point
    of all) or at what the point before left, which the case overwrites; at the later steps (B, C) at what the point
    before left. The case's run applies; the invariant takes the accumulator back at this point's contents (its pieces
    cover it), the core's other scoped buffers and the generator register pass through unread, the core owes nothing
    throughout; the output's buffer is handed back untouched where the window is idle (A, B) and at its piece read back
    where it is stored (C). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _)
            iexact HR
          iexact Hg
        isplitl [Ho]; · iexact Ho
        isplitl [H0]; · iexact H0
        isplitl [H1]; · iexact H1
        iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region

end Cert.KernelIdeal.Fr

end
-- ==== Proof.KI.R2.lean ====
/- The body half of the frame proof for kernel region 2 of KernelIdeal's @main (custom_call 2,
   `cc2__linear1_kernel`, pipeline 2), stated at a parameter `V`: the TensorCore's buffer contents when the region is
   entered. Thirteen input windows (two 2048×256 row blocks, eight 1×256 rows, two 1024×256 weight halves, one 1×1024
   bias row) and one output window (a 2048×1024 block). The body reads every input staging buffer whole, normalises
   the two row blocks, multiplies each by its transposed weight half, adds the products and the bias, applies the
   leaky rectifier, and writes the output staging buffer whole with one store. So what it leaves in the output
   buffer is a closed function of the thirteen input blocks at the point, and it leaves every input block in place.
   Generic in the float family. -/
import proofs.«150604_j36773509988939_1_alg».proof.Proof.KI.Launch
import proofs.«150604_j36773509988939_1_alg».proof.Proof.Gen.KernelIdeal.Skeleton
import proofs.«150604_j36773509988939_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # REGION 2 of @main: custom_call 2, `cc2__linear1_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not, for ANY proof
    data whose array is `V`'s (`hA`) and whose body leaves the block in place (`hafter`): where the window is not
    fetched its block index has not moved, so the block the previous point left is this point's. Every input window
    here is uncut and never idle. Windows 0 and 1 move with the grid; windows 2 to 12 have a constant index map and
    are fetched at the first point only. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole, one rectangle per block shape -/

abbrev r2_0 : Rect S2048x256 := Rect.unit (s := S2048x256) ![0, 0] S2048x256.size inb_S2048x256_S2048x256_0_0
abbrev r2_1 : Rect S1x256 := Rect.unit (s := S1x256) ![0, 0] S1x256.size inb_S1x256_S1x256_0_0
abbrev r2_2 : Rect S1024x256 := Rect.unit (s := S1024x256) ![0, 0] S1024x256.size inb_S1024x256_S1024x256_0_0
abbrev r2_3 : Rect S1x1024 := Rect.unit (s := S1x1024) ![0, 0] S1x1024.size inb_S1x1024_S1x1024_0_0
abbrev r2_4 : Rect S2048x1024 := Rect.unit (s := S2048x1024) ![0, 0] S2048x1024.size inb_S2048x1024_S2048x1024_0_0

/-! ## What the body leaves in the output window's buffer -/

/-- Window 13's staging buffer after the body, from the thirteen input blocks in window order: its one store, of
    the whole buffer. The payload is the leaky rectifier of `n0 · w10ᵀ + n1 · w11ᵀ + bias`, where `n0` is block 0
    normalised by rows 2 to 5 (mean, variance, scale, shift) and `n1` is block 1 normalised by rows 6 to 8 with
    row 9 added (mean, variance, scale; shift), both rounded to bf16 before the products. -/
def out2_13 (x0 : Vec F S2048x256 .f32) (x1 : Vec F S2048x256 .f32) (x2 : Vec F S1x256 .f32) (x3 : Vec F S1x256 .f32)
    (x4 : Vec F S1x256 .f32) (x5 : Vec F S1x256 .f32) (x6 : Vec F S1x256 .f32) (x7 : Vec F S1x256 .f32)
    (x8 : Vec F S1x256 .f32) (x9 : Vec F S1x256 .f32) (x10 : Vec F S1024x256 .f32) (x11 : Vec F S1024x256 .f32)
    (x12 : Vec F S1x1024 .f32) : Vec F S2048x1024 .f32 :=
  View.canon [⟨r2_4, k2_pay1
    (k2_pay2 (View.ld x0 r2_0) (View.ld x2 r2_1) (View.ld x3 r2_1) (View.ld x4 r2_1) (View.ld x5 r2_1))
    (k2_pay3 (View.ld x1 r2_0) (View.ld x6 r2_1) (View.ld x7 r2_1) (View.ld x8 r2_1))
    (View.ld x9 r2_1) (View.ld x10 r2_2) (View.ld x11 r2_2) (View.ld x12 r2_3)⟩]

/-- The one store is of the whole buffer, so it covers it. -/
theorem cover2_13 (p0 : Vec F S2048x1024 .f32) (y : S2048x1024.Idx) :
    ∃ pc ∈ ([⟨r2_4, p0⟩] : List (View.Piece (Elt F) S2048x1024 .f32)), y ∈ pc.1.set :=
  View.cover_of_tiled [⟨r2_4, p0⟩] S2048x1024.size (by rfl) y

/-! ## The body's triple -/

set_option maxHeartbeats 4000000 in
/-- The kernel body on whole staging memrefs, the inputs' at read contents `xW` and the output's at anything, runs
    to the continuation holding the inputs' as they were and the output's at `out2_13` of the inputs': the printed
    function and its part are their skeletons, a sequence of whole-buffer loads and one whole-buffer store. -/
theorem sound_kernel2 (c : Dev nD) (E : Set ℕ) (i : grid2.Coords)
    (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (arg10 : Memref sig .tc .vmem S1x256 .f32) (harg10 : arg10.IsWhole)
    (arg11 : Memref sig .tc .vmem S1024x256 .f32) (harg11 : arg11.IsWhole) (arg12 : Memref sig .tc .vmem S1024x256 .f32) (harg12 : arg12.IsWhole)
    (arg13 : Memref sig .tc .vmem S1x1024 .f32) (harg13 : arg13.IsWhole) (arg14 : Memref sig .tc .vmem S2048x1024 .f32) (harg14 : arg14.IsWhole)
    (x0 : Vec F S2048x256 .f32) (x1 : Vec F S2048x256 .f32) (x2 : Vec F S1x256 .f32) (x3 : Vec F S1x256 .f32)
    (x4 : Vec F S1x256 .f32) (x5 : Vec F S1x256 .f32) (x6 : Vec F S1x256 .f32) (x7 : Vec F S1x256 .f32)
    (x8 : Vec F S1x256 .f32) (x9 : Vec F S1x256 .f32) (x10 : Vec F S1024x256 .f32) (x11 : Vec F S1024x256 .f32)
    (x12 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ owns (c : Thread nD τ) arg13 fullShare x12 ∗ (∃ d, owns (c : Thread nD τ) arg14 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare x12
            ∗ owns (c : Thread nD τ) arg14 fullShare (out2_13 x0 x1 x2 x3 x4 x5 x6 x7 x8 x9 x10 x11 x12)) -∗ K ⟨⟩))
      ⊢ wp frame (wpE (defs₀ (F := F)) Variants.none c none) E
          (cc2__linear1_kernel i arg1 harg1 arg2 harg2 arg3 harg3 arg4 harg4 arg5 harg5 arg6 harg6 arg7 harg7 arg8 harg8
            arg9 harg9 arg10 harg10 arg11 harg11 arg12 harg12 arg13 harg13 arg14 harg14) K := by
  simp only [cc2__linear1_kernel_eq_skeleton]; unfold cc2__linear1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover2_13 _)

/-! ## The pipeline's proof data -/

/-- The proof data of pipeline 2 on core `c`: the arrays as the region finds them (`V`); after the body at point
    `t` each input's buffer at its block and the output's at `out2_13` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => out2_13 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (iblk2 V c 12 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t =
    out2_13 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (iblk2 V c 11 t) (iblk2 V c 12 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d

/-! ## The body obligation, at a generic point -/

/-- What the body is called with at point `t`: the invariant, the core's debts, and every window's current staging
    buffer at what the point finds in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d)))

/-- and what it returns: the same with every buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t))

set_option maxHeartbeats 4000000 in
/-- The body at any point: the inputs' memrefs hold their blocks (`before2_W`), so `sound_kernel2` applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8,
    before2_9, before2_10, before2_11, before2_12]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10,
    after2_11, after2_12, after2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩⟩
  iapply (sound_kernel2 c Set.univ (grid2.coords t) _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Fr

end
-- ==== Proof.KI.R3.lean ====
/- The body half of the frame proof for kernel region 3 of @main (custom_call 3, the kernel function
   `cc3__linear2_kernel`, pipeline 3: windows 0..7 are inputs, window 8 is the output), at any float family `F`
   and at a parameter `V`, the TensorCore's buffer contents when the region is entered. The kernel reads each input
   staging buffer whole, computes a 2048×256 block (batch normalisation of the 2048×1024 block by four 1×1024 rows,
   product with the transposed 256×1024 weight, a 1×256 bias row, leaky ReLU, sum with the 2048×256 block) and writes
   the output staging buffer whole, once. Here: each window's block at a grid point, what the body leaves in the
   output buffer, the body's triple, the pipeline's proof data, and the body obligation at every point. -/
import proofs.«150604_j36773509988939_1_alg».proof.Proof.KI.Launch
import proofs.«150604_j36773509988939_1_alg».proof.Proof.Gen.KernelIdeal.Skeleton
import proofs.«150604_j36773509988939_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of a coordinate in a rectangle of extent 2048 is decided by structural recursion along the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region3
-- the TensorCore's buffer contents when region 3 is entered: every statement below is at this parameter
variable (V : (c : Dev nD) → (b : Ref sig .tc) → Buf (Elt F) ((c : Thread nD τ).loc b))

/-! # Region 3 of @main: custom_call 3, `cc3__linear2_kernel` (pipeline 3), at the entry contents `V` -/

/-! ## The windows' blocks -/

/-- Window `w`'s block at point `t`: its array's contents at region entry (`V`), read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    not, for any proof data whose array is `V`'s (`hA`) and whose body leaves the block in place (`hafter`): at an
    unfetched point the block index has not moved since the point before (`Dat.before_in_eq_fetched`); the window is
    uncut and never idle, so what a fetch puts there is the block itself. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1 (the 2048×256 block added at the end). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2 (a 1×1024 row, block index constant over the grid: fetched at the first point only). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- The same of input window 3 (a 1×1024 row, fetched at the first point only). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- The same of input window 4 (a 1×1024 row, fetched at the first point only). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- The same of input window 5 (a 1×1024 row, fetched at the first point only). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- The same of input window 6 (the 256×1024 weight, fetched at the first point only). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- The same of input window 7 (the 1×256 bias row, fetched at the first point only). -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole of each staging buffer's shape, as the unit-stride rectangle at offset 0 the body reads or writes it through. -/
abbrev r3_0 : Rect S2048x1024 := Rect.unit (s := S2048x1024) ![0, 0] S2048x1024.size inb_S2048x1024_S2048x1024_0_0
abbrev r3_1 : Rect S1x1024 := Rect.unit (s := S1x1024) ![0, 0] S1x1024.size inb_S1x1024_S1x1024_0_0
abbrev r3_2 : Rect S256x1024 := Rect.unit (s := S256x1024) ![0, 0] S256x1024.size inb_S256x1024_S256x1024_0_0
abbrev r3_3 : Rect S1x256 := Rect.unit (s := S1x256) ![0, 0] S1x256.size inb_S1x256_S1x256_0_0
abbrev r3_4 : Rect S2048x256 := Rect.unit (s := S2048x256) ![0, 0] S2048x256.size inb_S2048x256_S2048x256_0_0

/-! ## What the body leaves in the output window's buffer -/

/-- Window 8's staging buffer after the body, as a function of the eight input blocks (in window order): its one
    store, of the whole 2048×256 shape, as a single piece whose payload is the kernel's value `k3_pay1` at what the
    eight whole-buffer loads read (the payload takes window 1's block, the residual summand, last). -/
def out3_8 (x0 : Vec F S2048x1024 .f32) (x1 : Vec F S2048x256 .f32) (x2 : Vec F S1x1024 .f32) (x3 : Vec F S1x1024 .f32) (x4 : Vec F S1x1024 .f32) (x5 : Vec F S1x1024 .f32) (x6 : Vec F S256x1024 .f32) (x7 : Vec F S1x256 .f32) : Vec F S2048x256 .f32 :=
  View.canon [⟨r3_4, k3_pay1 (View.ld x0 r3_0) (View.ld x2 r3_1) (View.ld x3 r3_1) (View.ld x4 r3_1) (View.ld x5 r3_1) (View.ld x6 r3_2) (View.ld x7 r3_3) (View.ld x1 r3_4)⟩]

/-- The one store is a single tile of the buffer's own size at offset 0, so it covers every coordinate. -/
theorem cover3_8 (p0 : Vec F S2048x256 .f32) (y : S2048x256.Idx) :
    ∃ pc ∈ ([⟨r3_4, p0⟩] : List (View.Piece (Elt F) S2048x256 .f32)), y ∈ pc.1.set :=
  View.cover_of_tiled [⟨r3_4, p0⟩] S2048x256.size (by rfl) y

/-! ## The body's triple -/

set_option maxHeartbeats 1000000 in
/-- The kernel body on whole staging memrefs — the inputs' held at read contents `x0 … x7`, the output's at anything —
    runs to a continuation that holds the inputs' as they were and the output's at `out3_8` of the inputs: the
    kernel function and its one part are sequences of eight whole-buffer loads, a dead whole-buffer load of the output
    and one whole-buffer store; each load returns the contents read through the rectangle, and the buffer after the
    store reads as the canonical form of its one covering piece (`View.read_writes_eq_canon`). -/
theorem sound_kernel3 (c : Dev nD) (E : Set ℕ) (i : grid3.Coords) (arg1 : Memref sig .tc .vmem S2048x1024 .f32) (harg1 : arg1.IsWhole) (arg2 : Memref sig .tc .vmem S2048x256 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S2048x256 .f32) (harg9 : arg9.IsWhole)
    (x0 : Vec F S2048x1024 .f32) (x1 : Vec F S2048x256 .f32) (x2 : Vec F S1x1024 .f32) (x3 : Vec F S1x1024 .f32) (x4 : Vec F S1x1024 .f32) (x5 : Vec F S1x1024 .f32) (x6 : Vec F S256x1024 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ K ⟨⟩))
      ⊢ wp frame (wpE (defs₀ (F := F)) Variants.none c none) E (cc3__linear2_kernel i arg1 harg1 arg2 harg2 arg3 harg3 arg4 harg4 arg5 harg5 arg6 harg6 arg7 harg7 arg8 harg8 arg9 harg9) K := by
  simp only [cc3__linear2_kernel_eq_skeleton]; unfold cc3__linear2_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover3_8 _)

/-! ## The pipeline's proof data -/

/-- The proof data of pipeline 3 on core `c`: the arrays as the region finds them (`V`); after the body at point `t`
    each input's buffer at its block and the output's at `out3_8` of the eight input blocks; the invariant is the
    untouched scoped rest and generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's case split reduced at each literal window). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t`: the invariant, the core's owed amounts, and each window's current
    staging buffer held in full at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns: the same, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' memrefs hold their blocks (`before3_w`), so the body's triple applies at those
    blocks; the invariant and the core's owed amounts pass through unread and do not depend on the point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ (grid3.coords t) _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for pipeline 3, at every point: the obligation's two products over the nine windows
    written out (`bigSep_W3`) are `bodyPre3` and `bodyPost3`. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Fr

end
-- ==== Proof.KI.Run.lean ====
/-
  The run of the four-region program and its frame. @main is: a host reshape of the bias row; region 0 (the projection
  Mh = M·W_inᵀ + b_in, row block by row block); region 1 (the aggregation adj·Mh, each output row block accumulated over eight
  column blocks in a scratch buffer and stored at the last); a host stretch (the batch statistics of N and of the aggregate,
  the halves of the affine rows and of W1); region 2 (the first layer); a host stretch (the batch statistics of the first
  layer's output); region 3 (the second layer and the residual). The buffer contents at each of the seven boundaries are
  folded from the launch memory; each region's body half supplies its proof data; the library's theorem for a program of
  several regions then runs @main to a final state holding every unscoped buffer at the last boundary's contents, from which
  the frame (no host stretch writes an argument; no region's output array is one) and the result buffer are read.
-/
import proofs.«150604_j36773509988939_1_alg».proof.Proof.KI.Launch
import proofs.«150604_j36773509988939_1_alg».proof.Proof.KI.R0
import proofs.«150604_j36773509988939_1_alg».proof.Proof.KI.R1
import proofs.«150604_j36773509988939_1_alg».proof.Proof.KI.R2
import proofs.«150604_j36773509988939_1_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch, two kernel regions back to back, a host stretch, a region, a host stretch, a region

## The buffer contents at each boundary, folded from the launch memory

Each host stretch maps the contents through its operations; each region replaces its windows' arrays by what its
write-backs leave and keeps every other buffer. -/

/-- Core `c`'s buffers at launch. -/
abbrev W0 : Dev nD → Valuation τ sig (Elt F) := fun c b => m ((c : Dev nD), b)
/-- After the first host stretch (the bias row reshaped): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0 (the projection M·W_inᵀ + b_in): region 1's entry. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After region 1 (the aggregation adj·Mh). -/
def W3 (c : Dev nD) : Valuation τ sig (Elt F) :=
  Pipeline.withArrays spec1 c (W2 m c) fun w => (dat1 (V2 m) c).arrAt w cfg1.N
/-- After the second host stretch (the first batch statistics, the halves of the affine rows and of W1): region 2's entry. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After region 2 (the first layer). -/
def W5 (c : Dev nD) : Valuation τ sig (Elt F) :=
  Pipeline.withArrays spec2 c (W4 m c) fun w => (dat2 (V4 m) c).arrAt w cfg2.N
/-- After the third host stretch (the second batch statistics): region 3's entry. -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b
/-- After region 3 (the second layer and the residual): the end of @main. -/
def W7 (c : Dev nD) : Valuation τ sig (Elt F) :=
  Pipeline.withArrays spec3 c (W6 m c) fun w => (dat3 (V6 m) c).arrAt w cfg3.N
abbrev V3 : (c : Dev nD) → (b : Ref sig .tc) → Buf (Elt F) ((c : Thread nD τ).loc b) := fun c b => W3 m c b
abbrev V5 : (c : Dev nD) → (b : Ref sig .tc) → Buf (Elt F) ((c : Thread nD τ).loc b) := fun c b => W5 m c b
abbrev V7 : (c : Dev nD) → (b : Ref sig .tc) → Buf (Elt F) ((c : Thread nD τ).loc b) := fun c b => W7 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb

/-- The two hypotheses of the exit step of each region: its arrays at what the pipeline leaves, the rest as entered. -/
theorem hF0 (c : Dev nD) (w : Fin cfg0.W) : (dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
theorem hF2 (c : Dev nD) (w : Fin cfg2.W) : (dat2 (V4 m) c).arrAt w cfg2.N = V5 m c (Pipeline.arrRef spec2 w) := (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
theorem hF3 (c : Dev nD) (w : Fin cfg3.W) : (dat3 (V6 m) c).arrAt w cfg3.N = V7 m c (Pipeline.arrRef spec3 w) := (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-! ## What each host stretch writes, and what every item keeps -/

/-- The references the operations of `hostOps0` write. -/
abbrev hostOps0_W : List (Ref sig .tc) := [main_v0]
theorem hostOps0_fresh : (hostOps0 : List (HloOp τ sig (Elt F))).Forall fun op => op.fresh = ∅ := by
  simp only [List.Forall]; repeat' constructor
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references the operations of `hostOps2` write. -/
abbrev hostOps2_W : List (Ref sig .tc) := [main_cst, main_v3, main_cst_0, main_v4, main_v5, main_v6, main_v7, main_v8, main_v9, main_cst_1, main_v10, main_cst_2, main_v11, main_v12, main_cst_3, main_v13, main_cst_4, main_v14, main_v15, main_v16, main_v17, main_v18, main_v19, main_cst_5, main_v20, main_cst_6, main_v21, main_v22, main_v23, main_v24, main_v25, main_v26, main_v27, main_v28, main_v29, main_v30, main_v31, main_v32, main_v33, main_v34, main_v35, main_v36, main_v37]
theorem hostOps2_fresh : (hostOps2 : List (HloOp τ sig (Elt F))).Forall fun op => op.fresh = ∅ := by
  simp only [List.Forall]; repeat' constructor
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references the operations of `hostOps3` write. -/
abbrev hostOps3_W : List (Ref sig .tc) := [main_cst_7, main_v39, main_cst_8, main_v40, main_v41, main_v42, main_v43, main_v44, main_v45, main_cst_9, main_v46, main_cst_10, main_v47, main_v48, main_v49, main_v50, main_v51, main_v52, main_v53]
theorem hostOps3_fresh : (hostOps3 : List (HloOp τ sig (Elt F))).Forall fun op => op.fresh = ∅ := by
  simp only [List.Forall]; repeat' constructor
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem W1_keep (c : Dev nD) (b : Ref sig .tc) (h : b ∉ hostOps0_W) : W1 m c (Proc.devRef .tc b) = W0 m c (Proc.devRef .tc b) :=
  StableHlo.after_of_writes_sub hostOps0 _ hostOps0_writes h
theorem W4_keep (c : Dev nD) (b : Ref sig .tc) (h : b ∉ hostOps2_W) : W4 m c (Proc.devRef .tc b) = W3 m c (Proc.devRef .tc b) :=
  StableHlo.after_of_writes_sub hostOps2 _ hostOps2_writes h
theorem W6_keep (c : Dev nD) (b : Ref sig .tc) (h : b ∉ hostOps3_W) : W6 m c (Proc.devRef .tc b) = W5 m c (Proc.devRef .tc b) :=
  StableHlo.after_of_writes_sub hostOps3 _ hostOps3_writes h

/-- Region 0 changes only its output's array `main_v1`: an input window's array ends as entered, any other buffer is kept. -/
theorem W2_keep (c : Dev nD) (b : Ref sig .tc) (hb : b ≠ main_v1) : W2 m c (Proc.devRef .tc b) = W1 m c (Proc.devRef .tc b) := by
  by_cases h : ∃ w, Pipeline.arrRef spec0 w = b
  · obtain ⟨w, rfl⟩ := h
    match w with
    | ⟨0, _⟩ => exact (W2_arr m c _).trans (((dat0 (V1 m) c).arrAt_in _ rfl _).trans (A_eq0 (V1 m) c _))
    | ⟨1, _⟩ => exact (W2_arr m c _).trans (((dat0 (V1 m) c).arrAt_in _ rfl _).trans (A_eq0 (V1 m) c _))
    | ⟨2, _⟩ => exact (W2_arr m c _).trans (((dat0 (V1 m) c).arrAt_in _ rfl _).trans (A_eq0 (V1 m) c _))
    | ⟨3, _⟩ => exact absurd rfl hb
  · exact W2_of_ne m c b fun w e => h ⟨w, e⟩

/-- Region 1 changes only its output's array `main_v2`: an input window's array ends as entered, any other buffer is kept. -/
theorem W3_keep (c : Dev nD) (b : Ref sig .tc) (hb : b ≠ main_v2) : W3 m c (Proc.devRef .tc b) = W2 m c (Proc.devRef .tc b) := by
  by_cases h : ∃ w, Pipeline.arrRef spec1 w = b
  · obtain ⟨w, rfl⟩ := h
    match w with
    | ⟨0, _⟩ => exact (W3_arr m c _).trans (((dat1 (V2 m) c).arrAt_in _ rfl _).trans (A_eq1 (V2 m) c _))
    | ⟨1, _⟩ => exact (W3_arr m c _).trans (((dat1 (V2 m) c).arrAt_in _ rfl _).trans (A_eq1 (V2 m) c _))
    | ⟨2, _⟩ => exact absurd rfl hb
  · exact W3_of_ne m c b fun w e => h ⟨w, e⟩

/-- Region 2 changes only its output's array `main_v38`: an input window's array ends as entered, any other buffer is kept. -/
theorem W5_keep (c : Dev nD) (b : Ref sig .tc) (hb : b ≠ main_v38) : W5 m c (Proc.devRef .tc b) = W4 m c (Proc.devRef .tc b) := by
  by_cases h : ∃ w, Pipeline.arrRef spec2 w = b
  · obtain ⟨w, rfl⟩ := h
    match w with
    | ⟨0, _⟩ => exact (W5_arr m c _).trans (((dat2 (V4 m) c).arrAt_in _ rfl _).trans (A_eq2 (V4 m) c _))
    | ⟨1, _⟩ => exact (W5_arr m c _).trans (((dat2 (V4 m) c).arrAt_in _ rfl _).trans (A_eq2 (V4 m) c _))
    | ⟨2, _⟩ => exact (W5_arr m c _).trans (((dat2 (V4 m) c).arrAt_in _ rfl _).trans (A_eq2 (V4 m) c _))
    | ⟨3, _⟩ => exact (W5_arr m c _).trans (((dat2 (V4 m) c).arrAt_in _ rfl _).trans (A_eq2 (V4 m) c _))
    | ⟨4, _⟩ => exact (W5_arr m c _).trans (((dat2 (V4 m) c).arrAt_in _ rfl _).trans (A_eq2 (V4 m) c _))
    | ⟨5, _⟩ => exact (W5_arr m c _).trans (((dat2 (V4 m) c).arrAt_in _ rfl _).trans (A_eq2 (V4 m) c _))
    | ⟨6, _⟩ => exact (W5_arr m c _).trans (((dat2 (V4 m) c).arrAt_in _ rfl _).trans (A_eq2 (V4 m) c _))
    | ⟨7, _⟩ => exact (W5_arr m c _).trans (((dat2 (V4 m) c).arrAt_in _ rfl _).trans (A_eq2 (V4 m) c _))
    | ⟨8, _⟩ => exact (W5_arr m c _).trans (((dat2 (V4 m) c).arrAt_in _ rfl _).trans (A_eq2 (V4 m) c _))
    | ⟨9, _⟩ => exact (W5_arr m c _).trans (((dat2 (V4 m) c).arrAt_in _ rfl _).trans (A_eq2 (V4 m) c _))
    | ⟨10, _⟩ => exact (W5_arr m c _).trans (((dat2 (V4 m) c).arrAt_in _ rfl _).trans (A_eq2 (V4 m) c _))
    | ⟨11, _⟩ => exact (W5_arr m c _).trans (((dat2 (V4 m) c).arrAt_in _ rfl _).trans (A_eq2 (V4 m) c _))
    | ⟨12, _⟩ => exact (W5_arr m c _).trans (((dat2 (V4 m) c).arrAt_in _ rfl _).trans (A_eq2 (V4 m) c _))
    | ⟨13, _⟩ => exact absurd rfl hb
  · exact W5_of_ne m c b fun w e => h ⟨w, e⟩

/-- Region 3 changes only its output's array `main_v54`: an input window's array ends as entered, any other buffer is kept. -/
theorem W7_keep (c : Dev nD) (b : Ref sig .tc) (hb : b ≠ main_v54) : W7 m c (Proc.devRef .tc b) = W6 m c (Proc.devRef .tc b) := by
  by_cases h : ∃ w, Pipeline.arrRef spec3 w = b
  · obtain ⟨w, rfl⟩ := h
    match w with
    | ⟨0, _⟩ => exact (W7_arr m c _).trans (((dat3 (V6 m) c).arrAt_in _ rfl _).trans (A_eq3 (V6 m) c _))
    | ⟨1, _⟩ => exact (W7_arr m c _).trans (((dat3 (V6 m) c).arrAt_in _ rfl _).trans (A_eq3 (V6 m) c _))
    | ⟨2, _⟩ => exact (W7_arr m c _).trans (((dat3 (V6 m) c).arrAt_in _ rfl _).trans (A_eq3 (V6 m) c _))
    | ⟨3, _⟩ => exact (W7_arr m c _).trans (((dat3 (V6 m) c).arrAt_in _ rfl _).trans (A_eq3 (V6 m) c _))
    | ⟨4, _⟩ => exact (W7_arr m c _).trans (((dat3 (V6 m) c).arrAt_in _ rfl _).trans (A_eq3 (V6 m) c _))
    | ⟨5, _⟩ => exact (W7_arr m c _).trans (((dat3 (V6 m) c).arrAt_in _ rfl _).trans (A_eq3 (V6 m) c _))
    | ⟨6, _⟩ => exact (W7_arr m c _).trans (((dat3 (V6 m) c).arrAt_in _ rfl _).trans (A_eq3 (V6 m) c _))
    | ⟨7, _⟩ => exact (W7_arr m c _).trans (((dat3 (V6 m) c).arrAt_in _ rfl _).trans (A_eq3 (V6 m) c _))
    | ⟨8, _⟩ => exact absurd rfl hb
  · exact W7_of_ne m c b fun w e => h ⟨w, e⟩

/-- A buffer that no host stretch writes and that is no region's output ends @main as launched. -/
theorem W7_launch (c : Dev nD) (b : Ref sig .tc) (h0 : b ∉ hostOps0_W) (h1 : b ≠ main_v1) (h2 : b ≠ main_v2) (h3 : b ∉ hostOps2_W)
    (h4 : b ≠ main_v38) (h5 : b ∉ hostOps3_W) (h6 : b ≠ main_v54) : W7 m c (Proc.devRef .tc b) = m ((c : Thread nD τ).loc b) :=
  (W7_keep m c b h6).trans <| (W6_keep m c b h5).trans <| (W5_keep m c b h4).trans <| (W4_keep m c b h3).trans <|
    (W3_keep m c b h2).trans <| (W2_keep m c b h1).trans <| (W1_keep m c b h0).trans rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
  | ⟨3, _⟩ => fun c => dat3 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 as a segment: entered with every unscoped buffer at `W1`, left with them at `W2`. Its windows' arrays are
    split out of the unscoped buffers at entry and put back at what the write-backs leave at exit; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its windows' arrays are
    split out of the unscoped buffers at entry and put back at what the write-backs leave at exit; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) spec1 c) : sProp 𝕄) ⊢ Pipeline.ΦA spec1 c := by
      unfold Pipeline.ΦA
      iintro ⟨Hp, -, Hr⟩
      isplitl [Hr]; · iexact Hr
      iexact Hp
    exact h1.trans (hin1 (V2 m) c)
  hout c := by
    rw [Pipeline.ownSems0_none]
    have h2 : (Pipeline.ΦA spec1 c : sProp 𝕄) ⊢ iprop((∃ r, prngReg c r) ∗ BI.emp
        ∗ Pipeline.scopedRest (Ix := Unit) (Name := ℕ) (U := UR sig nD τ) (Lvl := ℕ) spec1 c) := by
      unfold Pipeline.ΦA
      iintro ⟨Hr, Hp⟩
      isplitl [Hp]; · iexact Hp
      isplitr; · iempintro
      iexact Hr
    exact (hout1 (V2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W4`, left with them at `W5`. Its windows' arrays are
    split out of the unscoped buffers at entry and put back at what the write-backs leave at exit; the generator register
    goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W6`, left with them at `W7`. Its windows' arrays are
    split out of the unscoped buffers at entry and put back at what the write-backs leave at exit; the generator register
    goes into the region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)),
    .region (reg3 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates without a fault, and in every final
    state each unscoped TensorCore buffer holds the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The frame, and the run with its result named -/

/-- Every weakly fair execution of @main terminates without a fault and leaves each of the thirteen argument arrays as launched:
    no host stretch writes an argument and no region's output array is one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W7_launch m c main_arg0 (by decide) (by decide) (by decide) (by decide) (by decide) (by decide) (by decide)),
     (h c _ (mem_uc main_arg1 (by decide))).trans (W7_launch m c main_arg1 (by decide) (by decide) (by decide) (by decide) (by decide) (by decide) (by decide)),
     (h c _ (mem_uc main_arg2 (by decide))).trans (W7_launch m c main_arg2 (by decide) (by decide) (by decide) (by decide) (by decide) (by decide) (by decide)),
     (h c _ (mem_uc main_arg3 (by decide))).trans (W7_launch m c main_arg3 (by decide) (by decide) (by decide) (by decide) (by decide) (by decide) (by decide)),
     (h c _ (mem_uc main_arg4 (by decide))).trans (W7_launch m c main_arg4 (by decide) (by decide) (by decide) (by decide) (by decide) (by decide) (by decide)),
     (h c _ (mem_uc main_arg5 (by decide))).trans (W7_launch m c main_arg5 (by decide) (by decide) (by decide) (by decide) (by decide) (by decide) (by decide)),
     (h c _ (mem_uc main_arg6 (by decide))).trans (W7_launch m c main_arg6 (by decide) (by decide) (by decide) (by decide) (by decide) (by decide) (by decide)),
     (h c _ (mem_uc main_arg7 (by decide))).trans (W7_launch m c main_arg7 (by decide) (by decide) (by decide) (by decide) (by decide) (by decide) (by decide)),
     (h c _ (mem_uc main_arg8 (by decide))).trans (W7_launch m c main_arg8 (by decide) (by decide) (by decide) (by decide) (by decide) (by decide) (by decide)),
     (h c _ (mem_uc main_arg9 (by decide))).trans (W7_launch m c main_arg9 (by decide) (by decide) (by decide) (by decide) (by decide) (by decide) (by decide)),
     (h c _ (mem_uc main_arg10 (by decide))).trans (W7_launch m c main_arg10 (by decide) (by decide) (by decide) (by decide) (by decide) (by decide) (by decide)),
     (h c _ (mem_uc main_arg11 (by decide))).trans (W7_launch m c main_arg11 (by decide) (by decide) (by decide) (by decide) (by decide) (by decide) (by decide)),
     (h c _ (mem_uc main_arg12 (by decide))).trans (W7_launch m c main_arg12 (by decide) (by decide) (by decide) (by decide) (by decide) (by decide) (by decide))⟩) (run_all m ρ)

/-- The same run with the result buffer `main_v54` named: it ends at the last boundary's contents, which region 3's
    write-backs left there. -/
theorem run_result : θ_run defs (onTc (τ := τ) (main (F := F))) ⟨m, fun _ => 0, ρ⟩ (fun r => ∀ c : Dev nD,
      r.2.mem ((c.tc : Thread nD τ).loc main_v54) = W7 m c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v54 (by decide)),
     (h c _ (mem_uc main_arg0 (by decide))).trans (W7_launch m c main_arg0 (by decide) (by decide) (by decide) (by decide) (by decide) (by decide) (by decide)),
     (h c _ (mem_uc main_arg1 (by decide))).trans (W7_launch m c main_arg1 (by decide) (by decide) (by decide) (by decide) (by decide) (by decide) (by decide)),
     (h c _ (mem_uc main_arg2 (by decide))).trans (W7_launch m c main_arg2 (by decide) (by decide) (by decide) (by decide) (by decide) (by decide) (by decide)),
     (h c _ (mem_uc main_arg3 (by decide))).trans (W7_launch m c main_arg3 (by decide) (by decide) (by decide) (by decide) (by decide) (by decide) (by decide)),
     (h c _ (mem_uc main_arg4 (by decide))).trans (W7_launch m c main_arg4 (by decide) (by decide) (by decide) (by decide) (by decide) (by decide) (by decide)),
     (h c _ (mem_uc main_arg5 (by decide))).trans (W7_launch m c main_arg5 (by decide) (by decide) (by decide) (by decide) (by decide) (by decide) (by decide)),
     (h c _ (mem_uc main_arg6 (by decide))).trans (W7_launch m c main_arg6 (by decide) (by decide) (by decide) (by decide) (by decide) (by decide) (by decide)),
     (h c _ (mem_uc main_arg7 (by decide))).trans (W7_launch m c main_arg7 (by decide) (by decide) (by decide) (by decide) (by decide) (by decide) (by decide)),
     (h c _ (mem_uc main_arg8 (by decide))).trans (W7_launch m c main_arg8 (by decide) (by decide) (by decide) (by decide) (by decide) (by decide) (by decide)),
     (h c _ (mem_uc main_arg9 (by decide))).trans (W7_launch m c main_arg9 (by decide) (by decide) (by decide) (by decide) (by decide) (by decide) (by decide)),
     (h c _ (mem_uc main_arg10 (by decide))).trans (W7_launch m c main_arg10 (by decide) (by decide) (by decide) (by decide) (by decide) (by decide) (by decide)),
     (h c _ (mem_uc main_arg11 (by decide))).trans (W7_launch m c main_arg11 (by decide) (by decide) (by decide) (by decide) (by decide) (by decide) (by decide)),
     (h c _ (mem_uc main_arg12 (by decide))).trans (W7_launch m c main_arg12 (by decide) (by decide) (by decide) (by decide) (by decide) (by decide) (by decide))⟩) (run_all m ρ)

end Cert.KernelIdeal.Fr

end
-- ==== Proof.KI.V0.lean ====
import proofs.«150604_j36773509988939_1_alg».proof.Proof.KI.R0
import proofs.«150604_j36773509988939_1_alg».proof.Proof.Ref.Read
import Idealize.ShloMosaic.Lib.ValueIdx
import Idealize.ShloMosaic.Lib.Pipeline.Value
import Idealize.ShloMosaic.Lib.ValueLayout
import Idealize.ShloMosaic.PureOps.Ideal.Laws

/-! # Kernel region 0 of @main: its value

At the ideal floats (extended reals, every operation exact) the array region 0 writes, 16384×256, is the reference's
stage `M · W_inᵀ + b_in`: entry `(r, q)` is row `r` of `M` against row `q` of `W_in`, plus `b_in` at `q`. The region
writes it as 8 row blocks of 2048 rows; block `t` is the body's payload on rows `2048·t …` of `M`, all of `W_in`, and
`b_in` laid out as one row. -/

noncomputable section

namespace Cert.KernelIdeal.Val.V0
open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

/-! ## The body's product: the contraction's index functions, axis by axis

The body multiplies a 2048×256 block by a 256×256 matrix, contracting the block's axis 1 with the matrix's axis 0. Of the
element at `(i 0, i 1)` and the contraction coordinate `q`, the left operand is read at `(i 0, q)` and the right at
`(q, i 1)`. -/

theorem lhs_k0_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_k0_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_k0_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_k0_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product into the zero accumulator, at `(p, q)`: the plain sum over the contracted coordinate. -/
theorem matmul_k0_apply (l : FVec Ideal S2048x256 .bf16) (r : FVec Ideal S256x256 .bf16) (p : Fin 2048) (q : Fin 256) :
    matmul dot_S2048x256_S256x256_S2048x256_1_0_0_1_n_n none l r (constant (F := Ideal) S2048x256 .f32 0x00000000#32) (ix2 p q)
      = ∑ k : Fin 256, l (ix2 p k) * r (ix2 k q) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs_k0_0 _ _
    | ⟨1, _⟩ => exact (lhs_k0_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs_k0_0 _ _).trans hk
    | ⟨1, _⟩ => exact rhs_k0_1 _ _)
  rw [el, er]

/-- The transposed matrix at `(k, q)` is the matrix at `(q, k)`. -/
theorem transpose_k0_apply {α : Type} (x : S256x256.Idx → α) (k q : Fin 256) :
    transpose S256x256 [1, 0] x transposes_S256x256_p1_0_S256x256 (ix2 k q) = x (ix2 q k) :=
  transpose_apply [1, 0] x transposes_S256x256_p1_0_S256x256 (ix2 k q) (ix2 q k) (fun b => match b with
    | ⟨0, _⟩ => rfl
    | ⟨1, _⟩ => rfl)

/-- The one row broadcast along the 2048 rows, at `(p, q)`, is the row at `(0, q)`. -/
theorem broadcast_k0_apply {α : Type} (x : S1x256.Idx → α) (p : Fin 2048) (q : Fin 256) :
    broadcastTo S2048x256 x broadcasts_S1x256_S2048x256 (ix2 p q) = x (ix2 0 q) :=
  broadcastTo_apply x broadcasts_S1x256_S2048x256 (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-! ## The body's payload at an index -/

/-- What the body stores at `(p, q)` of the output block, from the three input blocks: row `p` of the first against
    row `q` of the second (the second enters transposed), plus entry `q` of the one row. The two changes of format
    are the identity on extended reals. -/
theorem k0_pay1_apply (x0 : Vec Ideal S2048x256 .f32) (x1 : Vec Ideal S256x256 .f32) (x2 : Vec Ideal S1x256 .f32)
    (p : Fin 2048) (q : Fin 256) :
    k0_pay1 x0 x1 x2 (ix2 p q) = (∑ k : Fin 256, x0 (ix2 p k) * x1 (ix2 q k)) + x2 (ix2 0 q) := by
  unfold k0_pay1
  dsimp only
  rw [addf_apply, matmul_k0_apply, broadcast_k0_apply, shapeCast_self]
  congr 1
  refine Finset.sum_congr rfl fun k _ => ?_
  rw [truncf_apply, transpose_k0_apply, truncf_apply]

/-! ## The reference's stage at an index -/

/-- The reference's `M · W_inᵀ + b_in` at `(r, q)`: row `r` of `M` against row `q` of `W_in`, plus `b_in` at `q`. -/
theorem ref_v4_apply (a0 : S16384x256.Idx → EReal) (a3 : S256x256.Idx → EReal) (a4 : S256.Idx → EReal)
    (r : Fin 16384) (q : Fin 256) :
    Cert.ReferenceIdeal.Read.val_main_v4 (F := Ideal) a0 a3 a4 (ix2 r q)
      = (∑ k : Fin 256, a0 (ix2 r k) * a3 (ix2 q k)) + a4 (ix1 q) := by
  rw [Cert.ReferenceIdeal.Read.val_main_v4_apply, Cert.ReferenceIdeal.Read.val_main_v1_apply,
    Cert.ReferenceIdeal.Read.val_main_v3_apply, Cert.ReferenceIdeal.Read.val_main_v2_apply]
  show (∑ k : Fin 256, _) + _ = _
  congr 1
  · refine Finset.sum_congr rfl fun k _ => ?_
    rw [Cert.ReferenceIdeal.Read.val_main_v0_apply]
    have e0 : Cert.ReferenceIdeal.Read.lidx_main_v1 (ix2 r q) k = ix2 r k :=
      funext fun a => by match a with | ⟨0, _⟩ => rfl | ⟨1, _⟩ => rfl
    have e1 : Cert.ReferenceIdeal.Read.idx_main_v0 (Cert.ReferenceIdeal.Read.ridx_main_v1 (ix2 r q) k) = ix2 q k :=
      funext fun a => by match a with | ⟨0, _⟩ => rfl | ⟨1, _⟩ => rfl
    rw [e0, e1]
  · have e2 : Cert.ReferenceIdeal.Read.idx_main_v2 (Cert.ReferenceIdeal.Read.idx_main_v3 (ix2 r q)) = ix1 q :=
      funext fun a => by match a with | ⟨0, _⟩ => rfl
    rw [e2]

/-! ## One entry of one block against the reference -/

/-- Entry `(p, q)` of the body's payload on blocks `x0 x1 x2` is entry `(r, q)` of the reference's stage on arrays
    `a0 a3 a4`, when row `p` of `x0` is row `r` of `a0`, row `q` of `x1` is row `q` of `a3`, and `x2` at
    `(0, q)` is `a4` at `q`: both are the same sum of products plus the same term. -/
theorem point_eq (x0 : Vec Ideal S2048x256 .f32) (x1 : Vec Ideal S256x256 .f32) (x2 : Vec Ideal S1x256 .f32)
    (a0 : S16384x256.Idx → EReal) (a3 : S256x256.Idx → EReal) (a4 : S256.Idx → EReal)
    (p : Fin 2048) (q : Fin 256) (r : Fin 16384)
    (h0 : ∀ k : Fin 256, x0 (ix2 p k) = a0 (ix2 r k))
    (h1 : ∀ k : Fin 256, x1 (ix2 q k) = a3 (ix2 q k))
    (h2 : x2 (ix2 0 q) = a4 (ix1 q)) :
    k0_pay1 x0 x1 x2 (ix2 p q) = Cert.ReferenceIdeal.Read.val_main_v4 (F := Ideal) a0 a3 a4 (ix2 r q) := by
  rw [k0_pay1_apply, ref_v4_apply, h2]
  congr 1
  exact Finset.sum_congr rfl fun k _ => by rw [h0 k, h1 k]

/-! ## From the blocks to the array -/

section Region0
-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The block indices at grid point `t`, decided over the 8 points: windows 0 and 3 (the row blocks of `M` and of the
    result) are at block row `t`, block column 0; windows 1 and 2 (`W_in`, and `b_in` as a row) are whole, at block 0. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the reference's stage on the arrays as the region finds them, given that
    the one-row array holds `b_in` (`hb`). Entry `(p, q)` of the block is entry `(2048·t + p, q)` of the array; the input
    blocks are read where their windows' rectangles say. -/
theorem flushed0_3_eq (c : Dev nD)
    (hb : ∀ q : Fin 256, (V c main_v0 : S1x256.Idx → EReal) (ix2 0 q) = (V c main_arg4 : S256.Idx → EReal) (ix1 q))
    (t : Fin cfg0.N) :
    (dat0 (F := Ideal) V c).flushed 3 t = ((cfg0.win 3).blk t).view.read (Elt Ideal)
      (Cert.ReferenceIdeal.Read.val_main_v4 (F := Ideal) (V c main_arg0) (V c main_arg3) (V c main_arg4)) := by
  show (cfg0.win 3).cut (grid0.coords t) ((dat0 V c).after 3 t) = _
  rw [after0_3]
  unfold out0_3
  rw [View.canon_unit_zero zero_offsets]
  simp only [View.ld_unit_zero (S := S2048x256) zero_offsets, View.ld_unit_zero (S := S256x256) zero_offsets,
    View.ld_unit_zero (S := S1x256) zero_offsets]
  obtain ⟨e00, e01, e10, e11, e20, e21, e30, e31⟩ := index_facts0 t
  have ht : t.val < 8 := by have h : t.val < grid0.N := t.isLt; have hN := N_0; omega
  refine funext fun (j : S2048x256.Idx) => ?_
  obtain ⟨p, q, rfl⟩ : ∃ (p : Fin 2048) (q : Fin 256), j = ix2 p q := ⟨j 0, j 1, eq_ix2 j⟩
  have hp : p.val < 2048 := p.isLt
  have hr : t.val * 2048 + p.val < 16384 := by omega
  show k0_pay1 (iblk0 V c 0 t) (iblk0 V c 1 t) (iblk0 V c 2 t) (ix2 p q)
    = Cert.ReferenceIdeal.Read.val_main_v4 (F := Ideal) (V c main_arg0) (V c main_arg3) (V c main_arg4) (((cfg0.win 3).blk t).view.emb (ix2 p q))
  have h3 : ((cfg0.win 3).blk t).view.emb (ix2 p q) = ix2 (⟨t.val * 2048 + p.val, hr⟩ : Fin 16384) q := by
    funext a; apply Fin.ext
    match a with
    | ⟨0, _⟩ => show win0_3.index t (0 : Fin 2) * 2048 + 1 * p.val = t.val * 2048 + p.val; omega
    | ⟨1, _⟩ => show win0_3.index t (1 : Fin 2) * 256 + 1 * q.val = q.val; omega
  rw [h3]
  refine point_eq (iblk0 V c 0 t) (iblk0 V c 1 t) (iblk0 V c 2 t) (V c main_arg0) (V c main_arg3) (V c main_arg4) p q ⟨t.val * 2048 + p.val, hr⟩ ?_ ?_ ?_
  · intro k
    show V c main_arg0 (((cfg0.win 0).blk t).view.emb (ix2 p k)) = V c main_arg0 (ix2 (⟨t.val * 2048 + p.val, hr⟩ : Fin 16384) k)
    refine congrArg _ (funext fun a => Fin.ext ?_)
    match a with
    | ⟨0, _⟩ => show win0_0.index t (0 : Fin 2) * 2048 + 1 * p.val = t.val * 2048 + p.val; omega
    | ⟨1, _⟩ => show win0_0.index t (1 : Fin 2) * 256 + 1 * k.val = k.val; omega
  · intro k
    show V c main_arg3 (((cfg0.win 1).blk t).view.emb (ix2 q k)) = V c main_arg3 (ix2 q k)
    refine congrArg _ (funext fun a => Fin.ext ?_)
    match a with
    | ⟨0, _⟩ => show win0_1.index t (0 : Fin 2) * 256 + 1 * q.val = q.val; omega
    | ⟨1, _⟩ => show win0_1.index t (1 : Fin 2) * 256 + 1 * k.val = k.val; omega
  · show V c main_v0 (((cfg0.win 2).blk t).view.emb (ix2 0 q)) = V c main_arg4 (ix1 q)
    refine Eq.trans (congrArg _ (funext fun a => Fin.ext ?_)) (hb q)
    match a with
    | ⟨0, _⟩ => show win0_2.index t (0 : Fin 2) * 1 + 1 * 0 = 0; omega
    | ⟨1, _⟩ => show win0_2.index t (1 : Fin 2) * 256 + 1 * q.val = q.val; omega

/-- An index of the array is in point `t`'s block iff each coordinate is in the block's range on its axis. -/
theorem mem_blk0_3 (t : Fin cfg0.N) (i : S16384x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v1).slice (win0_3.rect t)).set ↔ _
  rw [View.set_slice_whole, Rect.mem_set_unit]
  exact Iff.rfl

/-- The 8 row blocks cover the array: row `r` is in the block of point `r / 2048`, and every point writes back. -/
theorem rows_covered (i : S16384x256.Idx) :
    ∃ t : Fin cfg0.N, (cfg0.win 3).flush t = true ∧ i ∈ ((cfg0.win 3).blk t).view.set := by
  have hi0 : (i 0).val < 16384 := idx2_lt0 i
  have hi1 : (i 1).val < 256 := idx2_lt1 i
  have hlt : (i 0).val / 2048 < cfg0.N := by show (i 0).val / 2048 < grid0.N; rw [N_0]; omega
  obtain ⟨-, -, -, -, -, -, e30, e31⟩ := index_facts0 ⟨(i 0).val / 2048, hlt⟩
  have e30' : win0_3.index ⟨(i 0).val / 2048, hlt⟩ (0 : Fin 2) = (i 0).val / 2048 := e30
  refine ⟨⟨(i 0).val / 2048, hlt⟩, flush0_3 _, ?_⟩
  rw [mem_blk0_3]
  intro a
  match a with
  | ⟨0, _⟩ => show win0_3.index ⟨(i 0).val / 2048, hlt⟩ (0 : Fin 2) * 2048 ≤ (i 0).val ∧ (i 0).val < win0_3.index ⟨(i 0).val / 2048, hlt⟩ (0 : Fin 2) * 2048 + 2048; omega
  | ⟨1, _⟩ => show win0_3.index ⟨(i 0).val / 2048, hlt⟩ (1 : Fin 2) * 256 ≤ (i 1).val ∧ (i 1).val < win0_3.index ⟨(i 0).val / 2048, hlt⟩ (1 : Fin 2) * 256 + 256; omega

/-- THE ARRAY after region 0: the reference's `M · W_inᵀ + b_in` on the arrays as the region finds them, given that the
    one-row array (window 2's) holds `b_in`. -/
theorem region0_value (c : Dev nD)
    (hb : ∀ q : Fin 256, (V c main_v0 : S1x256.Idx → EReal) (ix2 0 q) = (V c main_arg4 : S256.Idx → EReal) (ix1 q)) :
    (dat0 (F := Ideal) V c).arrAt 3 cfg0.N
      = Cert.ReferenceIdeal.Read.val_main_v4 (F := Ideal) (V c main_arg0) (V c main_arg3) (V c main_arg4) :=
  (dat0 (F := Ideal) V c).arrAt_eq_of_cover 3 _ (fun t _ => flushed0_3_eq V c hb t) rows_covered

end Region0

end Cert.KernelIdeal.Val.V0
end
-- ==== Proof.KI.V1.lean ====
/- Kernel region 1, the K-blocked product `M2N = adj · Mh`: its VALUE, over the extended reals. Entered with `adj` in
   window 0's array and the reference's `Mh` (its stage %4) in window 1's, the region leaves in the output array the
   reference's `adj · Mh` (its stage %5, one contraction over all 16384 columns).
   The kernel side: each case's pieces are the payloads of the blocks (the accumulating payload over the zero fill at the
   first contraction step, over what the accumulator held afterwards; the output block a copy of the accumulator at the
   last); the accumulating payload at an index is what the accumulator held plus the sum over the 2048 contracted
   positions of the blocks' products; a block's entry is the array's at block index × block size + the entry's
   coordinate; so by induction on the point the accumulator holds the sum of the terms of the contraction steps done so
   far in its row block, and what the last step writes back is all 8 of them.
   The one law joining the sides: a sum over `8 · 2048` positions is the sum over 8 blocks of 2048 positions
   (with `0 + x = x` and the associativity of `+`; nothing else of the arithmetic is used).
   Every row of the output array is written back at the last contraction step of its row block, so the array ends
   holding the reference's product everywhere. -/
import proofs.«150604_j36773509988939_1_alg».proof.Proof.KI.R1
import proofs.«150604_j36773509988939_1_alg».proof.Proof.Ref.Read
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.Val.V1
open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Fr
open scoped BigOperators

/-! ## What each case's pieces are: the payloads of the blocks -/

section Pieces
variable {F : FTy → Type} [FloatOps F]

theorem hz : (![0, 0] : Fin 2 → Nat) = fun _ => 0 := funext fun a => by fin_cases a <;> rfl

/-- CASE A leaves in the accumulator the accumulating payload of the two blocks over the zero fill. -/
theorem sout_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .f32) :
    sout1_A_0 c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S1024x256) hz, View.readCov_unit_zero (S := S1024x256) _ hz]
  simp only [View.readAt_eq_ld, harg2.read_unread, harg3.read_unread, View.ld_unit_zero (S := S1024x2048) hz, View.ld_unit_zero (S := S2048x256) hz]

/-- CASE B leaves in the accumulator the accumulating payload of the two blocks over what it held. -/
theorem sout_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .f32) (xs0 : Vec F S1024x256 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero hz]
  simp only [View.readAt_eq_ld, harg2.read_unread, harg3.read_unread, harg5.read_unread, View.ld_unit_zero (S := S1024x2048) hz, View.ld_unit_zero (S := S2048x256) hz, View.ld_unit_zero (S := S1024x256) hz]

/-- CASE C leaves the same in the accumulator, -/
theorem sout_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz]
  simp only [View.readAt_eq_ld, harg2.read_unread, harg3.read_unread, harg5.read_unread, View.ld_unit_zero (S := S1024x2048) hz, View.ld_unit_zero (S := S2048x256) hz, View.ld_unit_zero (S := S1024x256) hz]

/-- and copies it into the output window's block. -/
theorem out_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .f32) (xs0 : Vec F S1024x256 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz, View.readCov_unit_zero (S := S1024x256) _ hz]
  simp only [View.readAt_eq_ld, harg2.read_unread, harg3.read_unread, harg5.read_unread, View.ld_unit_zero (S := S1024x2048) hz, View.ld_unit_zero (S := S2048x256) hz, View.ld_unit_zero (S := S1024x256) hz]

end Pieces

/-! ## The body's two payloads at an index, over the extended reals -/

/-- The zero fill at an index: the extended real `0`. -/
theorem pay1_apply (p : Fin 1024) (q : Fin 256) : k1_pay1 (F := Ideal) (ix2 p q) = 0 := by
  unfold k1_pay1
  refine (congrFun (shapeCast_self _ _) _).trans ?_
  exact Ideal.ofBits_zero_f32

/-- The product's left operand index at output index `i` and contraction index `k`: row `i₀`, column `k`; -/
abbrev lidxB (i : S1024x256.Idx) (k : Fin 2048) : S1024x2048.Idx := fun a => match a with
  | ⟨0, _⟩ => ⟨(i 0).val, (i 0).isLt⟩
  | ⟨1, _⟩ => ⟨k.val, k.isLt⟩
/-- the right operand's: row `k`, column `i₁`. -/
abbrev ridxB (i : S1024x256.Idx) (k : Fin 2048) : S2048x256.Idx := fun a => match a with
  | ⟨0, _⟩ => ⟨k.val, k.isLt⟩
  | ⟨1, _⟩ => ⟨(i 1).val, (i 1).isLt⟩

theorem lhs_blk_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_blk_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_blk_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_blk_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The blocks' product into the zero accumulator, at an index: the plain sum over the 2048 contracted positions. -/
theorem matmul_blk_apply (A : FVec Ideal S1024x2048 .bf16) (B : FVec Ideal S2048x256 .bf16) (i : S1024x256.Idx) :
    FloatOps.matmul dot_S1024x2048_S2048x256_S1024x256_1_0_0_1_n_n none A B (constant S1024x256 .f32 0x00000000#32) i
      = ∑ k : Fin 2048, A (lidxB i k) * B (ridxB i k) := by
  rw [Ideal.matmul_constant_zero_apply, ← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx i ((ValueIdx.contrEquiv1 dot_S1024x2048_S2048x256_S1024x256_1_0_0_1_n_n 2048 rfl rfl).symm k) = lidxB i k := funext fun a => Fin.ext (by
    match a with
    | ⟨0, _⟩ => exact lhs_blk_0 _ _
    | ⟨1, _⟩ => exact (lhs_blk_1 _ _).trans hk)
  have er : dot_S1024x2048_S2048x256_S1024x256_1_0_0_1_n_n.rhsIdx i ((ValueIdx.contrEquiv1 dot_S1024x2048_S2048x256_S1024x256_1_0_0_1_n_n 2048 rfl rfl).symm k) = ridxB i k := funext fun a => Fin.ext (by
    match a with
    | ⟨0, _⟩ => exact (rhs_blk_0 _ _).trans hk
    | ⟨1, _⟩ => exact rhs_blk_1 _ _)
  rw [el, er]

/-- The accumulating payload at an index: what the accumulator held there plus the sum, over the 2048 contracted
    positions, of the products of the two blocks' entries (the format changes are the identity). -/
theorem pay2_apply (A : Vec Ideal S1024x2048 .f32) (B : Vec Ideal S2048x256 .f32) (acc : Vec Ideal S1024x256 .f32)
    (p : Fin 1024) (q : Fin 256) :
    k1_pay2 (F := Ideal) A B acc (ix2 p q) = acc (ix2 p q) + ∑ r : Fin 2048, A (ix2 p r) * B (ix2 r q) := by
  unfold k1_pay2
  refine (congrFun (shapeCast_self _ _) _).trans ?_
  refine (addf_apply _ _ _).trans ?_
  refine congrArg (acc (ix2 p q) + ·) ?_
  refine (matmul_blk_apply _ _ _).trans ?_
  refine Finset.sum_congr rfl fun r _ => ?_
  have eB : (shapeCast S2048x256 B shapeCasts_S2048x256_S2048x256) = B := shapeCast_self _ _
  show A (lidxB (ix2 p q) r) * (shapeCast S2048x256 B shapeCasts_S2048x256_S2048x256) (ridxB (ix2 p q) r) = _
  rw [eB]
  have e1 : lidxB (ix2 p q) r = ix2 p r := funext fun a => by match a with | ⟨0, _⟩ => rfl | ⟨1, _⟩ => rfl
  have e2 : ridxB (ix2 p q) r = ix2 r q := funext fun a => by match a with | ⟨0, _⟩ => rfl | ⟨1, _⟩ => rfl
  rw [e1, e2]

/-! ## The one law joining the sides: a sum over `m · n` positions is the sum over `m` blocks of `n` -/

theorem sum_range_mul_blocks (f : ℕ → EReal) (n : ℕ) : ∀ m : ℕ,
    ∑ i ∈ Finset.range (m * n), f i = ∑ a ∈ Finset.range m, ∑ b ∈ Finset.range n, f (n * a + b)
  | 0 => by simp
  | m + 1 => by
    rw [Finset.sum_range_succ, ← sum_range_mul_blocks f n m, Nat.succ_mul, Finset.sum_range_add, Nat.mul_comm n m]

/-! ## The arrays and blocks the region reads, and the accumulator as a partial sum -/

section Region
variable (V : (c : Dev nD) → (b : Ref sig .tc) → Buf (Elt Ideal) ((c : Thread nD τ).loc b))

/-- `adj` as the region finds it, -/
abbrev adjA (c : Dev nD) : Vec Ideal S16384x16384 .f32 := V c main_arg2
/-- and `Mh`. -/
abbrev mhA (c : Dev nD) : Vec Ideal S16384x256 .f32 := V c main_v1

/-- `adj` at natural coordinates (`0` outside the array: never read there). -/
def adjN (c : Dev nD) (a b : ℕ) : EReal := if h : a < 16384 ∧ b < 16384 then adjA V c (ix2 ⟨a, h.1⟩ ⟨b, h.2⟩) else 0
/-- `Mh` at natural coordinates. -/
def mhN (c : Dev nD) (a b : ℕ) : EReal := if h : a < 16384 ∧ b < 256 then mhA V c (ix2 ⟨a, h.1⟩ ⟨b, h.2⟩) else 0

/-- The two input blocks at point `t`, at their literal types. -/
abbrev ablk (c : Dev nD) (t : Fin cfg1.N) : Vec Ideal S1024x2048 .f32 := iblk1 V c 0 t
abbrev bblk (c : Dev nD) (t : Fin cfg1.N) : Vec Ideal S2048x256 .f32 := iblk1 V c 1 t

/-- The windows' block indices at a point, from its position: row block `t / 8`, contraction step `t % 8` —
    decided over the grid's 128 points. -/
theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0)

/-- The block of `adj` at point `t`, entry `(p, r)`: `adj` at row `1024 · (t / 8) + p`, column `2048 · (t % 8) + r`. -/
theorem ablk_apply (c : Dev nD) (t : Fin cfg1.N) (p : Fin 1024) (r : Fin 2048) :
    ablk V c t (ix2 p r) = adjN V c (1024 * (t.val / 8) + p.val) (2048 * (t.val % 8) + r.val) := by
  obtain ⟨e0, e1, -, -, -, -⟩ := idx_facts1 t
  have hN : t.val < 128 := lt_of_lt_of_eq t.isLt N_1
  have hp := p.isLt
  have hr := r.isLt
  unfold adjN
  rw [dif_pos ⟨by omega, by omega⟩]
  unfold ablk iblk1 adjA
  rw [View.read_apply]
  show V c main_arg2 _ = V c main_arg2 _
  congr 1
  funext a
  apply Fin.ext
  match a with
  | ⟨0, _⟩ => show win1_0.index t (0 : Fin 2) * 1024 + 1 * p.val = 1024 * (t.val / 8) + p.val; rw [e0]; omega
  | ⟨1, _⟩ => show win1_0.index t (1 : Fin 2) * 2048 + 1 * r.val = 2048 * (t.val % 8) + r.val; rw [e1]; omega

/-- The block of `Mh` at point `t`, entry `(r, q)`: `Mh` at row `2048 · (t % 8) + r`, column `q`. -/
theorem bblk_apply (c : Dev nD) (t : Fin cfg1.N) (r : Fin 2048) (q : Fin 256) :
    bblk V c t (ix2 r q) = mhN V c (2048 * (t.val % 8) + r.val) q.val := by
  obtain ⟨-, -, e2, e3, -, -⟩ := idx_facts1 t
  have hN : t.val < 128 := lt_of_lt_of_eq t.isLt N_1
  have hq := q.isLt
  have hr := r.isLt
  unfold mhN
  rw [dif_pos ⟨by omega, by omega⟩]
  unfold bblk iblk1 mhA
  rw [View.read_apply]
  show V c main_v1 _ = V c main_v1 _
  congr 1
  funext a
  apply Fin.ext
  match a with
  | ⟨0, _⟩ => show win1_1.index t (0 : Fin 2) * 2048 + 1 * r.val = 2048 * (t.val % 8) + r.val; rw [e2]; omega
  | ⟨1, _⟩ => show win1_1.index t (1 : Fin 2) * 256 + 1 * q.val = q.val; rw [e3]; omega

/-- One contraction step's term of entry `(a, q)` of the product: the sum over the 2048 positions of column block `k`. -/
def term (c : Dev nD) (a q k : ℕ) : EReal :=
  ∑ r : Fin 2048, adjN V c a (2048 * k + r.val) * mhN V c (2048 * k + r.val) q

/-- The accumulator's entry `(p, q)` after the point at position `n`: the terms of the steps up to this one. -/
def accSum (c : Dev nD) (n p q : ℕ) : EReal :=
  ∑ k ∈ Finset.range (n % 8 + 1), term V c (1024 * (n / 8) + p) q k

/-- The blocks' product at a point, at an entry, is that point's term. -/
theorem blocks_term (c : Dev nD) (t : Fin cfg1.N) (p : Fin 1024) (q : Fin 256) :
    ∑ r : Fin 2048, ablk V c t (ix2 p r) * bblk V c t (ix2 r q) = term V c (1024 * (t.val / 8) + p.val) q.val (t.val % 8) := by
  unfold term
  exact Finset.sum_congr rfl fun r _ => by rw [ablk_apply, bblk_apply]

/-- THE INVARIANT: after the point at position `n` the accumulator holds, entry by entry, the sum of the terms of
    the contraction steps done so far in this row block — by induction on the position, the cases by the closed forms. -/
theorem acc_eq (c : Dev nD) : ∀ (n : ℕ) (hn : n < cfg1.N) (p : Fin 1024) (q : Fin 256),
    (outsAt1 V c n hn).2 (ix2 p q) = accSum V c n p.val q.val
  | 0, hn, p, q => by
    have h0 : (⟨0, hn⟩ : Fin cfg1.N).val % 8 = 0 := rfl
    have h1 : ¬(⟨0, hn⟩ : Fin cfg1.N).val % 8 = 7 := by show ¬(0 % 8 = 7); omega
    rw [outsAt1_A V c ⟨0, hn⟩ h0 h1]; dsimp only
    refine (congrFun (sout_A (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr h0) (fun h => h1 ((hcond1_1 ⟨0, hn⟩).mp h)) (ablk V c ⟨0, hn⟩) (bblk V c ⟨0, hn⟩)) (ix2 p q)).trans ?_
    refine (pay2_apply (ablk V c ⟨0, hn⟩) (bblk V c ⟨0, hn⟩) (k1_pay1 (F := Ideal)) p q).trans ?_
    rw [pay1_apply, zero_add, blocks_term]
    unfold accSum
    simp
  | n + 1, hn, p, q => by
    have hN : n + 1 < 128 := lt_of_lt_of_eq hn N_1
    by_cases h0 : (⟨n + 1, hn⟩ : Fin cfg1.N).val % 8 = 0
    · have h1 : ¬(⟨n + 1, hn⟩ : Fin cfg1.N).val % 8 = 7 := by omega
      rw [outsAt1_A V c ⟨n + 1, hn⟩ h0 h1]; dsimp only
      refine (congrFun (sout_A (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (ablk V c ⟨n + 1, hn⟩) (bblk V c ⟨n + 1, hn⟩)) (ix2 p q)).trans ?_
      refine (pay2_apply (ablk V c ⟨n + 1, hn⟩) (bblk V c ⟨n + 1, hn⟩) (k1_pay1 (F := Ideal)) p q).trans ?_
      rw [pay1_apply, zero_add, blocks_term]
      unfold accSum
      have e : (n + 1) % 8 = 0 := h0
      show term V c (1024 * ((n + 1) / 8) + p.val) q.val ((n + 1) % 8) = _
      rw [e]; simp
    · have ih := acc_eq c n (Nat.lt_of_succ_lt hn) p q
      have hstep : accSum V c n p.val q.val + term V c (1024 * ((n + 1) / 8) + p.val) q.val ((n + 1) % 8) = accSum V c (n + 1) p.val q.val := by
        unfold accSum
        have e0 : (n + 1) % 8 ≠ 0 := h0
        have e1 : n / 8 = (n + 1) / 8 := by omega
        have e2 : n % 8 + 1 = (n + 1) % 8 := by omega
        rw [e1, e2, Finset.sum_range_succ]
      by_cases h1 : (⟨n + 1, hn⟩ : Fin cfg1.N).val % 8 = 7
      · rw [outsAt1_C V c ⟨n + 1, hn⟩ h0 h1]; dsimp only
        refine (congrFun (sout_C (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (ablk V c ⟨n + 1, hn⟩) (bblk V c ⟨n + 1, hn⟩) (outsAt1 V c n (Nat.lt_of_succ_lt hn)).2) (ix2 p q)).trans ?_
        refine (pay2_apply (ablk V c ⟨n + 1, hn⟩) (bblk V c ⟨n + 1, hn⟩) (outsAt1 V c n (Nat.lt_of_succ_lt hn)).2 p q).trans ?_
        rw [ih, blocks_term]
        exact hstep
      · rw [outsAt1_B V c ⟨n + 1, hn⟩ h0 h1]; dsimp only
        refine (congrFun (sout_B (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (ablk V c ⟨n + 1, hn⟩) (bblk V c ⟨n + 1, hn⟩) (outsAt1 V c n (Nat.lt_of_succ_lt hn)).2) (ix2 p q)).trans ?_
        refine (pay2_apply (ablk V c ⟨n + 1, hn⟩) (bblk V c ⟨n + 1, hn⟩) (outsAt1 V c n (Nat.lt_of_succ_lt hn)).2 p q).trans ?_
        rw [ih, blocks_term]
        exact hstep

/-! ## The reference's product at an index, block by block -/

/-- The reference's `adj · Mh` at an index — one sum over all 16384 contracted positions — is the sum over the 8
    column blocks of the terms: a sum over `8 · 2048` positions is the sum over 8 blocks of 2048. -/
theorem ref_apply (c : Dev nD) (x0 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal))
    (hadj : V c main_arg2 = x2) (hMh : V c main_v1 = Cert.ReferenceIdeal.Read.val_main_v4 (F := Ideal) x0 x3 x4) (i : S16384x256.Idx) :
    Cert.ReferenceIdeal.Read.val_main_v5 (F := Ideal) x0 x2 x3 x4 i = ∑ k ∈ Finset.range 8, term V c (i 0).val (i 1).val k := by
  rw [Cert.ReferenceIdeal.Read.val_main_v5_apply]
  have hi0 : (i 0).val < 16384 := idx2_lt0 i
  have hi1 : (i 1).val < 256 := idx2_lt1 i
  have e : ∀ k : Fin 16384, x2 (Cert.ReferenceIdeal.Read.lidx_main_v5 i k) * (Cert.ReferenceIdeal.Read.val_main_v4 (F := Ideal) x0 x3 x4) (Cert.ReferenceIdeal.Read.ridx_main_v5 i k)
      = (fun n : ℕ => adjN V c (i 0).val n * mhN V c n (i 1).val) k.val := by
    intro k
    have hk : k.val < 16384 := k.isLt
    have el : Cert.ReferenceIdeal.Read.lidx_main_v5 i k = ix2 (⟨(i 0).val, hi0⟩ : Fin 16384) (⟨k.val, hk⟩ : Fin 16384) :=
      funext fun a => by match a with | ⟨0, _⟩ => rfl | ⟨1, _⟩ => rfl
    have er : Cert.ReferenceIdeal.Read.ridx_main_v5 i k = ix2 (⟨k.val, hk⟩ : Fin 16384) (⟨(i 1).val, hi1⟩ : Fin 256) :=
      funext fun a => by match a with | ⟨0, _⟩ => rfl | ⟨1, _⟩ => rfl
    show _ = adjN V c (i 0).val k.val * mhN V c k.val (i 1).val
    unfold adjN mhN
    rw [dif_pos ⟨hi0, hk⟩, dif_pos ⟨hk, hi1⟩, el, er]
    have hadj' : adjA V c = x2 := hadj
    have hMh' : mhA V c = Cert.ReferenceIdeal.Read.val_main_v4 (F := Ideal) x0 x3 x4 := hMh
    rw [hadj', hMh']
  rw [Finset.sum_congr rfl (fun k _ => e k), ← Finset.sum_range (fun n : ℕ => adjN V c (i 0).val n * mhN V c n (i 1).val)]
  show ∑ n ∈ Finset.range (8 * 2048), _ = _
  rw [sum_range_mul_blocks _ 2048 8]
  refine Finset.sum_congr rfl fun a _ => ?_
  unfold term
  exact Finset.sum_range (fun b : ℕ => adjN V c (i 0).val (2048 * a + b) * mhN V c (2048 * a + b) (i 1).val)

/-! ## What the last contraction step writes back, and the array after the region -/

/-- At a last contraction step the output window's buffer holds, entry by entry, all 8 terms of its row block. -/
theorem out_eq (c : Dev nD) (t : Fin cfg1.N) (h7 : t.val % 8 = 7) (p : Fin 1024) (q : Fin 256) :
    (outsAt1 V c t.val t.isLt).1 (ix2 p q) = ∑ k ∈ Finset.range 8, term V c (1024 * (t.val / 8) + p.val) q.val k := by
  have h0 : ¬t.val % 8 = 0 := by omega
  have h1 : t.val % 8 = 7 := h7
  have hN : t.val < 128 := lt_of_lt_of_eq t.isLt N_1
  have hpos : t.val - 1 < cfg1.N := Nat.lt_of_le_of_lt (Nat.sub_le _ _) t.isLt
  rw [outsAt1_C V c t h0 h1]; dsimp only
  refine (congrFun (out_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (ablk V c t) (bblk V c t) (outsAt1 V c (t.val - 1) hpos).2) (ix2 p q)).trans ?_
  refine (pay2_apply (ablk V c t) (bblk V c t) (outsAt1 V c (t.val - 1) hpos).2 p q).trans ?_
  rw [acc_eq V c (t.val - 1) hpos p q, blocks_term]
  unfold accSum
  have e1 : (t.val - 1) / 8 = t.val / 8 := by omega
  have e2 : (t.val - 1) % 8 + 1 = 7 := by omega
  rw [e1, e2, h7]
  exact (Finset.sum_range_succ (fun k => term V c (1024 * (t.val / 8) + p.val) q.val k) 7).symm

/-- The same against the reference: entry `j` of the buffer is the reference's product at the block's entry `j`. -/
theorem flushed_at (c : Dev nD) (x0 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal))
    (hadj : V c main_arg2 = x2) (hMh : V c main_v1 = Cert.ReferenceIdeal.Read.val_main_v4 (F := Ideal) x0 x3 x4) (t : Fin cfg1.N) (h7 : t.val % 8 = 7) (j : S1024x256.Idx) :
    (outsAt1 V c t.val t.isLt).1 j = Cert.ReferenceIdeal.Read.val_main_v5 (F := Ideal) x0 x2 x3 x4 (((cfg1.win 2).blk t).view.emb j) := by
  obtain ⟨p, q, rfl⟩ : ∃ (p : Fin 1024) (q : Fin 256), j = ix2 p q := ⟨j 0, j 1, eq_ix2 j⟩
  obtain ⟨-, -, -, -, e4, e5⟩ := idx_facts1 t
  have hN : t.val < 128 := lt_of_lt_of_eq t.isLt N_1
  refine Eq.trans ?_ (ref_apply V c x0 x2 x3 x4 hadj hMh (((cfg1.win 2).blk t).view.emb (ix2 p q))).symm
  have c0 : ((((cfg1.win 2).blk t).view.emb (ix2 p q)) 0).val = 1024 * (t.val / 8) + p.val := by
    show win1_2.index t (0 : Fin 2) * 1024 + 1 * p.val = _; rw [e4]; omega
  have c1 : ((((cfg1.win 2).blk t).view.emb (ix2 p q)) 1).val = q.val := by
    show win1_2.index t (1 : Fin 2) * 256 + 1 * q.val = _; rw [e5]; omega
  rw [c0, c1]
  exact out_eq V c t h7 p q

/-- WHAT A WRITING POINT WRITES BACK is its block of the reference's product. -/
theorem flushed_eq (c : Dev nD) (x0 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal))
    (hadj : V c main_arg2 = x2) (hMh : V c main_v1 = Cert.ReferenceIdeal.Read.val_main_v4 (F := Ideal) x0 x3 x4) (t : Fin cfg1.N) (hf : (cfg1.win 2).flush t = true) :
    (dat1 V c).flushed 2 t = ((cfg1.win 2).blk t).view.read (Elt Ideal) (Cert.ReferenceIdeal.Read.val_main_v5 (F := Ideal) x0 x2 x3 x4) := by
  have h7 : t.val % 8 = 7 := (flush1_2 t).mp hf
  show (cfg1.win 2).cut (grid1.coords t) ((dat1 V c).after 2 t) = _
  rw [after1_2]
  funext j
  exact flushed_at V c x0 x2 x3 x4 hadj hMh t h7 j

/-- Every index of the output array is in the block of a writing point: row `a` is written at the last contraction
    step of row block `a / 1024`. -/
theorem cover (i : S16384x256.Idx) : ∃ t : Fin cfg1.N, (cfg1.win 2).flush t = true ∧ i ∈ ((cfg1.win 2).blk t).view.set := by
  have hi0 : (i 0).val < 16384 := idx2_lt0 i
  have hi1 : (i 1).val < 256 := idx2_lt1 i
  have hN : cfg1.N = 128 := N_1
  obtain ⟨t, ht⟩ : ∃ t : Fin cfg1.N, t.val = 8 * ((i 0).val / 1024) + 7 := ⟨⟨8 * ((i 0).val / 1024) + 7, by rw [hN]; omega⟩, rfl⟩
  obtain ⟨-, -, -, -, e4, e5⟩ := idx_facts1 t
  refine ⟨t, (flush1_2 t).mpr (by omega), ?_⟩
  show i ∈ ((View.whole main_v2).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e4, ht]; omega
  | ⟨1, _⟩ =>
    show win1_2.index t (1 : Fin 2) * 256 ≤ (i 1).val ∧ (i 1).val < win1_2.index t (1 : Fin 2) * 256 + 256
    rw [e5]; omega

/-- REGION 1's VALUE: entered with `adj` in window 0's array and the reference's `Mh` in window 1's, the region leaves
    the reference's `adj · Mh` in the output array. -/
theorem region1_value (c : Dev nD) (x0 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal))
    (hadj : V c main_arg2 = x2) (hMh : V c main_v1 = Cert.ReferenceIdeal.Read.val_main_v4 (F := Ideal) x0 x3 x4) :
    (dat1 (F := Ideal) V c).arrAt 2 cfg1.N = Cert.ReferenceIdeal.Read.val_main_v5 (F := Ideal) x0 x2 x3 x4 :=
  (dat1 V c).arrAt_eq_of_cover 2 (Cert.ReferenceIdeal.Read.val_main_v5 (F := Ideal) x0 x2 x3 x4)
    (fun t hf => flushed_eq V c x0 x2 x3 x4 hadj hMh t hf) cover

end Region

end Cert.KernelIdeal.Val.V1
end
-- ==== Proof.KI.V2.lean ====
/- The value leg of kernel region 2 of KernelIdeal's @main, at the ideal values (floats are extended reals, every
   operation exact): when the region's thirteen input arrays hold N, the aggregated block, and the statistics, affine
   rows, weight halves and bias of the reference's first hidden layer, the region's output array ends holding that
   layer — the leaky rectifier of `BN(concat(N, M2N)) · W1ᵀ + b1` on 16384×1024. The body's stored value is read at an
   index (the two normalised 2048×256 blocks, the two 256-term products); the reference's stages are read at an index;
   the reference's 512-term contraction splits at 256 into the body's two; the eight row blocks tile the output. -/
import proofs.«150604_j36773509988939_1_alg».proof.Proof.KI.R2
import proofs.«150604_j36773509988939_1_alg».proof.Proof.Ref.Read
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val.V2
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr
open scoped BigOperators

/-! ## The scalar functions -/

/-- The batch-norm of one element: centre by the mean, scale by the inverse root of the variance plus ε, then the
    affine pair, associated as the programs associate it. -/
def bnE (x μ v g β : EReal) : EReal :=
  ((x - μ) * Ideal.rsqrt (v + Ideal.ofBits .f32 0x3727C5AC#32)) * g + β

/-- The leaky rectifier of one element: itself where it is at least zero, a hundredth of itself elsewhere. -/
def leakyE (y : EReal) : EReal :=
  Scalar.select (Ideal.cmp .oge y (Ideal.ofBits .f32 0x00000000#32)) y (Ideal.ofBits .f32 0x3C23D70A#32 * y)

/-! ## Layout operations of the body at an index -/

/-- A 1×256 row broadcast down 2048 rows reads the row. -/
theorem bcastRow256 (x : S1x256.Idx → EReal) (h : S1x256.Broadcasts S2048x256) (p : Fin 2048) (k : Fin 256) :
    broadcastTo S2048x256 x h (ix2 p k) = x (ix2 0 k) :=
  broadcastTo_apply x h (ix2 p k) (ix2 0 k) (fun a => match a with
    | ⟨0, _⟩ => by show (0 : ℕ) = if (1 : Nat) = 1 then 0 else _; rw [if_pos rfl]
    | ⟨1, _⟩ => by show k.val = if (256 : Nat) = 1 then 0 else k.val; rw [if_neg (by decide)])

/-- A 1×1024 row broadcast down 2048 rows reads the row. -/
theorem bcastRow1024 (x : S1x1024.Idx → EReal) (h : S1x1024.Broadcasts S2048x1024) (p : Fin 2048) (q : Fin 1024) :
    broadcastTo S2048x1024 x h (ix2 p q) = x (ix2 0 q) :=
  broadcastTo_apply x h (ix2 p q) (ix2 0 q) (fun a => match a with
    | ⟨0, _⟩ => by show (0 : ℕ) = if (1 : Nat) = 1 then 0 else _; rw [if_pos rfl]
    | ⟨1, _⟩ => by show q.val = if (1024 : Nat) = 1 then 0 else q.val; rw [if_neg (by decide)])

/-- The transpose of a 1024×256 weight half read at (k, q) is the half at (q, k). -/
theorem transpW (x : S1024x256.Idx → EReal) (h : S1024x256.Transposes [1, 0] S256x1024) (k : Fin 256) (q : Fin 1024) :
    transpose S256x1024 [1, 0] x h (ix2 k q) = x (ix2 q k) :=
  transpose_apply [1, 0] x h (ix2 k q) (ix2 q k) (fun b => match b with
    | ⟨0, _⟩ => rfl
    | ⟨1, _⟩ => rfl)

theorem rsqrt_apply {s : Shape} {φ : FTy} (a : FVec Ideal s φ) (i : s.Idx) : rsqrt a i = Ideal.rsqrt (a i) := rfl

/-! ## The two normalised blocks at an index -/

/-- Block 0 normalised by its four rows. -/
theorem pay2_apply (v0 : Vec Ideal S2048x256 .f32) (v3 v7 v14 v18 : Vec Ideal S1x256 .f32) (p : Fin 2048) (k : Fin 256) :
    k2_pay2 (F := Ideal) v0 v3 v7 v14 v18 (ix2 p k)
      = bnE (v0 (ix2 p k)) (v3 (ix2 0 k)) (v7 (ix2 0 k)) (v14 (ix2 0 k)) (v18 (ix2 0 k)) := by
  unfold k2_pay2
  simp only [shapeCast_self, addf_apply, mulf_apply, subf_apply, bcastRow256, rsqrt_apply, broadcast_apply]
  rfl

/-- Block 1 centred, scaled and multiplied by its three rows (the shift row is added later). -/
theorem pay3_apply (v1 : Vec Ideal S2048x256 .f32) (v22 v26 v33 : Vec Ideal S1x256 .f32) (p : Fin 2048) (k : Fin 256) :
    k2_pay3 (F := Ideal) v1 v22 v26 v33 (ix2 p k)
      = ((v1 (ix2 p k) - v22 (ix2 0 k)) * Ideal.rsqrt (v26 (ix2 0 k) + Ideal.ofBits .f32 0x3727C5AC#32)) * v33 (ix2 0 k) := by
  unfold k2_pay3
  simp only [shapeCast_self, addf_apply, mulf_apply, subf_apply, bcastRow256, rsqrt_apply, broadcast_apply]
  rfl

/-! ## The body's product at an index

The body's `tpu.matmul` contracts axis 1 of a 2048×256 block with axis 0 of a 256×1024 block; into a zero
accumulator, at the ideal values, it is the plain sum over the contracted coordinate. -/

theorem lhs_mm_0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem lhs_mm_1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
theorem rhs_mm_0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
theorem rhs_mm_1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- The product of a 2048×256 block and a 256×1024 block, into zero, at (p, q): the sum over k of l(p,k)·r(k,q). -/
theorem matmulK_apply (l : FVec Ideal S2048x256 .bf16) (r : FVec Ideal S256x1024 .bf16) (p : Fin 2048) (q : Fin 1024) :
    matmul dot_S2048x256_S256x1024_S2048x1024_1_0_0_1_n_n none l r (constant (F := Ideal) S2048x1024 .f32 0x00000000#32) (ix2 p q)
      = ∑ k : Fin 256, l (ix2 p k) * r (ix2 k q) := by
  simp only [matmul]
  rw [Ideal.matmul_constant_zero_apply, ← Equiv.sum_comp (ValueIdx.contrEquiv1 dot_S2048x256_S256x1024_S2048x1024_1_0_0_1_n_n 256 rfl rfl).symm]
  refine Finset.sum_congr rfl fun k _ => ?_
  have hk := ValueIdx.contrEquiv1_symm_val dot_S2048x256_S256x1024_S2048x1024_1_0_0_1_n_n 256 rfl rfl k
  have el : dot_S2048x256_S256x1024_S2048x1024_1_0_0_1_n_n.lhsIdx (ix2 p q) ((ValueIdx.contrEquiv1 dot_S2048x256_S256x1024_S2048x1024_1_0_0_1_n_n 256 rfl rfl).symm k) = ix2 p k := funext fun a => Fin.ext (by
    match a with
    | ⟨0, _⟩ => exact lhs_mm_0 _ _
    | ⟨1, _⟩ => exact (lhs_mm_1 _ _).trans hk)
  have er : dot_S2048x256_S256x1024_S2048x1024_1_0_0_1_n_n.rhsIdx (ix2 p q) ((ValueIdx.contrEquiv1 dot_S2048x256_S256x1024_S2048x1024_1_0_0_1_n_n 256 rfl rfl).symm k) = ix2 k q := funext fun a => Fin.ext (by
    match a with
    | ⟨0, _⟩ => exact (rhs_mm_0 _ _).trans hk
    | ⟨1, _⟩ => exact rhs_mm_1 _ _)
  rw [el, er]

/-- The same with the body's roundings (the identity here) and the weight half transposed: the sum over k of
    l(p,k)·w(q,k). -/
theorem matmulT_apply (l : FVec Ideal S2048x256 .f32) (w : FVec Ideal S1024x256 .f32) (hb : FTy.bits .bf16 < FTy.bits .f32)
    (ht : S1024x256.Transposes [1, 0] S256x1024) (p : Fin 2048) (q : Fin 1024) :
    matmul dot_S2048x256_S256x1024_S2048x1024_1_0_0_1_n_n none (truncf (F := Ideal) .bf16 l hb)
        (transpose S256x1024 [1, 0] (truncf (F := Ideal) .bf16 w hb) ht) (constant (F := Ideal) S2048x1024 .f32 0x00000000#32) (ix2 p q)
      = ∑ k : Fin 256, l (ix2 p k) * w (ix2 q k) := by
  rw [matmulK_apply]
  refine Finset.sum_congr rfl fun k _ => ?_
  rw [transpW]
  rfl

/-- The stored value at (p, q): the leaky rectifier of the two products' sum plus the bias row; the second
    normalised block takes its shift row before the product. -/
theorem pay1_apply (v21 v36 : FVec Ideal S2048x256 .f32) (v37 : Vec Ideal S1x256 .f32) (v43 v46 : Vec Ideal S1024x256 .f32)
    (v54 : Vec Ideal S1x1024 .f32) (p : Fin 2048) (q : Fin 1024) :
    k2_pay1 (F := Ideal) v21 v36 v37 v43 v46 v54 (ix2 p q)
      = leakyE ((∑ k : Fin 256, v21 (ix2 p k) * v43 (ix2 q k))
          + (∑ k : Fin 256, (v36 (ix2 p k) + v37 (ix2 0 k)) * v46 (ix2 q k)) + v54 (ix2 0 q)) := by
  unfold k2_pay1
  simp only [shapeCast_self, select_apply, cmpf_apply, mulf_apply, addf_apply, broadcast_apply, bcastRow1024]
  rw [matmulT_apply, matmulT_apply]
  simp only [addf_apply, bcastRow256]
  rfl

/-! ## The reference's stages at an index

The reference normalises the 16384×512 concatenation of N and the aggregated block column by column, multiplies by
the transposed 1024×512 weight, adds the bias and applies the leaky rectifier. Each stage is read at an index from
its operands at an index; the layout stages' composed index functions are identified with coordinate pairs. -/

section Reference
open Cert.ReferenceIdeal.Read

variable (x0 x1 : (⟨S16384x256, .f32⟩ : BufTy).Contents (Elt Ideal)) (x2 : (⟨S16384x16384, .f32⟩ : BufTy).Contents (Elt Ideal))
  (x3 : (⟨S256x256, .f32⟩ : BufTy).Contents (Elt Ideal)) (x4 : (⟨S256, .f32⟩ : BufTy).Contents (Elt Ideal))
  (x5 x6 : (⟨S512, .f32⟩ : BufTy).Contents (Elt Ideal)) (x7 : (⟨S1024x512, .f32⟩ : BufTy).Contents (Elt Ideal))
  (x8 : (⟨S1024, .f32⟩ : BufTy).Contents (Elt Ideal))

/-- The concatenation's left half is N. -/
theorem ref_v6_left (r : Fin 16384) (k : Fin 256) :
    val_main_v6 (F := Ideal) x0 x1 x2 x3 x4 (ix2 r ⟨k.val, by omega⟩) = x1 (ix2 r k) := by
  unfold val_main_v6
  exact concatenate_pair_apply_left (t := ⟨2, ![16384, 512]⟩) (s₁ := ⟨2, ![16384, 256]⟩) (s₂ := ⟨2, ![16384, 256]⟩) (1 : Fin 2) x1 _ _
      (ix2 r ⟨k.val, by omega⟩) rfl (ix2 r k) (fun b => by
    match b with
    | ⟨0, _⟩ => rfl
    | ⟨1, _⟩ => rfl)

/-- The concatenation's right half is the aggregated block. -/
theorem ref_v6_right (r : Fin 16384) (k : Fin 256) :
    val_main_v6 (F := Ideal) x0 x1 x2 x3 x4 (ix2 r ⟨256 + k.val, by omega⟩) = val_main_v5 (F := Ideal) x0 x2 x3 x4 (ix2 r k) := by
  unfold val_main_v6
  exact concatenate_pair_apply_right (t := ⟨2, ![16384, 512]⟩) (s₁ := ⟨2, ![16384, 256]⟩) (s₂ := ⟨2, ![16384, 256]⟩) (1 : Fin 2) x1 _ _
      (ix2 r ⟨256 + k.val, by omega⟩) rfl rfl (ix2 r k)
    (fun b hb => by
      match b with
      | ⟨0, _⟩ => rfl
      | ⟨1, _⟩ => exact absurd rfl hb)
    (by show k.val + 256 = 256 + k.val; omega)

/-- The normalised concatenation at (r, k): the batch-norm of its element by column k's mean, variance, scale and
    shift. -/
theorem ref_v30_apply (r : Fin 16384) (k : Fin 512) :
    val_main_v30 (F := Ideal) x0 x1 x2 x3 x4 x5 x6 (ix2 r k)
      = bnE (val_main_v6 (F := Ideal) x0 x1 x2 x3 x4 (ix2 r k)) (val_main_v10 (F := Ideal) x0 x1 x2 x3 x4 (ix2 0 k))
          (val_main_v17 (F := Ideal) x0 x1 x2 x3 x4 (ix2 0 k)) (x5 (ix1 k)) (x6 (ix1 k)) := by
  have e18 : idx_main_v18 (ix2 r k) = ix2 0 k := funext fun a => Fin.ext (by
    match a with
    | ⟨0, _⟩ => rfl
    | ⟨1, _⟩ => rfl)
  have e23 : idx_main_v23 (ix2 r k) = ix2 0 k := funext fun a => Fin.ext (by
    match a with
    | ⟨0, _⟩ => rfl
    | ⟨1, _⟩ => rfl)
  have e25 : idx_main_v25 (idx_main_v26 (ix2 r k)) = ix1 k := funext fun a => Fin.ext (by
    match a with
    | ⟨0, _⟩ => rfl)
  have e28 : idx_main_v28 (idx_main_v29 (ix2 r k)) = ix1 k := funext fun a => Fin.ext (by
    match a with
    | ⟨0, _⟩ => rfl)
  rw [val_main_v30_apply, val_main_v27_apply, val_main_v24_apply, val_main_v19_apply, val_main_v18_apply,
    val_main_v23_apply, val_main_v22_apply, val_main_v21_apply, val_main_v20_apply, val_main_cst_3_apply,
    val_main_v26_apply, val_main_v25_apply, val_main_v29_apply, val_main_v28_apply, e18, e23, e25, e28]
  rfl

/-- The reference's first hidden layer at (r, q): the leaky rectifier of the product's element plus the bias. -/
theorem ref_v40_apply (r : Fin 16384) (q : Fin 1024) :
    val_main_v40 (F := Ideal) x0 x1 x2 x3 x4 x5 x6 x7 x8 (ix2 r q)
      = leakyE ((∑ k : Fin 512, val_main_v30 (F := Ideal) x0 x1 x2 x3 x4 x5 x6 (ix2 r k) * x7 (ix2 q k)) + x8 (ix1 q)) := by
  have e33 : idx_main_v33 (idx_main_v34 (ix2 r q)) = ix1 q := funext fun a => Fin.ext (by
    match a with
    | ⟨0, _⟩ => rfl)
  have es : ∀ k : Fin 512, val_main_v30 (F := Ideal) x0 x1 x2 x3 x4 x5 x6 (lidx_main_v32 (ix2 r q) k) * val_main_v31 (F := Ideal) x7 (ridx_main_v32 (ix2 r q) k)
      = val_main_v30 (F := Ideal) x0 x1 x2 x3 x4 x5 x6 (ix2 r k) * x7 (ix2 q k) := fun k => by
    have el : lidx_main_v32 (ix2 r q) k = ix2 r k := funext fun a => Fin.ext (by
      match a with
      | ⟨0, _⟩ => rfl
      | ⟨1, _⟩ => rfl)
    have er : idx_main_v31 (ridx_main_v32 (ix2 r q) k) = ix2 q k := funext fun a => Fin.ext (by
      match a with
      | ⟨0, _⟩ => rfl
      | ⟨1, _⟩ => rfl)
    rw [val_main_v31_apply, el, er]
  rw [val_main_v40_apply, val_main_v37_apply, val_main_v39_apply, val_main_v35_apply, val_main_v36_apply,
    val_main_cst_4_apply, val_main_v38_apply, val_main_cst_5_apply, val_main_v34_apply, val_main_v33_apply,
    val_main_v32_apply, e33, Finset.sum_congr rfl (fun k _ => es k)]
  rfl

end Reference

/-! ## The body's stored value is the reference's first hidden layer

At one point of the grid the thirteen blocks are: rows `r0 … r0 + 2047` of N and of the aggregated block, the two
halves (columns below 256, columns from 256 on) of the column means, the column variances, the scale and the shift
of the 512-column concatenation, the two column halves of the 1024×512 weight, and the bias as a row. The
reference's contraction over the 512 columns splits at 256 into the body's two contractions. -/

section Join
open Cert.ReferenceIdeal.Read

variable (x0 x1 : (⟨S16384x256, .f32⟩ : BufTy).Contents (Elt Ideal)) (x2 : (⟨S16384x16384, .f32⟩ : BufTy).Contents (Elt Ideal))
  (x3 : (⟨S256x256, .f32⟩ : BufTy).Contents (Elt Ideal)) (x4 : (⟨S256, .f32⟩ : BufTy).Contents (Elt Ideal))
  (x5 x6 : (⟨S512, .f32⟩ : BufTy).Contents (Elt Ideal)) (x7 : (⟨S1024x512, .f32⟩ : BufTy).Contents (Elt Ideal))
  (x8 : (⟨S1024, .f32⟩ : BufTy).Contents (Elt Ideal))

theorem point_eq (b0 b1 : Vec Ideal S2048x256 .f32) (b2 b3 b4 b5 b6 b7 b8 b9 : Vec Ideal S1x256 .f32)
    (b10 b11 : Vec Ideal S1024x256 .f32) (b12 : Vec Ideal S1x1024 .f32) (r0 : ℕ) (hr0 : r0 + 2048 ≤ 16384)
    (h0 : ∀ (p : Fin 2048) (k : Fin 256), b0 (ix2 p k) = x1 (ix2 ⟨r0 + p.val, by omega⟩ k))
    (h1 : ∀ (p : Fin 2048) (k : Fin 256), b1 (ix2 p k) = val_main_v5 (F := Ideal) x0 x2 x3 x4 (ix2 ⟨r0 + p.val, by omega⟩ k))
    (h2 : ∀ k : Fin 256, b2 (ix2 0 k) = val_main_v10 (F := Ideal) x0 x1 x2 x3 x4 (ix2 0 ⟨k.val, by omega⟩))
    (h3 : ∀ k : Fin 256, b3 (ix2 0 k) = val_main_v17 (F := Ideal) x0 x1 x2 x3 x4 (ix2 0 ⟨k.val, by omega⟩))
    (h4 : ∀ k : Fin 256, b4 (ix2 0 k) = x5 (ix1 ⟨k.val, by omega⟩))
    (h5 : ∀ k : Fin 256, b5 (ix2 0 k) = x6 (ix1 ⟨k.val, by omega⟩))
    (h6 : ∀ k : Fin 256, b6 (ix2 0 k) = val_main_v10 (F := Ideal) x0 x1 x2 x3 x4 (ix2 0 ⟨256 + k.val, by omega⟩))
    (h7 : ∀ k : Fin 256, b7 (ix2 0 k) = val_main_v17 (F := Ideal) x0 x1 x2 x3 x4 (ix2 0 ⟨256 + k.val, by omega⟩))
    (h8 : ∀ k : Fin 256, b8 (ix2 0 k) = x5 (ix1 ⟨256 + k.val, by omega⟩))
    (h9 : ∀ k : Fin 256, b9 (ix2 0 k) = x6 (ix1 ⟨256 + k.val, by omega⟩))
    (h10 : ∀ (j : Fin 1024) (k : Fin 256), b10 (ix2 j k) = x7 (ix2 j ⟨k.val, by omega⟩))
    (h11 : ∀ (j : Fin 1024) (k : Fin 256), b11 (ix2 j k) = x7 (ix2 j ⟨256 + k.val, by omega⟩))
    (h12 : ∀ q : Fin 1024, b12 (ix2 0 q) = x8 (ix1 q))
    (p : Fin 2048) (q : Fin 1024) :
    k2_pay1 (F := Ideal) (k2_pay2 b0 b2 b3 b4 b5) (k2_pay3 b1 b6 b7 b8) b9 b10 b11 b12 (ix2 p q)
      = val_main_v40 (F := Ideal) x0 x1 x2 x3 x4 x5 x6 x7 x8 (ix2 ⟨r0 + p.val, by omega⟩ q) := by
  rw [pay1_apply, ref_v40_apply, h12]
  refine congrArg leakyE (congrArg (· + x8 (ix1 q)) ?_)
  refine Eq.symm ((Fin.sum_univ_add (a := 256) (b := 256)
    (fun k : Fin (256 + 256) => val_main_v30 (F := Ideal) x0 x1 x2 x3 x4 x5 x6 (ix2 ⟨r0 + p.val, by omega⟩ k) * x7 (ix2 q k))).trans ?_)
  refine congrArg₂ (· + ·) (Finset.sum_congr rfl fun k _ => ?_) (Finset.sum_congr rfl fun k _ => ?_)
  · show val_main_v30 (F := Ideal) x0 x1 x2 x3 x4 x5 x6 (ix2 ⟨r0 + p.val, by omega⟩ ⟨k.val, by omega⟩) * x7 (ix2 q ⟨k.val, by omega⟩) = _
    rw [ref_v30_apply, ref_v6_left, pay2_apply, h0, h2, h3, h4, h5, h10]
  · show val_main_v30 (F := Ideal) x0 x1 x2 x3 x4 x5 x6 (ix2 ⟨r0 + p.val, by omega⟩ ⟨256 + k.val, by omega⟩) * x7 (ix2 q ⟨256 + k.val, by omega⟩) = _
    rw [ref_v30_apply, ref_v6_right, pay3_apply, h1, h6, h7, h8, h9, h11]
    rfl

end Join

/-! ## From the blocks to the array

Point `t` of the grid reads rows `2048 t … 2048 t + 2047` of the two row arrays and the eleven small arrays whole, and
writes rows `2048 t … 2048 t + 2047` of the output array; the eight points' row blocks tile the output. -/

section Blocks
open Cert.ReferenceIdeal.Read

variable (V : (c : Dev nD) → (b : Ref sig .tc) → Buf (Elt Ideal) ((c : Thread nD τ).loc b))

theorem hz2 : (![0, 0] : Fin 2 → Nat) = fun _ => 0 := funext fun a => by fin_cases a <;> rfl

/-- The grid has eight points. -/
theorem lt8 (t : Fin cfg2.N) : t.val < 8 := (show t.val < grid2.N from t.isLt).trans_eq N_2

/-- The block indices, decided over the grid: the two row windows and the output move with the point along the
    rows; -/
theorem idx_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_13.index t (0 : Fin 2) = t.val ∧ win2_13.index t (1 : Fin 2) = 0 :=
  (by decide +kernel : ∀ t : Fin grid2.N, _)

/-- every other window stays at block (0, 0). -/
theorem idx_const : ∀ t : Fin cfg2.N, (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0)
    ∧ (win2_12.index t (0 : Fin 2) = 0 ∧ win2_12.index t (1 : Fin 2) = 0) :=
  (by decide +kernel : ∀ t : Fin grid2.N, _)

/-! ### Each input block, read off its array -/

theorem iblk2_0 (c : Dev nD) (t : Fin cfg2.N) (p : Fin 2048) (k : Fin 256) :
    (iblk2 V c 0 t : Vec Ideal S2048x256 .f32) (ix2 p k)
      = (V c main_arg1 : S16384x256.Idx → EReal) (ix2 ⟨t.val * 2048 + p.val, by have := lt8 t; omega⟩ k) := by
  obtain ⟨e0, e1, -⟩ := idx_rows t
  unfold iblk2
  rw [View.read_apply]
  show V c main_arg1 _ = V c main_arg1 _
  congr 1
  funext a
  apply Fin.ext
  match a with
  | ⟨0, _⟩ => show win2_0.index t (0 : Fin 2) * 2048 + 1 * p.val = t.val * 2048 + p.val; rw [e0]; omega
  | ⟨1, _⟩ => show win2_0.index t (1 : Fin 2) * 256 + 1 * k.val = k.val; rw [e1]; omega

theorem iblk2_1 (c : Dev nD) (t : Fin cfg2.N) (p : Fin 2048) (k : Fin 256) :
    (iblk2 V c 1 t : Vec Ideal S2048x256 .f32) (ix2 p k)
      = (V c main_v2 : S16384x256.Idx → EReal) (ix2 ⟨t.val * 2048 + p.val, by have := lt8 t; omega⟩ k) := by
  obtain ⟨-, -, e0, e1, -⟩ := idx_rows t
  unfold iblk2
  rw [View.read_apply]
  show V c main_v2 _ = V c main_v2 _
  congr 1
  funext a
  apply Fin.ext
  match a with
  | ⟨0, _⟩ => show win2_1.index t (0 : Fin 2) * 2048 + 1 * p.val = t.val * 2048 + p.val; rw [e0]; omega
  | ⟨1, _⟩ => show win2_1.index t (1 : Fin 2) * 256 + 1 * k.val = k.val; rw [e1]; omega

theorem iblk2_2 (c : Dev nD) (t : Fin cfg2.N) (k : Fin 256) :
    (iblk2 V c 2 t : Vec Ideal S1x256 .f32) (ix2 0 k) = (V c main_v29 : S1x256.Idx → EReal) (ix2 0 k) := by
  obtain ⟨⟨e0, e1⟩, -⟩ := idx_const t
  unfold iblk2
  rw [View.read_apply]
  show V c main_v29 _ = V c main_v29 _
  congr 1
  funext a
  apply Fin.ext
  match a with
  | ⟨0, _⟩ => show win2_2.index t (0 : Fin 2) * 1 + 1 * 0 = 0; rw [e0]
  | ⟨1, _⟩ => show win2_2.index t (1 : Fin 2) * 256 + 1 * k.val = k.val; rw [e1]; omega

theorem iblk2_3 (c : Dev nD) (t : Fin cfg2.N) (k : Fin 256) :
    (iblk2 V c 3 t : Vec Ideal S1x256 .f32) (ix2 0 k) = (V c main_v30 : S1x256.Idx → EReal) (ix2 0 k) := by
  obtain ⟨-, ⟨e0, e1⟩, -⟩ := idx_const t
  unfold iblk2
  rw [View.read_apply]
  show V c main_v30 _ = V c main_v30 _
  congr 1
  funext a
  apply Fin.ext
  match a with
  | ⟨0, _⟩ => show win2_3.index t (0 : Fin 2) * 1 + 1 * 0 = 0; rw [e0]
  | ⟨1, _⟩ => show win2_3.index t (1 : Fin 2) * 256 + 1 * k.val = k.val; rw [e1]; omega

theorem iblk2_4 (c : Dev nD) (t : Fin cfg2.N) (k : Fin 256) :
    (iblk2 V c 4 t : Vec Ideal S1x256 .f32) (ix2 0 k) = (V c main_v31 : S1x256.Idx → EReal) (ix2 0 k) := by
  obtain ⟨-, -, ⟨e0, e1⟩, -⟩ := idx_const t
  unfold iblk2
  rw [View.read_apply]
  show V c main_v31 _ = V c main_v31 _
  congr 1
  funext a
  apply Fin.ext
  match a with
  | ⟨0, _⟩ => show win2_4.index t (0 : Fin 2) * 1 + 1 * 0 = 0; rw [e0]
  | ⟨1, _⟩ => show win2_4.index t (1 : Fin 2) * 256 + 1 * k.val = k.val; rw [e1]; omega

theorem iblk2_5 (c : Dev nD) (t : Fin cfg2.N) (k : Fin 256) :
    (iblk2 V c 5 t : Vec Ideal S1x256 .f32) (ix2 0 k) = (V c main_v32 : S1x256.Idx → EReal) (ix2 0 k) := by
  obtain ⟨-, -, -, ⟨e0, e1⟩, -⟩ := idx_const t
  unfold iblk2
  rw [View.read_apply]
  show V c main_v32 _ = V c main_v32 _
  congr 1
  funext a
  apply Fin.ext
  match a with
  | ⟨0, _⟩ => show win2_5.index t (0 : Fin 2) * 1 + 1 * 0 = 0; rw [e0]
  | ⟨1, _⟩ => show win2_5.index t (1 : Fin 2) * 256 + 1 * k.val = k.val; rw [e1]; omega

theorem iblk2_6 (c : Dev nD) (t : Fin cfg2.N) (k : Fin 256) :
    (iblk2 V c 6 t : Vec Ideal S1x256 .f32) (ix2 0 k) = (V c main_v33 : S1x256.Idx → EReal) (ix2 0 k) := by
  obtain ⟨-, -, -, -, ⟨e0, e1⟩, -⟩ := idx_const t
  unfold iblk2
  rw [View.read_apply]
  show V c main_v33 _ = V c main_v33 _
  congr 1
  funext a
  apply Fin.ext
  match a with
  | ⟨0, _⟩ => show win2_6.index t (0 : Fin 2) * 1 + 1 * 0 = 0; rw [e0]
  | ⟨1, _⟩ => show win2_6.index t (1 : Fin 2) * 256 + 1 * k.val = k.val; rw [e1]; omega

theorem iblk2_7 (c : Dev nD) (t : Fin cfg2.N) (k : Fin 256) :
    (iblk2 V c 7 t : Vec Ideal S1x256 .f32) (ix2 0 k) = (V c main_v34 : S1x256.Idx → EReal) (ix2 0 k) := by
  obtain ⟨-, -, -, -, -, ⟨e0, e1⟩, -⟩ := idx_const t
  unfold iblk2
  rw [View.read_apply]
  show V c main_v34 _ = V c main_v34 _
  congr 1
  funext a
  apply Fin.ext
  match a with
  | ⟨0, _⟩ => show win2_7.index t (0 : Fin 2) * 1 + 1 * 0 = 0; rw [e0]
  | ⟨1, _⟩ => show win2_7.index t (1 : Fin 2) * 256 + 1 * k.val = k.val; rw [e1]; omega

theorem iblk2_8 (c : Dev nD) (t : Fin cfg2.N) (k : Fin 256) :
    (iblk2 V c 8 t : Vec Ideal S1x256 .f32) (ix2 0 k) = (V c main_v35 : S1x256.Idx → EReal) (ix2 0 k) := by
  obtain ⟨-, -, -, -, -, -, ⟨e0, e1⟩, -⟩ := idx_const t
  unfold iblk2
  rw [View.read_apply]
  show V c main_v35 _ = V c main_v35 _
  congr 1
  funext a
  apply Fin.ext
  match a with
  | ⟨0, _⟩ => show win2_8.index t (0 : Fin 2) * 1 + 1 * 0 = 0; rw [e0]
  | ⟨1, _⟩ => show win2_8.index t (1 : Fin 2) * 256 + 1 * k.val = k.val; rw [e1]; omega

theorem iblk2_9 (c : Dev nD) (t : Fin cfg2.N) (k : Fin 256) :
    (iblk2 V c 9 t : Vec Ideal S1x256 .f32) (ix2 0 k) = (V c main_v36 : S1x256.Idx → EReal) (ix2 0 k) := by
  obtain ⟨-, -, -, -, -, -, -, ⟨e0, e1⟩, -⟩ := idx_const t
  unfold iblk2
  rw [View.read_apply]
  show V c main_v36 _ = V c main_v36 _
  congr 1
  funext a
  apply Fin.ext
  match a with
  | ⟨0, _⟩ => show win2_9.index t (0 : Fin 2) * 1 + 1 * 0 = 0; rw [e0]
  | ⟨1, _⟩ => show win2_9.index t (1 : Fin 2) * 256 + 1 * k.val = k.val; rw [e1]; omega

theorem iblk2_10 (c : Dev nD) (t : Fin cfg2.N) (j : Fin 1024) (k : Fin 256) :
    (iblk2 V c 10 t : Vec Ideal S1024x256 .f32) (ix2 j k) = (V c main_v27 : S1024x256.Idx → EReal) (ix2 j k) := by
  obtain ⟨-, -, -, -, -, -, -, -, ⟨e0, e1⟩, -⟩ := idx_const t
  unfold iblk2
  rw [View.read_apply]
  show V c main_v27 _ = V c main_v27 _
  congr 1
  funext a
  apply Fin.ext
  match a with
  | ⟨0, _⟩ => show win2_10.index t (0 : Fin 2) * 1024 + 1 * j.val = j.val; rw [e0]; omega
  | ⟨1, _⟩ => show win2_10.index t (1 : Fin 2) * 256 + 1 * k.val = k.val; rw [e1]; omega

theorem iblk2_11 (c : Dev nD) (t : Fin cfg2.N) (j : Fin 1024) (k : Fin 256) :
    (iblk2 V c 11 t : Vec Ideal S1024x256 .f32) (ix2 j k) = (V c main_v28 : S1024x256.Idx → EReal) (ix2 j k) := by
  obtain ⟨-, -, -, -, -, -, -, -, -, ⟨e0, e1⟩, -⟩ := idx_const t
  unfold iblk2
  rw [View.read_apply]
  show V c main_v28 _ = V c main_v28 _
  congr 1
  funext a
  apply Fin.ext
  match a with
  | ⟨0, _⟩ => show win2_11.index t (0 : Fin 2) * 1024 + 1 * j.val = j.val; rw [e0]; omega
  | ⟨1, _⟩ => show win2_11.index t (1 : Fin 2) * 256 + 1 * k.val = k.val; rw [e1]; omega

theorem iblk2_12 (c : Dev nD) (t : Fin cfg2.N) (q : Fin 1024) :
    (iblk2 V c 12 t : Vec Ideal S1x1024 .f32) (ix2 0 q) = (V c main_v37 : S1x1024.Idx → EReal) (ix2 0 q) := by
  obtain ⟨-, -, -, -, -, -, -, -, -, -, e0, e1⟩ := idx_const t
  unfold iblk2
  rw [View.read_apply]
  show V c main_v37 _ = V c main_v37 _
  congr 1
  funext a
  apply Fin.ext
  match a with
  | ⟨0, _⟩ => show win2_12.index t (0 : Fin 2) * 1 + 1 * 0 = 0; rw [e0]
  | ⟨1, _⟩ => show win2_12.index t (1 : Fin 2) * 1024 + 1 * q.val = q.val; rw [e1]; omega

/-! ### What a point writes back, the cover, the array -/

variable (x0 x1 : (⟨S16384x256, .f32⟩ : BufTy).Contents (Elt Ideal)) (x2 : (⟨S16384x16384, .f32⟩ : BufTy).Contents (Elt Ideal))
  (x3 : (⟨S256x256, .f32⟩ : BufTy).Contents (Elt Ideal)) (x4 : (⟨S256, .f32⟩ : BufTy).Contents (Elt Ideal))
  (x5 x6 : (⟨S512, .f32⟩ : BufTy).Contents (Elt Ideal)) (x7 : (⟨S1024x512, .f32⟩ : BufTy).Contents (Elt Ideal))
  (x8 : (⟨S1024, .f32⟩ : BufTy).Contents (Elt Ideal))

/-- WHAT POINT `t` WRITES BACK is block `t` of the reference's first hidden layer, when the region's thirteen input
    arrays hold: N; the aggregated block; the two halves of the concatenation's column means, variances, scale and
    shift as rows; the two column halves of the weight; the bias as a row. -/
theorem flushed13_eq (c : Dev nD)
    (hN : V c main_arg1 = x1)
    (hM2N : V c main_v2 = val_main_v5 (F := Ideal) x0 x2 x3 x4)
    (h29 : ∀ q : Fin 256, (V c main_v29 : S1x256.Idx → EReal) (ix2 0 q) = val_main_v10 (F := Ideal) x0 x1 x2 x3 x4 (ix2 0 ⟨q.val, by omega⟩))
    (h30 : ∀ q : Fin 256, (V c main_v30 : S1x256.Idx → EReal) (ix2 0 q) = val_main_v17 (F := Ideal) x0 x1 x2 x3 x4 (ix2 0 ⟨q.val, by omega⟩))
    (h31 : ∀ q : Fin 256, (V c main_v31 : S1x256.Idx → EReal) (ix2 0 q) = x5 (ix1 ⟨q.val, by omega⟩))
    (h32 : ∀ q : Fin 256, (V c main_v32 : S1x256.Idx → EReal) (ix2 0 q) = x6 (ix1 ⟨q.val, by omega⟩))
    (h33 : ∀ q : Fin 256, (V c main_v33 : S1x256.Idx → EReal) (ix2 0 q) = val_main_v10 (F := Ideal) x0 x1 x2 x3 x4 (ix2 0 ⟨256 + q.val, by omega⟩))
    (h34 : ∀ q : Fin 256, (V c main_v34 : S1x256.Idx → EReal) (ix2 0 q) = val_main_v17 (F := Ideal) x0 x1 x2 x3 x4 (ix2 0 ⟨256 + q.val, by omega⟩))
    (h35 : ∀ q : Fin 256, (V c main_v35 : S1x256.Idx → EReal) (ix2 0 q) = x5 (ix1 ⟨256 + q.val, by omega⟩))
    (h36 : ∀ q : Fin 256, (V c main_v36 : S1x256.Idx → EReal) (ix2 0 q) = x6 (ix1 ⟨256 + q.val, by omega⟩))
    (h27 : ∀ (j : Fin 1024) (k : Fin 256), (V c main_v27 : S1024x256.Idx → EReal) (ix2 j k) = x7 (ix2 j ⟨k.val, by omega⟩))
    (h28 : ∀ (j : Fin 1024) (k : Fin 256), (V c main_v28 : S1024x256.Idx → EReal) (ix2 j k) = x7 (ix2 j ⟨256 + k.val, by omega⟩))
    (h37 : ∀ q : Fin 1024, (V c main_v37 : S1x1024.Idx → EReal) (ix2 0 q) = x8 (ix1 q))
    (t : Fin cfg2.N) :
    (dat2 (F := Ideal) V c).flushed 13 t
      = ((cfg2.win 13).blk t).view.read (Elt Ideal) (val_main_v40 (F := Ideal) x0 x1 x2 x3 x4 x5 x6 x7 x8) := by
  show (cfg2.win 13).cut (grid2.coords t) ((dat2 V c).after 13 t) = _
  rw [after2_13]
  unfold out2_13
  rw [View.canon_unit_zero hz2]
  simp only [View.ld_unit_zero (S := S2048x256) hz2, View.ld_unit_zero (S := S1x256) hz2,
    View.ld_unit_zero (S := S1024x256) hz2, View.ld_unit_zero (S := S1x1024) hz2]
  funext j
  obtain ⟨p, q, rfl⟩ : ∃ (p : Fin 2048) (q : Fin 1024), j = ix2 p q := ⟨j 0, j 1, eq_ix2 j⟩
  obtain ⟨-, -, -, -, e0, e1⟩ := idx_rows t
  have ht := lt8 t
  have hemb : ((cfg2.win 13).blk t).view.emb (ix2 p q) = (ix2 ⟨t.val * 2048 + p.val, by omega⟩ q : S16384x1024.Idx) := by
    funext a
    apply Fin.ext
    match a with
    | ⟨0, _⟩ => show win2_13.index t (0 : Fin 2) * 2048 + 1 * p.val = t.val * 2048 + p.val; rw [e0]; omega
    | ⟨1, _⟩ => show win2_13.index t (1 : Fin 2) * 1024 + 1 * q.val = q.val; rw [e1]; omega
  refine (point_eq x0 x1 x2 x3 x4 x5 x6 x7 x8 (iblk2 V c 0 t) (iblk2 V c 1 t) (iblk2 V c 2 t) (iblk2 V c 3 t) (iblk2 V c 4 t)
    (iblk2 V c 5 t) (iblk2 V c 6 t) (iblk2 V c 7 t) (iblk2 V c 8 t) (iblk2 V c 9 t) (iblk2 V c 10 t) (iblk2 V c 11 t)
    (iblk2 V c 12 t) (t.val * 2048) (by omega)
    (fun p k => by rw [iblk2_0, hN]) (fun p k => by rw [iblk2_1, hM2N]) (fun k => by rw [iblk2_2, h29])
    (fun k => by rw [iblk2_3, h30]) (fun k => by rw [iblk2_4, h31]) (fun k => by rw [iblk2_5, h32])
    (fun k => by rw [iblk2_6, h33]) (fun k => by rw [iblk2_7, h34]) (fun k => by rw [iblk2_8, h35])
    (fun k => by rw [iblk2_9, h36]) (fun j k => by rw [iblk2_10, h27]) (fun j k => by rw [iblk2_11, h28])
    (fun q => by rw [iblk2_12, h37]) p q).trans ?_
  rw [View.read_apply, hemb]
  rfl

/-- An index of the output array is in point `t`'s block iff each coordinate is in the block's range on its axis. -/
theorem mem_blk13 (t : Fin cfg2.N) (i : S16384x1024.Idx) :
    i ∈ ((cfg2.win 13).blk t).view.set ↔ ∀ a : Fin 2, win2_13.index t a * S2048x1024.size a ≤ (i a).val
      ∧ (i a).val < win2_13.index t a * S2048x1024.size a + S2048x1024.size a := by
  show i ∈ ((View.whole main_v38).slice (win2_13.rect t)).set ↔ _
  rw [View.set_slice_whole, Rect.mem_set_unit]
  exact Iff.rfl

/-- Every row of the output array is in the block of the point its index divided by 2048 names. -/
theorem cover13 (i : S16384x1024.Idx) :
    ∃ t : Fin cfg2.N, (cfg2.win 13).flush t = true ∧ i ∈ ((cfg2.win 13).blk t).view.set := by
  have hi0 : (i 0).val < 16384 := (i 0).isLt
  have hi1 : (i 1).val < 1024 := (i 1).isLt
  obtain ⟨t, ht⟩ : ∃ t : Fin cfg2.N, t.val = (i 0).val / 2048 :=
    ⟨⟨(i 0).val / 2048, lt_of_lt_of_eq (by omega : (i 0).val / 2048 < 8) N_2.symm⟩, rfl⟩
  obtain ⟨-, -, -, -, e0, e1⟩ := idx_rows t
  refine ⟨t, flush2_13 t, ?_⟩
  rw [mem_blk13]
  intro a
  match a with
  | ⟨0, _⟩ => show win2_13.index t (0 : Fin 2) * 2048 ≤ (i 0).val ∧ (i 0).val < win2_13.index t (0 : Fin 2) * 2048 + 2048; rw [e0, ht]; omega
  | ⟨1, _⟩ => show win2_13.index t (1 : Fin 2) * 1024 ≤ (i 1).val ∧ (i 1).val < win2_13.index t (1 : Fin 2) * 1024 + 1024; rw [e1]; omega

/-- THE OUTPUT ARRAY after region 2 is the reference's first hidden layer. -/
theorem region2_value (c : Dev nD)
    (hN : V c main_arg1 = x1)
    (hM2N : V c main_v2 = val_main_v5 (F := Ideal) x0 x2 x3 x4)
    (h29 : ∀ q : Fin 256, (V c main_v29 : S1x256.Idx → EReal) (ix2 0 q) = val_main_v10 (F := Ideal) x0 x1 x2 x3 x4 (ix2 0 ⟨q.val, by omega⟩))
    (h30 : ∀ q : Fin 256, (V c main_v30 : S1x256.Idx → EReal) (ix2 0 q) = val_main_v17 (F := Ideal) x0 x1 x2 x3 x4 (ix2 0 ⟨q.val, by omega⟩))
    (h31 : ∀ q : Fin 256, (V c main_v31 : S1x256.Idx → EReal) (ix2 0 q) = x5 (ix1 ⟨q.val, by omega⟩))
    (h32 : ∀ q : Fin 256, (V c main_v32 : S1x256.Idx → EReal) (ix2 0 q) = x6 (ix1 ⟨q.val, by omega⟩))
    (h33 : ∀ q : Fin 256, (V c main_v33 : S1x256.Idx → EReal) (ix2 0 q) = val_main_v10 (F := Ideal) x0 x1 x2 x3 x4 (ix2 0 ⟨256 + q.val, by omega⟩))
    (h34 : ∀ q : Fin 256, (V c main_v34 : S1x256.Idx → EReal) (ix2 0 q) = val_main_v17 (F := Ideal) x0 x1 x2 x3 x4 (ix2 0 ⟨256 + q.val, by omega⟩))
    (h35 : ∀ q : Fin 256, (V c main_v35 : S1x256.Idx → EReal) (ix2 0 q) = x5 (ix1 ⟨256 + q.val, by omega⟩))
    (h36 : ∀ q : Fin 256, (V c main_v36 : S1x256.Idx → EReal) (ix2 0 q) = x6 (ix1 ⟨256 + q.val, by omega⟩))
    (h27 : ∀ (j : Fin 1024) (k : Fin 256), (V c main_v27 : S1024x256.Idx → EReal) (ix2 j k) = x7 (ix2 j ⟨k.val, by omega⟩))
    (h28 : ∀ (j : Fin 1024) (k : Fin 256), (V c main_v28 : S1024x256.Idx → EReal) (ix2 j k) = x7 (ix2 j ⟨256 + k.val, by omega⟩))
    (h37 : ∀ q : Fin 1024, (V c main_v37 : S1x1024.Idx → EReal) (ix2 0 q) = x8 (ix1 q)) :
    (dat2 (F := Ideal) V c).arrAt 13 cfg2.N = val_main_v40 (F := Ideal) x0 x1 x2 x3 x4 x5 x6 x7 x8 :=
  (dat2 V c).arrAt_eq_of_cover 13 (val_main_v40 (F := Ideal) x0 x1 x2 x3 x4 x5 x6 x7 x8)
    (fun t _ => flushed13_eq V x0 x1 x2 x3 x4 x5 x6 x7 x8 c hN hM2N h29 h30 h31 h32 h33 h34 h35 h36 h27 h28 h37 t) cover13

end Blocks

end Cert.KernelIdeal.Val.V2
end
-- ==== Proof.KI.V3.lean ====
/- The value leg of kernel region 3 of @main (custom_call 3, the second linear layer) at the ideal values, where floats are
   extended reals, every operation is exact, a format change is the identity and a matrix product into a zero accumulator
   is a plain sum. The claim: when the region's input arrays hold the reference program's stages — the first layer's
   output, its column mean and variance as 1×1024 rows, and the arguments N, g2, be2, W2, b2 — the region's output array
   ends holding the reference's result N + leaky(BN(x1)·W2ᵀ + b2), its stage %75.
   The steps: one output element in closed form (`leaky`, `lin2`); the kernel's payload at an index is that closed form of its
   loaded blocks (`pay_apply`); the reference's stage %75 at an index is the same closed form of its earlier stages
   (`ref_apply`); each window's block at a grid point is a part of its array (`iblk3_w_apply`); so point t writes back block t
   of %75 (`flushed3_8_eq`), the eight blocks cover the array (`cover3_8_arr`), and the array is %75 (`region3_value`). -/
import proofs.«150604_j36773509988939_1_alg».proof.Proof.KI.R3
import proofs.«150604_j36773509988939_1_alg».proof.Proof.Ref.Read
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val.V3
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-! ## The closed form of one output element -/

/-- The leaky rectifier of slope 0.01 on the extended reals, written as both programs write it: the value itself
    where it is at least zero, its product with the constant elsewhere. -/
def leaky (y : Ideal .f32) : Ideal .f32 :=
  Scalar.select (FloatOps.cmpf .oge y (Ideal.ofBits .f32 0x00000000#32)) y (Ideal.ofBits .f32 0x3C23D70A#32 * y)

/-- One row of the second linear layer before the rectifier: the row `x` normalised column by column with mean `μ`,
    variance `σ`, scale `g` and shift `β` (associated as ((x − μ)·(σ + ε)^(−1/2))·g + β), contracted with the weight row
    `w` over the 1024 columns, plus the bias `b`. -/
def lin2 (x μ σ g β w : Fin 1024 → Ideal .f32) (b : Ideal .f32) : Ideal .f32 :=
  (∑ k : Fin 1024, (((x k - μ k) * Ideal.rsqrt (σ k + Ideal.ofBits .f32 0x3727C5AC#32)) * g k + β k) * w k) + b

/-! ## The kernel's payload at an index -/

/-- A 1×1024 row broadcast along 2048 rows reads, at (p, k), the row at (0, k). -/
theorem bcast_row1024 (v : FVec Ideal S1x1024 .f32) (p : Fin 2048) (k : Fin 1024) :
    broadcastTo S2048x1024 v broadcasts_S1x1024_S2048x1024 (ix2 p k) = v (ix2 0 k) :=
  broadcastTo_apply v broadcasts_S1x1024_S2048x1024 (ix2 p k) (ix2 0 k) (fun a => match a with
    | ⟨0, _⟩ => by show 0 = if (1 : Nat) = 1 then 0 else _; rw [if_pos rfl]
    | ⟨1, _⟩ => by show k.val = if (1024 : Nat) = 1 then 0 else k.val; rw [if_neg (by decide)])

/-- A 1×256 row broadcast along 2048 rows reads, at (p, q), the row at (0, q). -/
theorem bcast_row256 (v : FVec Ideal S1x256 .f32) (p : Fin 2048) (q : Fin 256) :
    broadcastTo S2048x256 v broadcasts_S1x256_S2048x256 (ix2 p q) = v (ix2 0 q) :=
  broadcastTo_apply v broadcasts_S1x256_S2048x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- The transpose of a 256×1024 matrix reads, at (k, q), the matrix at (q, k). -/
theorem transpose_w (v : FVec Ideal S256x1024 .bf16) (k : Fin 1024) (q : Fin 256) :
    transpose S1024x256 [1, 0] v transposes_S256x1024_p1_0_S1024x256 (ix2 k q) = v (ix2 q k) :=
  transpose_apply [1, 0] v transposes_S256x1024_p1_0_S1024x256 (ix2 k q) (ix2 q k) (fun b => match b with
    | ⟨0, _⟩ => rfl
    | ⟨1, _⟩ => rfl)

/-- The product's dimension numbers: the left operand's index at output index `i` and contraction index `c` is
    (i 0, c) and the right operand's is (c, i 1), axis by axis. -/
theorem lhs_mm_0 (i : S2048x256.Idx) (c : dot_S2048x1024_S1024x256_S2048x256_1_0_0_1_n_n.contr.Idx) :
    (dot_S2048x1024_S1024x256_S2048x256_1_0_0_1_n_n.lhsIdx i c 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs_mm_1 (i : S2048x256.Idx) (c : dot_S2048x1024_S1024x256_S2048x256_1_0_0_1_n_n.contr.Idx) :
    (dot_S2048x1024_S1024x256_S2048x256_1_0_0_1_n_n.lhsIdx i c 1).val = (c ⟨0, by decide⟩).val :=
  dot_S2048x1024_S1024x256_S2048x256_1_0_0_1_n_n.lhsIdx_val_of_single rfl i c
theorem rhs_mm_0 (i : S2048x256.Idx) (c : dot_S2048x1024_S1024x256_S2048x256_1_0_0_1_n_n.contr.Idx) :
    (dot_S2048x1024_S1024x256_S2048x256_1_0_0_1_n_n.rhsIdx i c 0).val = (c ⟨0, by decide⟩).val :=
  dot_S2048x1024_S1024x256_S2048x256_1_0_0_1_n_n.rhsIdx_val_of_single rfl i c
theorem rhs_mm_1 (i : S2048x256.Idx) (c : dot_S2048x1024_S1024x256_S2048x256_1_0_0_1_n_n.contr.Idx) :
    (dot_S2048x1024_S1024x256_S2048x256_1_0_0_1_n_n.rhsIdx i c 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- The matrix product into the zero accumulator, read at (p, q), is the sum over the 1024 contraction coordinates of
    the left operand at (p, k) times the right at (k, q): the contraction index is re-indexed by its one coordinate. -/
theorem matmul_apply3 (l : FVec Ideal S2048x1024 .bf16) (r : FVec Ideal S1024x256 .bf16) (p : Fin 2048) (q : Fin 256) :
    matmul dot_S2048x1024_S1024x256_S2048x256_1_0_0_1_n_n none l r (constant (F := Ideal) S2048x256 .f32 0x00000000#32) (ix2 p q)
      = ∑ k : Fin 1024, l (ix2 p k) * r (ix2 k q) := by
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p q) ((contrEquiv1 dot_S2048x1024_S1024x256_S2048x256_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S2048x1024_S1024x256_S2048x256_1_0_0_1_n_n.rhsIdx (ix2 p q) ((contrEquiv1 dot_S2048x1024_S1024x256_S2048x256_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- The same product with the transposed 256×1024 weight as right operand: at (p, q), the sum over k of the left operand
    at (p, k) times the weight at (q, k). -/
theorem matmul_transpose_apply (l : FVec Ideal S2048x1024 .bf16) (w : FVec Ideal S256x1024 .bf16) (p : Fin 2048) (q : Fin 256) :
    matmul dot_S2048x1024_S1024x256_S2048x256_1_0_0_1_n_n none l (transpose S1024x256 [1, 0] w transposes_S256x1024_p1_0_S1024x256)
        (constant (F := Ideal) S2048x256 .f32 0x00000000#32) (ix2 p q)
      = ∑ k : Fin 1024, l (ix2 p k) * w (ix2 q k) := by
  rw [matmul_apply3]
  exact Finset.sum_congr rfl fun k _ => by rw [transpose_w]

/-- A reciprocal square root at an index is the extended reals' reciprocal square root of the element. -/
theorem rsqrt_apply {s : Shape} {φ : FTy} (a : FVec Ideal s φ) (i : s.Idx) : rsqrt a i = Ideal.rsqrt (a i) := rfl
/-- A scalar float literal at the ideal values is the extended real its word encodes. -/
theorem scalar_ofBits (b : BitVec (FTy.f32).bits) : Scalar.ofBits (F := Ideal) .f32 b = Ideal.ofBits .f32 b := rfl

/-- THE KERNEL'S VALUE AT AN ELEMENT: the payload of the one store, at (p, q) of the 2048×256 block, is the residual
    block's element plus the rectifier of the normalised row p of the first block contracted with row q of the weight,
    plus the bias at q. The index goes through the pointwise operations element by element, through the two row
    broadcasts to row 0, and through the product as the sum over the contracted axis; the shape casts are identities. -/
theorem pay_apply (v0 : Vec Ideal S2048x1024 .f32) (v2 v6 v13 v17 : Vec Ideal S1x1024 .f32) (v22 : Vec Ideal S256x1024 .f32)
    (v26 : Vec Ideal S1x256 .f32) (v35 : Vec Ideal S2048x256 .f32) (p : Fin 2048) (q : Fin 256) :
    k3_pay1 (F := Ideal) v0 v2 v6 v13 v17 v22 v26 v35 (ix2 p q)
      = v35 (ix2 p q) + leaky (lin2 (fun k => v0 (ix2 p k)) (fun k => v2 (ix2 0 k)) (fun k => v6 (ix2 0 k))
          (fun k => v13 (ix2 0 k)) (fun k => v17 (ix2 0 k)) (fun k => v22 (ix2 q k)) (v26 (ix2 0 q))) := by
  unfold k3_pay1
  simp only [shapeCast_self, addf_apply, select_apply, cmpf_apply, mulf_apply, broadcast_apply, bcast_row256, scalar_ofBits]
  rw [matmul_transpose_apply]
  simp only [truncf_apply, addf_apply, mulf_apply, subf_apply, broadcast_apply, rsqrt_apply, bcast_row1024, scalar_ofBits]
  rfl

/-! ## The reference's result at an index -/

/-- THE REFERENCE'S VALUE AT AN ELEMENT: its last stage %75 at (r, q) of the 16384×256 result is the second argument's
    element plus the rectifier of row r of its stage %40 normalised with its stages %44 (mean) and %51 (variance), the
    scale and shift arguments, contracted with row q of the weight argument, plus the bias argument at q: the chain
    %52 … %75 read at an index, operation by operation, the product as the sum over the contracted axis. -/
theorem ref_apply (x0 x1 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal)) (x5 x6 : (⟨S512, .f32⟩ : BufTy).Contents (Elt Ideal)) (x7 : (⟨S1024x512, .f32⟩ : BufTy).Contents (Elt Ideal)) (x8 x9 x10 : (⟨S1024, .f32⟩ : BufTy).Contents (Elt Ideal)) (x11 : (⟨S256x1024, .f32⟩ : BufTy).Contents (Elt Ideal)) (x12 : (⟨S256, .f32⟩ : BufTy).Contents (Elt Ideal)) (r : Fin 16384) (q : Fin 256) :
    Cert.ReferenceIdeal.Read.val_main_v75 (F := Ideal) x0 x1 x2 x3 x4 x5 x6 x7 x8 x9 x10 x11 x12 (ix2 r q)
      = x1 (ix2 r q) + leaky (lin2 (fun k => Cert.ReferenceIdeal.Read.val_main_v40 (F := Ideal) x0 x1 x2 x3 x4 x5 x6 x7 x8 (ix2 r k))
          (fun k => Cert.ReferenceIdeal.Read.val_main_v44 (F := Ideal) x0 x1 x2 x3 x4 x5 x6 x7 x8 (ix2 0 k)) (fun k => Cert.ReferenceIdeal.Read.val_main_v51 (F := Ideal) x0 x1 x2 x3 x4 x5 x6 x7 x8 (ix2 0 k))
          (fun k => x9 (ix1 k)) (fun k => x10 (ix1 k)) (fun k => x11 (ix2 q k)) (x12 (ix1 q))) := by
  have hs : ∀ k : Fin 1024,
      Cert.ReferenceIdeal.Read.val_main_v64 (F := Ideal) x0 x1 x2 x3 x4 x5 x6 x7 x8 x9 x10 (Cert.ReferenceIdeal.Read.lidx_main_v66 (ix2 r q) k)
        * Cert.ReferenceIdeal.Read.val_main_v65 (F := Ideal) x11 (Cert.ReferenceIdeal.Read.ridx_main_v66 (ix2 r q) k)
      = (((Cert.ReferenceIdeal.Read.val_main_v40 (F := Ideal) x0 x1 x2 x3 x4 x5 x6 x7 x8 (ix2 r k) - Cert.ReferenceIdeal.Read.val_main_v44 (F := Ideal) x0 x1 x2 x3 x4 x5 x6 x7 x8 (ix2 0 k))
            * Ideal.rsqrt (Cert.ReferenceIdeal.Read.val_main_v51 (F := Ideal) x0 x1 x2 x3 x4 x5 x6 x7 x8 (ix2 0 k) + Ideal.ofBits .f32 0x3727C5AC#32)) * x9 (ix1 k) + x10 (ix1 k))
          * x11 (ix2 q k) := fun k => by
    have el : Cert.ReferenceIdeal.Read.lidx_main_v66 (ix2 r q) k = ix2 r k := funext fun a => match a with | ⟨0, _⟩ => rfl | ⟨1, _⟩ => rfl
    have er : Cert.ReferenceIdeal.Read.ridx_main_v66 (ix2 r q) k = ix2 k q := funext fun a => match a with | ⟨0, _⟩ => rfl | ⟨1, _⟩ => rfl
    have e52 : Cert.ReferenceIdeal.Read.idx_main_v52 (ix2 r k) = ix2 0 k := funext fun a => match a with | ⟨0, _⟩ => rfl | ⟨1, _⟩ => rfl
    have e57 : Cert.ReferenceIdeal.Read.idx_main_v57 (ix2 r k) = ix2 0 k := funext fun a => match a with | ⟨0, _⟩ => rfl | ⟨1, _⟩ => rfl
    have e59 : Cert.ReferenceIdeal.Read.idx_main_v59 (Cert.ReferenceIdeal.Read.idx_main_v60 (ix2 r k)) = ix1 k := funext fun a => match a with | ⟨0, _⟩ => rfl
    have e62 : Cert.ReferenceIdeal.Read.idx_main_v62 (Cert.ReferenceIdeal.Read.idx_main_v63 (ix2 r k)) = ix1 k := funext fun a => match a with | ⟨0, _⟩ => rfl
    have e65 : Cert.ReferenceIdeal.Read.idx_main_v65 (ix2 k q) = ix2 q k := funext fun a => match a with | ⟨0, _⟩ => rfl | ⟨1, _⟩ => rfl
    rw [el, er, Cert.ReferenceIdeal.Read.val_main_v64_apply, Cert.ReferenceIdeal.Read.val_main_v61_apply, Cert.ReferenceIdeal.Read.val_main_v58_apply, Cert.ReferenceIdeal.Read.val_main_v53_apply,
      Cert.ReferenceIdeal.Read.val_main_v52_apply, Cert.ReferenceIdeal.Read.val_main_v57_apply, Cert.ReferenceIdeal.Read.val_main_v56_apply, Cert.ReferenceIdeal.Read.val_main_v55_apply, Cert.ReferenceIdeal.Read.val_main_v54_apply,
      Cert.ReferenceIdeal.Read.val_main_cst_10_apply, Cert.ReferenceIdeal.Read.val_main_v60_apply, Cert.ReferenceIdeal.Read.val_main_v59_apply, Cert.ReferenceIdeal.Read.val_main_v63_apply, Cert.ReferenceIdeal.Read.val_main_v62_apply,
      Cert.ReferenceIdeal.Read.val_main_v65_apply, e52, e57, e59, e62, e65]
    rfl
  have e67 : Cert.ReferenceIdeal.Read.idx_main_v67 (Cert.ReferenceIdeal.Read.idx_main_v68 (ix2 r q)) = ix1 q := funext fun a => match a with | ⟨0, _⟩ => rfl
  rw [Cert.ReferenceIdeal.Read.val_main_v75_apply, Cert.ReferenceIdeal.Read.val_main_v74_apply, Cert.ReferenceIdeal.Read.val_main_v71_apply, Cert.ReferenceIdeal.Read.val_main_v73_apply, Cert.ReferenceIdeal.Read.val_main_v69_apply,
    Cert.ReferenceIdeal.Read.val_main_v66_apply, Cert.ReferenceIdeal.Read.val_main_v68_apply, Cert.ReferenceIdeal.Read.val_main_v67_apply, Cert.ReferenceIdeal.Read.val_main_v70_apply, Cert.ReferenceIdeal.Read.val_main_cst_11_apply,
    Cert.ReferenceIdeal.Read.val_main_v72_apply, Cert.ReferenceIdeal.Read.val_main_cst_12_apply, e67]
  simp only [hs]
  rfl

/-! ## The windows' blocks as parts of their arrays -/

/-- The zero offsets of a whole-buffer rectangle, as the constant function. -/
theorem hz : (![0, 0] : Fin 2 → Nat) = fun _ => 0 := funext fun a => by fin_cases a <;> rfl

/-- The block index maps, decided once over the eight grid points: windows 0, 1 and 8 move along the rows with the point
    (block index (t, 0)); windows 2 … 7 stay at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- Window 0's block at point t is rows 2048·t … 2048·t + 2047 of its 16384×1024 array (a block's coordinate is
    index × size + the coordinate inside the block). -/
theorem iblk3_0_apply (V : (c : Dev nD) → (b : Ref sig .tc) → Buf (Elt Ideal) ((c : Thread nD τ).loc b)) (c : Dev nD) (t : Fin cfg3.N) (x : S2048x1024.Idx) (i : S16384x1024.Idx)
    (h0 : (i 0).val = 2048 * t.val + (x 0).val) (h1 : (i 1).val = (x 1).val) :
    (iblk3 V c 0 t : Vec Ideal S2048x1024 .f32) x = (V c main_v38 : S16384x1024.Idx → Elt Ideal .f32) i := by
  obtain ⟨e0, e1, -, -, -, -, -, -, -, -, -, -, -, -, -, -, -, -⟩ := idx_facts3 t
  unfold iblk3
  rw [View.read_apply]
  show V c main_v38 _ = V c main_v38 _
  congr 1
  funext a
  apply Fin.ext
  match a with
  | ⟨0, _⟩ => show win3_0.index t 0 * 2048 + 1 * (x 0).val = (i 0).val; rw [e0, h0]; omega
  | ⟨1, _⟩ => show win3_0.index t 1 * 1024 + 1 * (x 1).val = (i 1).val; rw [e1, h1]; omega

/-- Window 1's block at point t is rows 2048·t … 2048·t + 2047 of its 16384×256 array. -/
theorem iblk3_1_apply (V : (c : Dev nD) → (b : Ref sig .tc) → Buf (Elt Ideal) ((c : Thread nD τ).loc b)) (c : Dev nD) (t : Fin cfg3.N) (x : S2048x256.Idx) (i : S16384x256.Idx)
    (h0 : (i 0).val = 2048 * t.val + (x 0).val) (h1 : (i 1).val = (x 1).val) :
    (iblk3 V c 1 t : Vec Ideal S2048x256 .f32) x = (V c main_arg1 : S16384x256.Idx → Elt Ideal .f32) i := by
  obtain ⟨-, -, e0, e1, -, -, -, -, -, -, -, -, -, -, -, -, -, -⟩ := idx_facts3 t
  unfold iblk3
  rw [View.read_apply]
  show V c main_arg1 _ = V c main_arg1 _
  congr 1
  funext a
  apply Fin.ext
  match a with
  | ⟨0, _⟩ => show win3_1.index t 0 * 2048 + 1 * (x 0).val = (i 0).val; rw [e0, h0]; omega
  | ⟨1, _⟩ => show win3_1.index t 1 * 256 + 1 * (x 1).val = (i 1).val; rw [e1, h1]; omega

/-- Window 2 holds its whole 1×1024 array (the column mean) at every point. -/
theorem iblk3_2_apply (V : (c : Dev nD) → (b : Ref sig .tc) → Buf (Elt Ideal) ((c : Thread nD τ).loc b)) (c : Dev nD) (t : Fin cfg3.N) (x : S1x1024.Idx) :
    (iblk3 V c 2 t : Vec Ideal S1x1024 .f32) x = (V c main_v49 : S1x1024.Idx → Elt Ideal .f32) x := by
  obtain ⟨-, -, -, -, e0, e1, -, -, -, -, -, -, -, -, -, -, -, -⟩ := idx_facts3 t
  unfold iblk3
  rw [View.read_apply]
  show V c main_v49 _ = V c main_v49 _
  congr 1
  funext a
  apply Fin.ext
  match a with
  | ⟨0, _⟩ => show win3_2.index t 0 * 1 + 1 * (x 0).val = (x 0).val; rw [e0]; omega
  | ⟨1, _⟩ => show win3_2.index t 1 * 1024 + 1 * (x 1).val = (x 1).val; rw [e1]; omega

/-- Window 3 holds its whole 1×1024 array (the column variance) at every point. -/
theorem iblk3_3_apply (V : (c : Dev nD) → (b : Ref sig .tc) → Buf (Elt Ideal) ((c : Thread nD τ).loc b)) (c : Dev nD) (t : Fin cfg3.N) (x : S1x1024.Idx) :
    (iblk3 V c 3 t : Vec Ideal S1x1024 .f32) x = (V c main_v50 : S1x1024.Idx → Elt Ideal .f32) x := by
  obtain ⟨-, -, -, -, -, -, e0, e1, -, -, -, -, -, -, -, -, -, -⟩ := idx_facts3 t
  unfold iblk3
  rw [View.read_apply]
  show V c main_v50 _ = V c main_v50 _
  congr 1
  funext a
  apply Fin.ext
  match a with
  | ⟨0, _⟩ => show win3_3.index t 0 * 1 + 1 * (x 0).val = (x 0).val; rw [e0]; omega
  | ⟨1, _⟩ => show win3_3.index t 1 * 1024 + 1 * (x 1).val = (x 1).val; rw [e1]; omega

/-- Window 4 holds its whole 1×1024 array (the scale row) at every point. -/
theorem iblk3_4_apply (V : (c : Dev nD) → (b : Ref sig .tc) → Buf (Elt Ideal) ((c : Thread nD τ).loc b)) (c : Dev nD) (t : Fin cfg3.N) (x : S1x1024.Idx) :
    (iblk3 V c 4 t : Vec Ideal S1x1024 .f32) x = (V c main_v51 : S1x1024.Idx → Elt Ideal .f32) x := by
  obtain ⟨-, -, -, -, -, -, -, -, e0, e1, -, -, -, -, -, -, -, -⟩ := idx_facts3 t
  unfold iblk3
  rw [View.read_apply]
  show V c main_v51 _ = V c main_v51 _
  congr 1
  funext a
  apply Fin.ext
  match a with
  | ⟨0, _⟩ => show win3_4.index t 0 * 1 + 1 * (x 0).val = (x 0).val; rw [e0]; omega
  | ⟨1, _⟩ => show win3_4.index t 1 * 1024 + 1 * (x 1).val = (x 1).val; rw [e1]; omega

/-- Window 5 holds its whole 1×1024 array (the shift row) at every point. -/
theorem iblk3_5_apply (V : (c : Dev nD) → (b : Ref sig .tc) → Buf (Elt Ideal) ((c : Thread nD τ).loc b)) (c : Dev nD) (t : Fin cfg3.N) (x : S1x1024.Idx) :
    (iblk3 V c 5 t : Vec Ideal S1x1024 .f32) x = (V c main_v52 : S1x1024.Idx → Elt Ideal .f32) x := by
  obtain ⟨-, -, -, -, -, -, -, -, -, -, e0, e1, -, -, -, -, -, -⟩ := idx_facts3 t
  unfold iblk3
  rw [View.read_apply]
  show V c main_v52 _ = V c main_v52 _
  congr 1
  funext a
  apply Fin.ext
  match a with
  | ⟨0, _⟩ => show win3_5.index t 0 * 1 + 1 * (x 0).val = (x 0).val; rw [e0]; omega
  | ⟨1, _⟩ => show win3_5.index t 1 * 1024 + 1 * (x 1).val = (x 1).val; rw [e1]; omega

/-- Window 6 holds its whole 256×1024 array (the weight) at every point. -/
theorem iblk3_6_apply (V : (c : Dev nD) → (b : Ref sig .tc) → Buf (Elt Ideal) ((c : Thread nD τ).loc b)) (c : Dev nD) (t : Fin cfg3.N) (x : S256x1024.Idx) :
    (iblk3 V c 6 t : Vec Ideal S256x1024 .f32) x = (V c main_arg11 : S256x1024.Idx → Elt Ideal .f32) x := by
  obtain ⟨-, -, -, -, -, -, -, -, -, -, -, -, e0, e1, -, -, -, -⟩ := idx_facts3 t
  unfold iblk3
  rw [View.read_apply]
  show V c main_arg11 _ = V c main_arg11 _
  congr 1
  funext a
  apply Fin.ext
  match a with
  | ⟨0, _⟩ => show win3_6.index t 0 * 256 + 1 * (x 0).val = (x 0).val; rw [e0]; omega
  | ⟨1, _⟩ => show win3_6.index t 1 * 1024 + 1 * (x 1).val = (x 1).val; rw [e1]; omega

/-- Window 7 holds its whole 1×256 array (the bias row) at every point. -/
theorem iblk3_7_apply (V : (c : Dev nD) → (b : Ref sig .tc) → Buf (Elt Ideal) ((c : Thread nD τ).loc b)) (c : Dev nD) (t : Fin cfg3.N) (x : S1x256.Idx) :
    (iblk3 V c 7 t : Vec Ideal S1x256 .f32) x = (V c main_v53 : S1x256.Idx → Elt Ideal .f32) x := by
  obtain ⟨-, -, -, -, -, -, -, -, -, -, -, -, -, -, e0, e1, -, -⟩ := idx_facts3 t
  unfold iblk3
  rw [View.read_apply]
  show V c main_v53 _ = V c main_v53 _
  congr 1
  funext a
  apply Fin.ext
  match a with
  | ⟨0, _⟩ => show win3_7.index t 0 * 1 + 1 * (x 0).val = (x 0).val; rw [e0]; omega
  | ⟨1, _⟩ => show win3_7.index t 1 * 256 + 1 * (x 1).val = (x 1).val; rw [e1]; omega

/-! ## What a point writes back, and the array after the region -/

/-- Two elements of the closed form are equal when their residual summands, their rows, statistics, scales, shifts, weight
    rows and biases are. -/
theorem lin_congr {a a' : Ideal .f32} {f1 f2 f3 f4 f5 f6 g1 g2 g3 g4 g5 g6 : Fin 1024 → Ideal .f32} {b b' : Ideal .f32}
    (ha : a = a') (h1 : ∀ k, f1 k = g1 k) (h2 : ∀ k, f2 k = g2 k) (h3 : ∀ k, f3 k = g3 k) (h4 : ∀ k, f4 k = g4 k)
    (h5 : ∀ k, f5 k = g5 k) (h6 : ∀ k, f6 k = g6 k) (hb : b = b') :
    a + leaky (lin2 f1 f2 f3 f4 f5 f6 b) = a' + leaky (lin2 g1 g2 g3 g4 g5 g6 b') := by
  rw [ha, hb, funext h1, funext h2, funext h3, funext h4, funext h5, funext h6]

/-- WHAT POINT t WRITES BACK to the output array is block t of the reference's last stage %75 of the thirteen arguments,
    given that the region's input arrays hold the reference's stages: at (p, q) of the block, array row 2048·t + p, the
    kernel's element (`pay_apply`) and the reference's (`ref_apply`) are the same closed form of equal data, each
    input block read where the output's row says. -/
theorem flushed3_8_eq (V : (c : Dev nD) → (b : Ref sig .tc) → Buf (Elt Ideal) ((c : Thread nD τ).loc b)) (c : Dev nD) (x0 x1 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal)) (x5 x6 : (⟨S512, .f32⟩ : BufTy).Contents (Elt Ideal)) (x7 : (⟨S1024x512, .f32⟩ : BufTy).Contents (Elt Ideal)) (x8 x9 x10 : (⟨S1024, .f32⟩ : BufTy).Contents (Elt Ideal)) (x11 : (⟨S256x1024, .f32⟩ : BufTy).Contents (Elt Ideal)) (x12 : (⟨S256, .f32⟩ : BufTy).Contents (Elt Ideal))
    (h38 : V c main_v38 = Cert.ReferenceIdeal.Read.val_main_v40 (F := Ideal) x0 x1 x2 x3 x4 x5 x6 x7 x8)
    (hN : V c main_arg1 = x1)
    (h49 : ∀ k : Fin 1024, (V c main_v49 : S1x1024.Idx → Elt Ideal .f32) (ix2 0 k) = Cert.ReferenceIdeal.Read.val_main_v44 (F := Ideal) x0 x1 x2 x3 x4 x5 x6 x7 x8 (ix2 0 k))
    (h50 : ∀ k : Fin 1024, (V c main_v50 : S1x1024.Idx → Elt Ideal .f32) (ix2 0 k) = Cert.ReferenceIdeal.Read.val_main_v51 (F := Ideal) x0 x1 x2 x3 x4 x5 x6 x7 x8 (ix2 0 k))
    (h51 : ∀ k : Fin 1024, (V c main_v51 : S1x1024.Idx → Elt Ideal .f32) (ix2 0 k) = x9 (ix1 k))
    (h52 : ∀ k : Fin 1024, (V c main_v52 : S1x1024.Idx → Elt Ideal .f32) (ix2 0 k) = x10 (ix1 k))
    (hW2 : V c main_arg11 = x11)
    (h53 : ∀ q : Fin 256, (V c main_v53 : S1x256.Idx → Elt Ideal .f32) (ix2 0 q) = x12 (ix1 q)) (t : Fin cfg3.N) :
    (dat3 (F := Ideal) V c).flushed 8 t
      = ((cfg3.win 8).blk t).view.read (Elt Ideal) (Cert.ReferenceIdeal.Read.val_main_v75 (F := Ideal) x0 x1 x2 x3 x4 x5 x6 x7 x8 x9 x10 x11 x12) := by
  show (cfg3.win 8).cut (grid3.coords t) ((dat3 V c).after 8 t) = _
  rw [after3_8]
  unfold out3_8
  rw [View.canon_unit_zero hz]
  simp only [View.ld_unit_zero (S := S2048x1024) hz, View.ld_unit_zero (S := S1x1024) hz, View.ld_unit_zero (S := S256x1024) hz,
    View.ld_unit_zero (S := S1x256) hz, View.ld_unit_zero (S := S2048x256) hz]
  funext j
  obtain ⟨p, q, rfl⟩ : ∃ (p : Fin 2048) (q : Fin 256), j = ix2 p q := ⟨j 0, j 1, eq_ix2 j⟩
  obtain ⟨-, -, -, -, -, -, -, -, -, -, -, -, -, -, -, -, e0, e1⟩ := idx_facts3 t
  have ht : t.val < 8 := Nat.lt_of_lt_of_eq t.isLt N_3
  have hp : p.val < 2048 := p.isLt
  have he : ((cfg3.win 8).blk t).view.emb (ix2 p q) = ix2 (⟨2048 * t.val + p.val, by omega⟩ : Fin 16384) q := by
    funext a
    apply Fin.ext
    match a with
    | ⟨0, _⟩ => show win3_8.index t 0 * 2048 + 1 * p.val = 2048 * t.val + p.val; rw [e0]; omega
    | ⟨1, _⟩ => show win3_8.index t 1 * 256 + 1 * q.val = q.val; rw [e1]; omega
  show k3_pay1 (F := Ideal) (iblk3 V c 0 t) (iblk3 V c 2 t) (iblk3 V c 3 t) (iblk3 V c 4 t) (iblk3 V c 5 t) (iblk3 V c 6 t) (iblk3 V c 7 t) (iblk3 V c 1 t) (ix2 p q)
    = Cert.ReferenceIdeal.Read.val_main_v75 (F := Ideal) x0 x1 x2 x3 x4 x5 x6 x7 x8 x9 x10 x11 x12 (((cfg3.win 8).blk t).view.emb (ix2 p q))
  rw [he]
  refine (pay_apply _ _ _ _ _ _ _ _ p q).trans (Eq.trans ?_ (ref_apply x0 x1 x2 x3 x4 x5 x6 x7 x8 x9 x10 x11 x12 _ q).symm)
  exact lin_congr
    ((iblk3_1_apply V c t (ix2 p q) (ix2 _ q) rfl rfl).trans (congrFun hN _))
    (fun k => (iblk3_0_apply V c t (ix2 p k) (ix2 _ k) rfl rfl).trans (congrFun h38 _))
    (fun k => (iblk3_2_apply V c t (ix2 0 k)).trans (h49 k))
    (fun k => (iblk3_3_apply V c t (ix2 0 k)).trans (h50 k))
    (fun k => (iblk3_4_apply V c t (ix2 0 k)).trans (h51 k))
    (fun k => (iblk3_5_apply V c t (ix2 0 k)).trans (h52 k))
    (fun k => (iblk3_6_apply V c t (ix2 q k)).trans (congrFun hW2 _))
    ((iblk3_7_apply V c t (ix2 0 q)).trans (h53 q))

/-- An index of the output array is in point t's block iff each coordinate is in the block's range on its axis. -/
theorem mem_blk3_8 (t : Fin cfg3.N) (i : S16384x256.Idx) :
    i ∈ ((cfg3.win 8).blk t).view.set ↔ ∀ a : Fin 2, win3_8.index t a * S2048x256.size a ≤ (i a).val ∧ (i a).val < win3_8.index t a * S2048x256.size a + S2048x256.size a := by
  show i ∈ ((View.whole main_v54).slice (win3_8.rect t)).set ↔ _
  rw [View.set_slice_whole, Rect.mem_set_unit]
  exact Iff.rfl

/-- The eight row blocks tile the 16384×256 array: row r is in the block of point r / 2048, which writes back. -/
theorem cover3_8_arr (i : S16384x256.Idx) :
    ∃ t : Fin cfg3.N, (cfg3.win 8).flush t = true ∧ i ∈ ((cfg3.win 8).blk t).view.set := by
  have hi0 : (i 0).val < 16384 := idx2_lt0 i
  have hi1 : (i 1).val < 256 := idx2_lt1 i
  obtain ⟨t, ht⟩ : ∃ t : Fin cfg3.N, t.val = (i 0).val / 2048 :=
    ⟨⟨(i 0).val / 2048, by rw [show cfg3.N = 8 from N_3]; omega⟩, rfl⟩
  obtain ⟨-, -, -, -, -, -, -, -, -, -, -, -, -, -, -, -, e0, e1⟩ := idx_facts3 t
  refine ⟨t, flush3_8 t, ?_⟩
  rw [mem_blk3_8]
  intro a
  match a with
  | ⟨0, _⟩ => show win3_8.index t (0 : Fin 2) * 2048 ≤ (i 0).val ∧ (i 0).val < win3_8.index t (0 : Fin 2) * 2048 + 2048; rw [e0, ht]; omega
  | ⟨1, _⟩ => show win3_8.index t (1 : Fin 2) * 256 ≤ (i 1).val ∧ (i 1).val < win3_8.index t (1 : Fin 2) * 256 + 256; rw [e1]; omega

/-- REGION 3'S VALUE: when the region's input arrays hold the reference's stages — window 0's the first layer's output
    %40, windows 2 and 3's its column mean %44 and variance %51 as rows, windows 1, 4, 5, 6, 7's the arguments N, g2, be2,
    W2, b2 —, the output array after the region's last point is the reference's result %75 = N + leaky(BN(%40)·W2ᵀ + b2):
    every point writes its block of it and the blocks cover the array. -/
theorem region3_value (V : (c : Dev nD) → (b : Ref sig .tc) → Buf (Elt Ideal) ((c : Thread nD τ).loc b)) (c : Dev nD) (x0 x1 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal)) (x5 x6 : (⟨S512, .f32⟩ : BufTy).Contents (Elt Ideal)) (x7 : (⟨S1024x512, .f32⟩ : BufTy).Contents (Elt Ideal)) (x8 x9 x10 : (⟨S1024, .f32⟩ : BufTy).Contents (Elt Ideal)) (x11 : (⟨S256x1024, .f32⟩ : BufTy).Contents (Elt Ideal)) (x12 : (⟨S256, .f32⟩ : BufTy).Contents (Elt Ideal))
    (h38 : V c main_v38 = Cert.ReferenceIdeal.Read.val_main_v40 (F := Ideal) x0 x1 x2 x3 x4 x5 x6 x7 x8)
    (hN : V c main_arg1 = x1)
    (h49 : ∀ k : Fin 1024, (V c main_v49 : S1x1024.Idx → Elt Ideal .f32) (ix2 0 k) = Cert.ReferenceIdeal.Read.val_main_v44 (F := Ideal) x0 x1 x2 x3 x4 x5 x6 x7 x8 (ix2 0 k))
    (h50 : ∀ k : Fin 1024, (V c main_v50 : S1x1024.Idx → Elt Ideal .f32) (ix2 0 k) = Cert.ReferenceIdeal.Read.val_main_v51 (F := Ideal) x0 x1 x2 x3 x4 x5 x6 x7 x8 (ix2 0 k))
    (h51 : ∀ k : Fin 1024, (V c main_v51 : S1x1024.Idx → Elt Ideal .f32) (ix2 0 k) = x9 (ix1 k))
    (h52 : ∀ k : Fin 1024, (V c main_v52 : S1x1024.Idx → Elt Ideal .f32) (ix2 0 k) = x10 (ix1 k))
    (hW2 : V c main_arg11 = x11)
    (h53 : ∀ q : Fin 256, (V c main_v53 : S1x256.Idx → Elt Ideal .f32) (ix2 0 q) = x12 (ix1 q)) :
    (dat3 (F := Ideal) V c).arrAt 8 cfg3.N = Cert.ReferenceIdeal.Read.val_main_v75 (F := Ideal) x0 x1 x2 x3 x4 x5 x6 x7 x8 x9 x10 x11 x12 :=
  (dat3 (F := Ideal) V c).arrAt_eq_of_cover 8 (Cert.ReferenceIdeal.Read.val_main_v75 (F := Ideal) x0 x1 x2 x3 x4 x5 x6 x7 x8 x9 x10 x11 x12)
    (fun t _ => flushed3_8_eq V c x0 x1 x2 x3 x4 x5 x6 x7 x8 x9 x10 x11 x12 h38 hN h49 h50 h51 h52 hW2 h53 t) cover3_8_arr

end Cert.KernelIdeal.Val.V3
end
-- ==== Proof.KI.VH2.lean ====
/-
  The host stretch between the second and the third kernel region, at the ideal values, against the reference's stages.

  From `N` (argument 1) and `M2N` (the second region's result) the stretch computes the column mean and the biased
  variance of each — the sum over the 16384 rows taken from the zero word and divided by the word of 16384 —, cuts `g1`,
  `be1` (vectors of 512) and `W1` ([1024×512]) in halves of 256 columns, and lays every vector out as a row. The
  reference takes the same statistics of the concatenation %6 = `N` beside `M2N`, [16384×512]: its stage %10 is the row
  of column means and %17 the row of column variances. A column of %6 below 256 is a column of `N` and one from 256 on
  is a column of `M2N`, so the stretch's four statistics rows are %10 and %17 at the matching columns. Both sides are
  read as the mean (`meanOf`) and the variance (`varOf`) of ONE column, a function of the row; no sum is ever evaluated
  and no law of the extended reals beyond congruence is used.
-/
import proofs.«150604_j36773509988939_1_alg».proof.Proof.KI.Launch
import proofs.«150604_j36773509988939_1_alg».proof.Proof.Ref.Read
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.StableHlo
open Idealize.ShloMosaic.ValueIdx
open scoped BigOperators
open Cert.KernelIdeal Cert.KernelIdeal.Gen

namespace H2

/-! ## Column statistics

The mean and the (biased) variance of a column of 16384 entries, as both programs compute them: the sum taken from
the zero word, divided by the word of 16384. -/

/-- The mean of a column: its sum from the zero word over the word of 16384. -/
def meanOf (col : Fin 16384 → EReal) : EReal :=
  Ideal.div (Ideal.ofBits .f32 0x00000000#32 + ∑ k : Fin 16384, col k) (Ideal.ofBits .f32 0x46800000#32)

/-- The biased variance of a column: the mean of the squared deviations from its mean. -/
def varOf (col : Fin 16384 → EReal) : EReal :=
  meanOf fun k => (col k - meanOf col) * (col k - meanOf col)

section Stats
variable {C : Nat}

/-- The host's sum over the rows, from a constant, at column `q`. -/
theorem hostSum_apply (x : FVec Ideal ⟨2, ![16384, C]⟩ .f32) (b : BitVec 32)
    (h' : (⟨2, ![16384, C]⟩ : Shape).ReducesTo [0] ⟨1, ![C]⟩) (h : (⟨2, ![16384, C]⟩ : Shape).Reduces [0] ⟨1, ![C]⟩)
    (hu : 0 < (⟨0, ![]⟩ : Shape).numel) (q : Fin C) :
    Host.reduceAdd x (constant (F := Ideal) ⟨0, ![]⟩ .f32 b) h' hu (ix1 q)
      = Ideal.ofBits .f32 b + ∑ k : Fin 16384, x (ix2 k q) := by
  simp only [Host.reduceAdd, Ideal.hostReduceAdd_def]
  rw [Ideal.hostReduceAdd_single h' h]
  refine congrArg (_ + ·) (Finset.sum_congr rfl fun k _ => ?_)
  exact congrArg x (funext fun a => Fin.ext (by match a with | ⟨0, _⟩ => rfl | ⟨1, _⟩ => rfl))

end Stats

section Stats2
variable {C : Nat}

/-- The host's float quotient of two arrays at an index. -/
theorem hostDivf_apply {s : Shape} {φ : FTy} (a b : FVec Ideal s φ) (i : s.Idx) : Host.divf a b i = Ideal.div (a i) (b i) := rfl

/-- The host's column mean of an array of 16384 rows: the sum over the rows from the zero word, over the word of
    16384 broadcast along the columns. -/
def hostMean (x : FVec Ideal ⟨2, ![16384, C]⟩ .f32)
    (h' : (⟨2, ![16384, C]⟩ : Shape).ReducesTo [0] ⟨1, ![C]⟩) (hu : 0 < (⟨0, ![]⟩ : Shape).numel)
    (bc : (⟨0, ![]⟩ : Shape).BroadcastsInDim ⟨1, ![C]⟩ (![] : Fin 0 → Fin 1)) : FVec Ideal ⟨1, ![C]⟩ .f32 :=
  Host.divf (Host.reduceAdd x (constant (F := Ideal) ⟨0, ![]⟩ .f32 0x00000000#32) h' hu)
    (broadcastInDim ⟨1, ![C]⟩ ![] bc (constant (F := Ideal) ⟨0, ![]⟩ .f32 0x46800000#32))

/-- The squared deviations of an array from its column means, the means broadcast first to a row and then down the rows. -/
def sqDev (x : FVec Ideal ⟨2, ![16384, C]⟩ .f32)
    (h' : (⟨2, ![16384, C]⟩ : Shape).ReducesTo [0] ⟨1, ![C]⟩) (hu : 0 < (⟨0, ![]⟩ : Shape).numel)
    (bc : (⟨0, ![]⟩ : Shape).BroadcastsInDim ⟨1, ![C]⟩ (![] : Fin 0 → Fin 1))
    (b1 : (⟨1, ![C]⟩ : Shape).BroadcastsInDim ⟨2, ![1, C]⟩ (![1] : Fin 1 → Fin 2))
    (b2 : (⟨2, ![1, C]⟩ : Shape).BroadcastsInDim ⟨2, ![16384, C]⟩ (![0, 1] : Fin 2 → Fin 2)) : FVec Ideal ⟨2, ![16384, C]⟩ .f32 :=
  mulf (subf x (broadcastInDim ⟨2, ![16384, C]⟩ ![0, 1] b2 (broadcastInDim ⟨2, ![1, C]⟩ ![1] b1 (hostMean x h' hu bc))))
       (subf x (broadcastInDim ⟨2, ![16384, C]⟩ ![0, 1] b2 (broadcastInDim ⟨2, ![1, C]⟩ ![1] b1 (hostMean x h' hu bc))))

/-- The host's column variance: the column mean of the squared deviations. -/
def hostVar (x : FVec Ideal ⟨2, ![16384, C]⟩ .f32)
    (h' : (⟨2, ![16384, C]⟩ : Shape).ReducesTo [0] ⟨1, ![C]⟩) (hu : 0 < (⟨0, ![]⟩ : Shape).numel)
    (bc : (⟨0, ![]⟩ : Shape).BroadcastsInDim ⟨1, ![C]⟩ (![] : Fin 0 → Fin 1))
    (b1 : (⟨1, ![C]⟩ : Shape).BroadcastsInDim ⟨2, ![1, C]⟩ (![1] : Fin 1 → Fin 2))
    (b2 : (⟨2, ![1, C]⟩ : Shape).BroadcastsInDim ⟨2, ![16384, C]⟩ (![0, 1] : Fin 2 → Fin 2)) : FVec Ideal ⟨1, ![C]⟩ .f32 :=
  hostMean (sqDev x h' hu bc b1 b2) h' hu bc

/-- A word broadcast along the columns, at any column. -/
theorem bcastConst_apply (b : BitVec 32) (bc : (⟨0, ![]⟩ : Shape).BroadcastsInDim ⟨1, ![C]⟩ (![] : Fin 0 → Fin 1)) (q : Fin C) :
    broadcastInDim ⟨1, ![C]⟩ ![] bc (constant (F := Ideal) ⟨0, ![]⟩ .f32 b) (ix1 q) = Ideal.ofBits .f32 b :=
  broadcastInDim_apply _ bc _ (ix1 q) ix0 (fun a => a.elim0)

/-- The host's column mean at column `q` is the mean of that column. -/
theorem hostMean_apply (x : FVec Ideal ⟨2, ![16384, C]⟩ .f32) (h' hu bc)
    (h : (⟨2, ![16384, C]⟩ : Shape).Reduces [0] ⟨1, ![C]⟩) (q : Fin C) :
    hostMean x h' hu bc (ix1 q) = meanOf fun k => x (ix2 k q) := by
  unfold hostMean meanOf
  rw [hostDivf_apply, hostSum_apply x _ h' h hu q, bcastConst_apply]

/-- A vector of column values broadcast to a row and then down the rows, at row `k`, column `q`. -/
theorem bcastRows_apply (v : FVec Ideal ⟨1, ![C]⟩ .f32)
    (b1 : (⟨1, ![C]⟩ : Shape).BroadcastsInDim ⟨2, ![1, C]⟩ (![1] : Fin 1 → Fin 2))
    (b2 : (⟨2, ![1, C]⟩ : Shape).BroadcastsInDim ⟨2, ![16384, C]⟩ (![0, 1] : Fin 2 → Fin 2)) (hC : C ≠ 1) (k : Fin 16384) (q : Fin C) :
    broadcastInDim ⟨2, ![16384, C]⟩ ![0, 1] b2 (broadcastInDim ⟨2, ![1, C]⟩ ![1] b1 v) (ix2 k q) = v (ix1 q) := by
  rw [broadcastInDim_apply _ b2 _ (ix2 k q) (ix2 0 q) (fun a => by
        match a with
        | ⟨0, _⟩ => show 0 = if (1 : Nat) = 1 then 0 else k.val; rw [if_pos rfl]
        | ⟨1, _⟩ => show q.val = if C = 1 then 0 else q.val; rw [if_neg hC]),
      broadcastInDim_apply _ b1 _ (ix2 0 q) (ix1 q) (fun a => by
        match a with
        | ⟨0, _⟩ => show q.val = if C = 1 then 0 else q.val; rw [if_neg hC])]

/-- The squared deviation at row `k`, column `q`. -/
theorem sqDev_apply (x : FVec Ideal ⟨2, ![16384, C]⟩ .f32) (h' hu bc b1 b2)
    (h : (⟨2, ![16384, C]⟩ : Shape).Reduces [0] ⟨1, ![C]⟩) (hC : C ≠ 1) (k : Fin 16384) (q : Fin C) :
    sqDev x h' hu bc b1 b2 (ix2 k q)
      = (x (ix2 k q) - meanOf fun k => x (ix2 k q)) * (x (ix2 k q) - meanOf fun k => x (ix2 k q)) := by
  unfold sqDev
  rw [mulf_apply, subf_apply, bcastRows_apply _ b1 b2 hC k q, hostMean_apply x h' hu bc h q]

/-- The host's column variance at column `q` is the variance of that column. -/
theorem hostVar_apply (x : FVec Ideal ⟨2, ![16384, C]⟩ .f32) (h' hu bc b1 b2)
    (h : (⟨2, ![16384, C]⟩ : Shape).Reduces [0] ⟨1, ![C]⟩) (hC : C ≠ 1) (q : Fin C) :
    hostVar x h' hu bc b1 b2 (ix1 q) = varOf fun k => x (ix2 k q) := by
  unfold hostVar varOf
  rw [hostMean_apply _ h' hu bc h q]
  exact congrArg meanOf (funext fun k => sqDev_apply x h' hu bc b1 b2 h hC k q)

end Stats2

/-! ## The reference's statistics of the concatenation

Stage %6 is `N` beside `M2N`, [16384×512]; %10 and %17 are the column mean and variance of %6 as rows. -/

section Ref1
variable (x0 x1 : (⟨S16384x256, .f32⟩ : BufTy).Contents (Elt Ideal)) (x2 : (⟨S16384x16384, .f32⟩ : BufTy).Contents (Elt Ideal))
  (x3 : (⟨S256x256, .f32⟩ : BufTy).Contents (Elt Ideal)) (x4 : (⟨S256, .f32⟩ : BufTy).Contents (Elt Ideal))

/-- A column of the concatenation below 256 is `N`'s column. -/
theorem ref_cat_left (k : Fin 16384) (q : Fin 256) :
    Cert.ReferenceIdeal.Read.val_main_v6 (F := Ideal) x0 x1 x2 x3 x4 (ix2 k ⟨q.val, Nat.lt_of_lt_of_le q.isLt (by decide)⟩) = x1 (ix2 k q) := by
  unfold Cert.ReferenceIdeal.Read.val_main_v6
  exact concatenate_pair_apply_left (t := ⟨2, ![16384, 512]⟩) (s₁ := ⟨2, ![16384, 256]⟩) (s₂ := ⟨2, ![16384, 256]⟩) 1
    x1 (Cert.ReferenceIdeal.Read.val_main_v5 (F := Ideal) x0 x2 x3 x4) _ _ rfl (ix2 k q) (fun b => by
    match b with
    | ⟨0, _⟩ => rfl
    | ⟨1, _⟩ => rfl)

/-- A column of the concatenation from 256 on is `M2N`'s column, 256 less. -/
theorem ref_cat_right (k : Fin 16384) (q : Fin 256) :
    Cert.ReferenceIdeal.Read.val_main_v6 (F := Ideal) x0 x1 x2 x3 x4 (ix2 k ⟨256 + q.val, Nat.add_lt_add_left q.isLt 256⟩)
      = Cert.ReferenceIdeal.Read.val_main_v5 (F := Ideal) x0 x2 x3 x4 (ix2 k q) := by
  unfold Cert.ReferenceIdeal.Read.val_main_v6
  exact concatenate_pair_apply_right (t := ⟨2, ![16384, 512]⟩) (s₁ := ⟨2, ![16384, 256]⟩) (s₂ := ⟨2, ![16384, 256]⟩) 1
    x1 (Cert.ReferenceIdeal.Read.val_main_v5 (F := Ideal) x0 x2 x3 x4) _ _ rfl rfl (ix2 k q)
    (fun b hb => by
      match b with
      | ⟨0, _⟩ => rfl
      | ⟨1, _⟩ => exact absurd rfl hb)
    (by show q.val + 256 = 256 + q.val; omega)

/-- %10 at column `c` is the mean of column `c` of %6. -/
theorem ref_mean512_apply (c : Fin 512) :
    Cert.ReferenceIdeal.Read.val_main_v10 (F := Ideal) x0 x1 x2 x3 x4 (ix2 0 c)
      = meanOf fun k => Cert.ReferenceIdeal.Read.val_main_v6 (F := Ideal) x0 x1 x2 x3 x4 (ix2 k c) := by
  rw [Cert.ReferenceIdeal.Read.val_main_v10_apply, Cert.ReferenceIdeal.Read.val_main_v8_apply,
    Cert.ReferenceIdeal.Read.val_main_v9_apply, Cert.ReferenceIdeal.Read.val_main_v7_apply]
  exact congrArg meanOf (funext fun k => congrArg (Cert.ReferenceIdeal.Read.val_main_v6 (F := Ideal) x0 x1 x2 x3 x4)
    (funext fun a => Fin.ext (by match a with | ⟨0, _⟩ => rfl | ⟨1, _⟩ => rfl)))

/-- %17 at column `c` is the variance of column `c` of %6. -/
theorem ref_var512_apply (c : Fin 512) :
    Cert.ReferenceIdeal.Read.val_main_v17 (F := Ideal) x0 x1 x2 x3 x4 (ix2 0 c)
      = varOf fun k => Cert.ReferenceIdeal.Read.val_main_v6 (F := Ideal) x0 x1 x2 x3 x4 (ix2 k c) := by
  rw [Cert.ReferenceIdeal.Read.val_main_v17_apply, Cert.ReferenceIdeal.Read.val_main_v15_apply,
    Cert.ReferenceIdeal.Read.val_main_v16_apply, Cert.ReferenceIdeal.Read.val_main_v14_apply]
  unfold varOf
  refine congrArg meanOf (funext fun k => ?_)
  have e1 : Cert.ReferenceIdeal.Read.idx_main_v14 (Cert.ReferenceIdeal.Read.idx_main_v15 (ix2 0 c)) k = ix2 k c :=
    funext fun a => Fin.ext (by match a with | ⟨0, _⟩ => rfl | ⟨1, _⟩ => rfl)
  have e2 : Cert.ReferenceIdeal.Read.idx_main_v11 (ix2 k c) = ix2 0 c :=
    funext fun a => Fin.ext (by match a with | ⟨0, _⟩ => rfl | ⟨1, _⟩ => rfl)
  rw [e1, Cert.ReferenceIdeal.Read.val_main_v13_apply, Cert.ReferenceIdeal.Read.val_main_v12_apply,
    Cert.ReferenceIdeal.Read.val_main_v11_apply, e2, ref_mean512_apply]
  rfl

end Ref1

/-! ## Layout operations of the stretch at an index -/

section Layout
variable {α : Type}

/-- A vector reshaped to a row, at column `q`. -/
theorem row_apply {C : Nat} (v : (⟨1, ![C]⟩ : Shape).Idx → α) (h : (⟨1, ![C]⟩ : Shape).ShapeCasts ⟨2, ![1, C]⟩) (q : Fin C) :
    shapeCast ⟨2, ![1, C]⟩ v h (ix2 0 q) = v (ix1 q) :=
  shapeCast_apply v h (ix2 0 q) (ix1 q) (by
    rw [Shape.rowMajor_val_one, Shape.rowMajor_val_two]
    show q.val = 0 * C + q.val
    rw [Nat.zero_mul, Nat.zero_add])

/-- A slice of a vector from offset `off`, at `q`: the vector at `off + q`. -/
theorem slice1_apply {n C : Nat} (off : Nat) (x : (⟨1, ![n]⟩ : Shape).Idx → α)
    (h : (⟨1, ![n]⟩ : Shape).Slices ![off] ⟨1, ![C]⟩) (q : Fin C) (k : Fin n) (hk : k.val = off + q.val) :
    extractStridedSlice ⟨1, ![C]⟩ ![off] x h (ix1 q) = x (ix1 k) :=
  extractStridedSlice_apply _ x h (ix1 q) (ix1 k) (fun a => by
    match a with
    | ⟨0, _⟩ => exact hk)

/-- A slice of the columns of a matrix from column `off`, at row `j`, column `q`: the matrix at `(j, off + q)`. -/
theorem slice2_apply {R n C : Nat} (off : Nat) (x : (⟨2, ![R, n]⟩ : Shape).Idx → α)
    (h : (⟨2, ![R, n]⟩ : Shape).Slices ![0, off] ⟨2, ![R, C]⟩) (j : Fin R) (q : Fin C) (k : Fin n) (hk : k.val = off + q.val) :
    extractStridedSlice ⟨2, ![R, C]⟩ ![0, off] x h (ix2 j q) = x (ix2 j k) :=
  extractStridedSlice_apply _ x h (ix2 j q) (ix2 j k) (fun a => by
    match a with
    | ⟨0, _⟩ => exact (Nat.zero_add _).symm
    | ⟨1, _⟩ => exact hk)

end Layout

/-! ## The host stretch between the second and the third kernel region

From `N` (argument 1) and `M2N` (the second region's result) it computes the column means and variances of each, cuts
`g1`, `be1` and `W1` in halves, and lays the vectors out as rows. Each buffer the third region reads, first as a term
of host operations over the contents `W` at entry, then at an index. -/

section Host2
variable (W : Valuation τ sig (Elt Ideal))

/-- %29: the column mean of `N` as a row. -/
theorem e29 : (StableHlo.after (hostOps2 (F := Ideal)) W (Proc.devRef .tc main_v29) : S1x256.Idx → EReal)
    = shapeCast S1x256 (hostMean (C := 256) (W (Proc.devRef .tc main_arg1)) reducesTo_S16384x256_S256_d0 h_S_ bcast_S_S256)
        shapeCasts_S256_S1x256 := by
  after_results; rfl

/-- %30: the column variance of `N` as a row. -/
theorem e30 : (StableHlo.after (hostOps2 (F := Ideal)) W (Proc.devRef .tc main_v30) : S1x256.Idx → EReal)
    = shapeCast S1x256 (hostVar (C := 256) (W (Proc.devRef .tc main_arg1)) reducesTo_S16384x256_S256_d0 h_S_ bcast_S_S256
        bcast_S256_S1x256_1 bcast_S1x256_S16384x256_0_1) shapeCasts_S256_S1x256 := by
  after_results; rfl

/-- %33: the column mean of `M2N` as a row. -/
theorem e33 : (StableHlo.after (hostOps2 (F := Ideal)) W (Proc.devRef .tc main_v33) : S1x256.Idx → EReal)
    = shapeCast S1x256 (hostMean (C := 256) (W (Proc.devRef .tc main_v2)) reducesTo_S16384x256_S256_d0 h_S_ bcast_S_S256)
        shapeCasts_S256_S1x256 := by
  after_results; rfl

/-- %34: the column variance of `M2N` as a row. -/
theorem e34 : (StableHlo.after (hostOps2 (F := Ideal)) W (Proc.devRef .tc main_v34) : S1x256.Idx → EReal)
    = shapeCast S1x256 (hostVar (C := 256) (W (Proc.devRef .tc main_v2)) reducesTo_S16384x256_S256_d0 h_S_ bcast_S_S256
        bcast_S256_S1x256_1 bcast_S1x256_S16384x256_0_1) shapeCasts_S256_S1x256 := by
  after_results; rfl

/-- %31: the first half of `g1` as a row. -/
theorem e31 : (StableHlo.after (hostOps2 (F := Ideal)) W (Proc.devRef .tc main_v31) : S1x256.Idx → EReal)
    = shapeCast S1x256 (extractStridedSlice S256 ![0] (W (Proc.devRef .tc main_arg5)) slices_S512_S256_0) shapeCasts_S256_S1x256 := by
  after_results; rfl

/-- %32: the first half of `be1` as a row. -/
theorem e32 : (StableHlo.after (hostOps2 (F := Ideal)) W (Proc.devRef .tc main_v32) : S1x256.Idx → EReal)
    = shapeCast S1x256 (extractStridedSlice S256 ![0] (W (Proc.devRef .tc main_arg6)) slices_S512_S256_0) shapeCasts_S256_S1x256 := by
  after_results; rfl

/-- %35: the second half of `g1` as a row. -/
theorem e35 : (StableHlo.after (hostOps2 (F := Ideal)) W (Proc.devRef .tc main_v35) : S1x256.Idx → EReal)
    = shapeCast S1x256 (extractStridedSlice S256 ![256] (W (Proc.devRef .tc main_arg5)) slices_S512_S256_256) shapeCasts_S256_S1x256 := by
  after_results; rfl

/-- %36: the second half of `be1` as a row. -/
theorem e36 : (StableHlo.after (hostOps2 (F := Ideal)) W (Proc.devRef .tc main_v36) : S1x256.Idx → EReal)
    = shapeCast S1x256 (extractStridedSlice S256 ![256] (W (Proc.devRef .tc main_arg6)) slices_S512_S256_256) shapeCasts_S256_S1x256 := by
  after_results; rfl

/-- %27: the first 256 columns of `W1`. -/
theorem e27 : (StableHlo.after (hostOps2 (F := Ideal)) W (Proc.devRef .tc main_v27) : S1024x256.Idx → EReal)
    = extractStridedSlice S1024x256 ![0, 0] (W (Proc.devRef .tc main_arg7)) slices_S1024x512_S1024x256_0_0 := by
  after_results

/-- %28: the last 256 columns of `W1`. -/
theorem e28 : (StableHlo.after (hostOps2 (F := Ideal)) W (Proc.devRef .tc main_v28) : S1024x256.Idx → EReal)
    = extractStridedSlice S1024x256 ![0, 256] (W (Proc.devRef .tc main_arg7)) slices_S1024x512_S1024x256_0_256 := by
  after_results

/-- %37: `b1` as a row. -/
theorem e37 : (StableHlo.after (hostOps2 (F := Ideal)) W (Proc.devRef .tc main_v37) : S1x1024.Idx → EReal)
    = shapeCast S1x1024 (W (Proc.devRef .tc main_arg8)) shapeCasts_S1024_S1x1024 := by
  after_results; rfl

end Host2

/-- Summing the rows of a [16384×256] array leaves its 256 columns. -/
theorem red256 : (⟨2, ![16384, 256]⟩ : Shape).Reduces [0] ⟨1, ![256]⟩ := by decide

end H2

open H2

/-! ## What the stretch leaves as it was -/

section Kept
variable (W : Valuation τ sig (Elt Ideal))

/-- The stretch writes neither `N` … -/
theorem host2_arg1 : StableHlo.after (hostOps2 (F := Ideal)) W (Proc.devRef .tc main_arg1) = W (Proc.devRef .tc main_arg1) := by
  after_results

/-- … nor `M2N`. -/
theorem host2_v2 : StableHlo.after (hostOps2 (F := Ideal)) W (Proc.devRef .tc main_v2) = W (Proc.devRef .tc main_v2) := by
  after_results

end Kept

/-! ## The stretch against the reference's stages

With `N` the reference's argument 1 and `M2N` its stage %5, the concatenation %6 has `N` in its columns below 256
and `M2N` from 256 on; so the four statistics rows are the reference's %10 and %17 at the matching columns. -/

section Value2
variable (W : Valuation τ sig (Elt Ideal))
  (x0 x1 : (⟨S16384x256, .f32⟩ : BufTy).Contents (Elt Ideal)) (x2 : (⟨S16384x16384, .f32⟩ : BufTy).Contents (Elt Ideal))
  (x3 : (⟨S256x256, .f32⟩ : BufTy).Contents (Elt Ideal)) (x4 : (⟨S256, .f32⟩ : BufTy).Contents (Elt Ideal))
  (x5 x6 : (⟨S512, .f32⟩ : BufTy).Contents (Elt Ideal)) (x7 : (⟨S1024x512, .f32⟩ : BufTy).Contents (Elt Ideal))
  (x8 : (⟨S1024, .f32⟩ : BufTy).Contents (Elt Ideal))

/-- The mean of `N` as a row is %10 at the columns below 256. -/
theorem host2_v29 (hN : W (Proc.devRef .tc main_arg1) = x1) (q : Fin 256) :
    (StableHlo.after (hostOps2 (F := Ideal)) W (Proc.devRef .tc main_v29) : S1x256.Idx → EReal) (ix2 0 q)
      = Cert.ReferenceIdeal.Read.val_main_v10 (F := Ideal) x0 x1 x2 x3 x4 (ix2 0 ⟨q.val, Nat.lt_of_lt_of_le q.isLt (by decide)⟩) := by
  rw [e29, row_apply, hostMean_apply _ _ _ _ red256 q, ref_mean512_apply, hN]
  exact congrArg meanOf (funext fun k => (ref_cat_left x0 x1 x2 x3 x4 k q).symm)

/-- The variance of `N` as a row is %17 at the columns below 256. -/
theorem host2_v30 (hN : W (Proc.devRef .tc main_arg1) = x1) (q : Fin 256) :
    (StableHlo.after (hostOps2 (F := Ideal)) W (Proc.devRef .tc main_v30) : S1x256.Idx → EReal) (ix2 0 q)
      = Cert.ReferenceIdeal.Read.val_main_v17 (F := Ideal) x0 x1 x2 x3 x4 (ix2 0 ⟨q.val, Nat.lt_of_lt_of_le q.isLt (by decide)⟩) := by
  rw [e30, row_apply, hostVar_apply _ _ _ _ _ _ red256 (by decide) q, ref_var512_apply, hN]
  exact congrArg varOf (funext fun k => (ref_cat_left x0 x1 x2 x3 x4 k q).symm)

/-- The mean of `M2N` as a row is %10 at the columns from 256 on. -/
theorem host2_v33 (hM2N : W (Proc.devRef .tc main_v2) = Cert.ReferenceIdeal.Read.val_main_v5 (F := Ideal) x0 x2 x3 x4) (q : Fin 256) :
    (StableHlo.after (hostOps2 (F := Ideal)) W (Proc.devRef .tc main_v33) : S1x256.Idx → EReal) (ix2 0 q)
      = Cert.ReferenceIdeal.Read.val_main_v10 (F := Ideal) x0 x1 x2 x3 x4 (ix2 0 ⟨256 + q.val, Nat.add_lt_add_left q.isLt 256⟩) := by
  rw [e33, row_apply, hostMean_apply _ _ _ _ red256 q, ref_mean512_apply, hM2N]
  exact congrArg meanOf (funext fun k => (ref_cat_right x0 x1 x2 x3 x4 k q).symm)

/-- The variance of `M2N` as a row is %17 at the columns from 256 on. -/
theorem host2_v34 (hM2N : W (Proc.devRef .tc main_v2) = Cert.ReferenceIdeal.Read.val_main_v5 (F := Ideal) x0 x2 x3 x4) (q : Fin 256) :
    (StableHlo.after (hostOps2 (F := Ideal)) W (Proc.devRef .tc main_v34) : S1x256.Idx → EReal) (ix2 0 q)
      = Cert.ReferenceIdeal.Read.val_main_v17 (F := Ideal) x0 x1 x2 x3 x4 (ix2 0 ⟨256 + q.val, Nat.add_lt_add_left q.isLt 256⟩) := by
  rw [e34, row_apply, hostVar_apply _ _ _ _ _ _ red256 (by decide) q, ref_var512_apply, hM2N]
  exact congrArg varOf (funext fun k => (ref_cat_right x0 x1 x2 x3 x4 k q).symm)

/-- The first half of `g1` as a row. -/
theorem host2_v31 (hg1 : W (Proc.devRef .tc main_arg5) = x5) (q : Fin 256) :
    (StableHlo.after (hostOps2 (F := Ideal)) W (Proc.devRef .tc main_v31) : S1x256.Idx → EReal) (ix2 0 q)
      = x5 (ix1 ⟨q.val, Nat.lt_of_lt_of_le q.isLt (by decide)⟩) := by
  rw [e31, row_apply, hg1]
  exact slice1_apply 0 x5 _ q _ (Nat.zero_add _).symm

/-- The first half of `be1` as a row. -/
theorem host2_v32 (hbe1 : W (Proc.devRef .tc main_arg6) = x6) (q : Fin 256) :
    (StableHlo.after (hostOps2 (F := Ideal)) W (Proc.devRef .tc main_v32) : S1x256.Idx → EReal) (ix2 0 q)
      = x6 (ix1 ⟨q.val, Nat.lt_of_lt_of_le q.isLt (by decide)⟩) := by
  rw [e32, row_apply, hbe1]
  exact slice1_apply 0 x6 _ q _ (Nat.zero_add _).symm

/-- The second half of `g1` as a row. -/
theorem host2_v35 (hg1 : W (Proc.devRef .tc main_arg5) = x5) (q : Fin 256) :
    (StableHlo.after (hostOps2 (F := Ideal)) W (Proc.devRef .tc main_v35) : S1x256.Idx → EReal) (ix2 0 q)
      = x5 (ix1 ⟨256 + q.val, Nat.add_lt_add_left q.isLt 256⟩) := by
  rw [e35, row_apply, hg1]
  exact slice1_apply 256 x5 _ q _ rfl

/-- The second half of `be1` as a row. -/
theorem host2_v36 (hbe1 : W (Proc.devRef .tc main_arg6) = x6) (q : Fin 256) :
    (StableHlo.after (hostOps2 (F := Ideal)) W (Proc.devRef .tc main_v36) : S1x256.Idx → EReal) (ix2 0 q)
      = x6 (ix1 ⟨256 + q.val, Nat.add_lt_add_left q.isLt 256⟩) := by
  rw [e36, row_apply, hbe1]
  exact slice1_apply 256 x6 _ q _ rfl

/-- The first 256 columns of `W1`. -/
theorem host2_v27 (hW1 : W (Proc.devRef .tc main_arg7) = x7) (j : Fin 1024) (k : Fin 256) :
    (StableHlo.after (hostOps2 (F := Ideal)) W (Proc.devRef .tc main_v27) : S1024x256.Idx → EReal) (ix2 j k)
      = x7 (ix2 j ⟨k.val, Nat.lt_of_lt_of_le k.isLt (by decide)⟩) := by
  rw [e27, hW1]
  exact slice2_apply 0 x7 _ j k _ (Nat.zero_add _).symm

/-- The last 256 columns of `W1`. -/
theorem host2_v28 (hW1 : W (Proc.devRef .tc main_arg7) = x7) (j : Fin 1024) (k : Fin 256) :
    (StableHlo.after (hostOps2 (F := Ideal)) W (Proc.devRef .tc main_v28) : S1024x256.Idx → EReal) (ix2 j k)
      = x7 (ix2 j ⟨256 + k.val, Nat.add_lt_add_left k.isLt 256⟩) := by
  rw [e28, hW1]
  exact slice2_apply 256 x7 _ j k _ rfl

/-- `b1` as a row. -/
theorem host2_v37 (hb1 : W (Proc.devRef .tc main_arg8) = x8) (q : Fin 1024) :
    (StableHlo.after (hostOps2 (F := Ideal)) W (Proc.devRef .tc main_v37) : S1x1024.Idx → EReal) (ix2 0 q) = x8 (ix1 q) := by
  rw [e37, row_apply, hb1]

/-- Everything the third kernel region reads after the stretch, against the reference's stages, and the two arrays
    the stretch leaves as they were. -/
theorem host2_value (hN : W (Proc.devRef .tc main_arg1) = x1)
    (hM2N : W (Proc.devRef .tc main_v2) = Cert.ReferenceIdeal.Read.val_main_v5 (F := Ideal) x0 x2 x3 x4)
    (hg1 : W (Proc.devRef .tc main_arg5) = x5) (hbe1 : W (Proc.devRef .tc main_arg6) = x6)
    (hW1 : W (Proc.devRef .tc main_arg7) = x7) (hb1 : W (Proc.devRef .tc main_arg8) = x8) :
    (∀ q : Fin 256, (StableHlo.after (hostOps2 (F := Ideal)) W (Proc.devRef .tc main_v29) : S1x256.Idx → EReal) (ix2 0 q)
        = Cert.ReferenceIdeal.Read.val_main_v10 (F := Ideal) x0 x1 x2 x3 x4 (ix2 0 ⟨q.val, Nat.lt_of_lt_of_le q.isLt (by decide)⟩))
    ∧ (∀ q : Fin 256, (StableHlo.after (hostOps2 (F := Ideal)) W (Proc.devRef .tc main_v30) : S1x256.Idx → EReal) (ix2 0 q)
        = Cert.ReferenceIdeal.Read.val_main_v17 (F := Ideal) x0 x1 x2 x3 x4 (ix2 0 ⟨q.val, Nat.lt_of_lt_of_le q.isLt (by decide)⟩))
    ∧ (∀ q : Fin 256, (StableHlo.after (hostOps2 (F := Ideal)) W (Proc.devRef .tc main_v31) : S1x256.Idx → EReal) (ix2 0 q)
        = x5 (ix1 ⟨q.val, Nat.lt_of_lt_of_le q.isLt (by decide)⟩))
    ∧ (∀ q : Fin 256, (StableHlo.after (hostOps2 (F := Ideal)) W (Proc.devRef .tc main_v32) : S1x256.Idx → EReal) (ix2 0 q)
        = x6 (ix1 ⟨q.val, Nat.lt_of_lt_of_le q.isLt (by decide)⟩))
    ∧ (∀ q : Fin 256, (StableHlo.after (hostOps2 (F := Ideal)) W (Proc.devRef .tc main_v33) : S1x256.Idx → EReal) (ix2 0 q)
        = Cert.ReferenceIdeal.Read.val_main_v10 (F := Ideal) x0 x1 x2 x3 x4 (ix2 0 ⟨256 + q.val, Nat.add_lt_add_left q.isLt 256⟩))
    ∧ (∀ q : Fin 256, (StableHlo.after (hostOps2 (F := Ideal)) W (Proc.devRef .tc main_v34) : S1x256.Idx → EReal) (ix2 0 q)
        = Cert.ReferenceIdeal.Read.val_main_v17 (F := Ideal) x0 x1 x2 x3 x4 (ix2 0 ⟨256 + q.val, Nat.add_lt_add_left q.isLt 256⟩))
    ∧ (∀ q : Fin 256, (StableHlo.after (hostOps2 (F := Ideal)) W (Proc.devRef .tc main_v35) : S1x256.Idx → EReal) (ix2 0 q)
        = x5 (ix1 ⟨256 + q.val, Nat.add_lt_add_left q.isLt 256⟩))
    ∧ (∀ q : Fin 256, (StableHlo.after (hostOps2 (F := Ideal)) W (Proc.devRef .tc main_v36) : S1x256.Idx → EReal) (ix2 0 q)
        = x6 (ix1 ⟨256 + q.val, Nat.add_lt_add_left q.isLt 256⟩))
    ∧ (∀ (j : Fin 1024) (k : Fin 256), (StableHlo.after (hostOps2 (F := Ideal)) W (Proc.devRef .tc main_v27) : S1024x256.Idx → EReal) (ix2 j k)
        = x7 (ix2 j ⟨k.val, Nat.lt_of_lt_of_le k.isLt (by decide)⟩))
    ∧ (∀ (j : Fin 1024) (k : Fin 256), (StableHlo.after (hostOps2 (F := Ideal)) W (Proc.devRef .tc main_v28) : S1024x256.Idx → EReal) (ix2 j k)
        = x7 (ix2 j ⟨256 + k.val, Nat.add_lt_add_left k.isLt 256⟩))
    ∧ (∀ q : Fin 1024, (StableHlo.after (hostOps2 (F := Ideal)) W (Proc.devRef .tc main_v37) : S1x1024.Idx → EReal) (ix2 0 q) = x8 (ix1 q))
    ∧ StableHlo.after (hostOps2 (F := Ideal)) W (Proc.devRef .tc main_arg1) = x1
    ∧ StableHlo.after (hostOps2 (F := Ideal)) W (Proc.devRef .tc main_v2) = W (Proc.devRef .tc main_v2) :=
  ⟨host2_v29 W x0 x1 x2 x3 x4 hN, host2_v30 W x0 x1 x2 x3 x4 hN, host2_v31 W x5 hg1, host2_v32 W x6 hbe1,
    host2_v33 W x0 x1 x2 x3 x4 hM2N, host2_v34 W x0 x1 x2 x3 x4 hM2N, host2_v35 W x5 hg1, host2_v36 W x6 hbe1,
    host2_v27 W x7 hW1, host2_v28 W x7 hW1, host2_v37 W x8 hb1, (host2_arg1 W).trans hN, host2_v2 W⟩

end Value2

end Cert.KernelIdeal.Val
end
-- ==== Proof.KI.VH3.lean ====
import proofs.«150604_j36773509988939_1_alg».proof.Proof.KI.Launch
import proofs.«150604_j36773509988939_1_alg».proof.Proof.Ref.Read
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

/-! # The third stretch of host operations of @main: its values

Between kernel regions 2 and 3 the host computes, from the 16384×1024 array `y` region 2 wrote, the column mean
`(0 + ∑ rows) / 16384` and the column variance `(0 + ∑ rows of (y − mean)²) / 16384`, each as a vector of 1024, lays both
out as 1×1024 rows, and lays three parameter vectors out as one-row arrays. At the ideal floats, with `y` the reference's
activation stage, the two rows are the reference's batch mean and batch variance: both sides apply the same host
operations to `y`, the host dividing the vector and then adding the unit axis, the reference adding the unit axis and
then dividing. No sum is opened. -/

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

/-! ## The host's two statistics as functions of the array -/

/-- The column mean as the host computes it: the sum over the 16384 rows from zero, divided by the splat of 16384. -/
def h3_mean (y : (⟨S16384x1024, .f32⟩ : BufTy).Contents (Elt Ideal)) : (⟨S1024, .f32⟩ : BufTy).Contents (Elt Ideal) :=
  Host.divf (Host.reduceAdd (F := Ideal) y (constant (F := Ideal) S_ .f32 0x00000000#32) reducesTo_S16384x1024_S1024_d0 h_S_)
    (broadcastInDim S1024 ![] bcast_S_S1024 (constant (F := Ideal) S_ .f32 0x46800000#32))

/-- The array centred by a mean given as a 1×1024 row. -/
def h3_centred (y : (⟨S16384x1024, .f32⟩ : BufTy).Contents (Elt Ideal)) (r : (⟨S1x1024, .f32⟩ : BufTy).Contents (Elt Ideal)) :
    (⟨S16384x1024, .f32⟩ : BufTy).Contents (Elt Ideal) :=
  subf (F := Ideal) (φ := .f32) y (broadcastInDim S16384x1024 ![0, 1] bcast_S1x1024_S16384x1024_0_1 r)

/-- The column variance as the host computes it: the column sum from zero of the squares of the array centred by its
    column mean, divided by the splat of 16384. -/
def h3_var (y : (⟨S16384x1024, .f32⟩ : BufTy).Contents (Elt Ideal)) : (⟨S1024, .f32⟩ : BufTy).Contents (Elt Ideal) :=
  Host.divf (Host.reduceAdd (F := Ideal)
      (mulf (F := Ideal) (φ := .f32) (h3_centred y (broadcastInDim S1x1024 ![1] bcast_S1024_S1x1024_1 (h3_mean y)))
        (h3_centred y (broadcastInDim S1x1024 ![1] bcast_S1024_S1x1024_1 (h3_mean y))))
      (constant (F := Ideal) S_ .f32 0x00000000#32) reducesTo_S16384x1024_S1024_d0 h_S_)
    (broadcastInDim S1024 ![] bcast_S_S1024 (constant (F := Ideal) S_ .f32 0x46800000#32))

/-! ## What the stretch leaves in the five arrays region 3 reads -/

section After
variable (W : Valuation τ sig (Elt Ideal))

/-- The mean's row: the column mean of region 2's array with a unit axis added. -/
theorem h3_after_v49 :
    (StableHlo.after (hostOps3 (F := Ideal)) W (Proc.devRef .tc main_v49) : S1x1024.Idx → EReal)
      = shapeCast S1x1024 (h3_mean (W (Proc.devRef .tc main_v38))) shapeCasts_S1024_S1x1024 := by
  after_results <;> rfl

/-- The variance's row: the column variance of region 2's array with a unit axis added. -/
theorem h3_after_v50 :
    (StableHlo.after (hostOps3 (F := Ideal)) W (Proc.devRef .tc main_v50) : S1x1024.Idx → EReal)
      = shapeCast S1x1024 (h3_var (W (Proc.devRef .tc main_v38))) shapeCasts_S1024_S1x1024 := by
  after_results <;> rfl

/-- The three parameter rows: argument vectors 9, 10 and 12 with a unit axis added. -/
theorem h3_after_v51 :
    (StableHlo.after (hostOps3 (F := Ideal)) W (Proc.devRef .tc main_v51) : S1x1024.Idx → EReal)
      = shapeCast S1x1024 (W (Proc.devRef .tc main_arg9)) shapeCasts_S1024_S1x1024 := by
  after_results <;> rfl
theorem h3_after_v52 :
    (StableHlo.after (hostOps3 (F := Ideal)) W (Proc.devRef .tc main_v52) : S1x1024.Idx → EReal)
      = shapeCast S1x1024 (W (Proc.devRef .tc main_arg10)) shapeCasts_S1024_S1x1024 := by
  after_results <;> rfl
theorem h3_after_v53 :
    (StableHlo.after (hostOps3 (F := Ideal)) W (Proc.devRef .tc main_v53) : S1x256.Idx → EReal)
      = shapeCast S1x256 (W (Proc.devRef .tc main_arg12)) shapeCasts_S256_S1x256 := by
  after_results <;> rfl

end After

/-! ## The statistics at an index, and the reference's -/

/-- A quotient by the splat of 16384, at `q`: the numerator at `q` over the word of 16384. -/
theorem h3_div_splat_apply (n : (⟨S1024, .f32⟩ : BufTy).Contents (Elt Ideal)) (q : Fin 1024) :
    Host.divf n (broadcastInDim S1024 ![] bcast_S_S1024 (constant (F := Ideal) S_ .f32 0x46800000#32)) (ix1 q)
      = FloatOps.hostDivf (n (ix1 q)) (FloatOps.ofBits (F := Ideal) .f32 0x46800000#32) := by
  show FloatOps.hostDivf (n (ix1 q)) (broadcastInDim S1024 ![] bcast_S_S1024 (constant (F := Ideal) S_ .f32 0x46800000#32) (ix1 q)) = _
  rw [broadcastInDim_apply _ bcast_S_S1024 _ (ix1 q) (fun a => a.elim0) (fun a => a.elim0)]
  rfl

/-- The reference's batch mean at `(0, q)`: the column sum of its activation stage from zero, at `q`, over 16384. -/
theorem h3_ref_mean_apply (x0 x1 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal)) (x5 x6 : (⟨S512, .f32⟩ : BufTy).Contents (Elt Ideal)) (x7 : (⟨S1024x512, .f32⟩ : BufTy).Contents (Elt Ideal)) (x8 : (⟨S1024, .f32⟩ : BufTy).Contents (Elt Ideal)) (q : Fin 1024) :
    Cert.ReferenceIdeal.Read.val_main_v44 (F := Ideal) x0 x1 x2 x3 x4 x5 x6 x7 x8 (ix2 0 q)
      = FloatOps.hostDivf (Host.reduceAdd (F := Ideal) (Cert.ReferenceIdeal.Read.val_main_v40 (F := Ideal) x0 x1 x2 x3 x4 x5 x6 x7 x8) (constant (F := Ideal) S_ .f32 0x00000000#32) reducesTo_S16384x1024_S1024_d0 h_S_ (ix1 q))
          (FloatOps.ofBits (F := Ideal) .f32 0x46800000#32) := by
  rw [Cert.ReferenceIdeal.Read.val_main_v44_apply, Cert.ReferenceIdeal.Read.val_main_v42_apply, Cert.ReferenceIdeal.Read.val_main_v43_apply]
  have e : Cert.ReferenceIdeal.Read.idx_main_v42 (ix2 0 q) = ix1 q := funext fun a => by match a with | ⟨0, _⟩ => rfl
  rw [e]
  rfl

/-- The host's mean row IS the reference's batch mean, as 1×1024 arrays. -/
theorem h3_mean_row_eq (x0 x1 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal)) (x5 x6 : (⟨S512, .f32⟩ : BufTy).Contents (Elt Ideal)) (x7 : (⟨S1024x512, .f32⟩ : BufTy).Contents (Elt Ideal)) (x8 : (⟨S1024, .f32⟩ : BufTy).Contents (Elt Ideal)) :
    broadcastInDim S1x1024 ![1] bcast_S1024_S1x1024_1 (h3_mean (Cert.ReferenceIdeal.Read.val_main_v40 (F := Ideal) x0 x1 x2 x3 x4 x5 x6 x7 x8))
      = Cert.ReferenceIdeal.Read.val_main_v44 (F := Ideal) x0 x1 x2 x3 x4 x5 x6 x7 x8 := by
  funext i
  obtain ⟨u, q, rfl⟩ : ∃ (u : Fin 1) (q : Fin 1024), i = ix2 u q := ⟨i 0, i 1, eq_ix2 i⟩
  obtain rfl : u = 0 := Subsingleton.elim _ _
  rw [broadcastInDim_apply _ bcast_S1024_S1x1024_1 _ (ix2 0 q) (ix1 q) (fun a => match a with
    | ⟨0, _⟩ => by show q.val = if (1024 : Nat) = 1 then 0 else q.val; rw [if_neg (by decide)]),
    h3_ref_mean_apply]
  unfold h3_mean
  rw [h3_div_splat_apply]

/-- The reference's batch variance at `(0, q)`: the column sum from zero of the squares of its activation stage centred by
    its batch mean, at `q`, over 16384. -/
theorem h3_ref_var_apply (x0 x1 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal)) (x5 x6 : (⟨S512, .f32⟩ : BufTy).Contents (Elt Ideal)) (x7 : (⟨S1024x512, .f32⟩ : BufTy).Contents (Elt Ideal)) (x8 : (⟨S1024, .f32⟩ : BufTy).Contents (Elt Ideal)) (q : Fin 1024) :
    Cert.ReferenceIdeal.Read.val_main_v51 (F := Ideal) x0 x1 x2 x3 x4 x5 x6 x7 x8 (ix2 0 q)
      = FloatOps.hostDivf (Host.reduceAdd (F := Ideal)
            (mulf (F := Ideal) (φ := .f32) (h3_centred (Cert.ReferenceIdeal.Read.val_main_v40 (F := Ideal) x0 x1 x2 x3 x4 x5 x6 x7 x8) (Cert.ReferenceIdeal.Read.val_main_v44 (F := Ideal) x0 x1 x2 x3 x4 x5 x6 x7 x8))
              (h3_centred (Cert.ReferenceIdeal.Read.val_main_v40 (F := Ideal) x0 x1 x2 x3 x4 x5 x6 x7 x8) (Cert.ReferenceIdeal.Read.val_main_v44 (F := Ideal) x0 x1 x2 x3 x4 x5 x6 x7 x8)))
            (constant (F := Ideal) S_ .f32 0x00000000#32) reducesTo_S16384x1024_S1024_d0 h_S_ (ix1 q))
          (FloatOps.ofBits (F := Ideal) .f32 0x46800000#32) := by
  rw [Cert.ReferenceIdeal.Read.val_main_v51_apply, Cert.ReferenceIdeal.Read.val_main_v49_apply, Cert.ReferenceIdeal.Read.val_main_v50_apply]
  have e : Cert.ReferenceIdeal.Read.idx_main_v49 (ix2 0 q) = ix1 q := funext fun a => by match a with | ⟨0, _⟩ => rfl
  rw [e]
  rfl

/-! ## The stretch's values -/

section Values
variable (W : Valuation τ sig (Elt Ideal))

/-- The mean's row is the reference's batch mean, when region 2's array is the reference's activation stage. -/
theorem host3_mean (x0 x1 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal)) (x5 x6 : (⟨S512, .f32⟩ : BufTy).Contents (Elt Ideal)) (x7 : (⟨S1024x512, .f32⟩ : BufTy).Contents (Elt Ideal)) (x8 : (⟨S1024, .f32⟩ : BufTy).Contents (Elt Ideal))
    (hx1 : (W (Proc.devRef .tc main_v38) : S16384x1024.Idx → EReal) = Cert.ReferenceIdeal.Read.val_main_v40 (F := Ideal) x0 x1 x2 x3 x4 x5 x6 x7 x8) (q : Fin 1024) :
    (StableHlo.after (hostOps3 (F := Ideal)) W (Proc.devRef .tc main_v49) : S1x1024.Idx → EReal) (ix2 0 q)
      = Cert.ReferenceIdeal.Read.val_main_v44 (F := Ideal) x0 x1 x2 x3 x4 x5 x6 x7 x8 (ix2 0 q) := by
  rw [h3_after_v49, shapeCast_a_1a_apply, hx1, h3_ref_mean_apply]
  unfold h3_mean
  rw [h3_div_splat_apply]

/-- The variance's row is the reference's batch variance, under the same hypothesis. -/
theorem host3_var (x0 x1 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal)) (x5 x6 : (⟨S512, .f32⟩ : BufTy).Contents (Elt Ideal)) (x7 : (⟨S1024x512, .f32⟩ : BufTy).Contents (Elt Ideal)) (x8 : (⟨S1024, .f32⟩ : BufTy).Contents (Elt Ideal))
    (hx1 : (W (Proc.devRef .tc main_v38) : S16384x1024.Idx → EReal) = Cert.ReferenceIdeal.Read.val_main_v40 (F := Ideal) x0 x1 x2 x3 x4 x5 x6 x7 x8) (q : Fin 1024) :
    (StableHlo.after (hostOps3 (F := Ideal)) W (Proc.devRef .tc main_v50) : S1x1024.Idx → EReal) (ix2 0 q)
      = Cert.ReferenceIdeal.Read.val_main_v51 (F := Ideal) x0 x1 x2 x3 x4 x5 x6 x7 x8 (ix2 0 q) := by
  rw [h3_after_v50, shapeCast_a_1a_apply, hx1, h3_ref_var_apply]
  unfold h3_var
  rw [h3_div_splat_apply, h3_mean_row_eq]

/-- The three parameter rows at `(0, q)` are the parameter vectors at `q`. -/
theorem host3_g2 (x9 : (⟨S1024, .f32⟩ : BufTy).Contents (Elt Ideal)) (h : W (Proc.devRef .tc main_arg9) = x9) (q : Fin 1024) :
    (StableHlo.after (hostOps3 (F := Ideal)) W (Proc.devRef .tc main_v51) : S1x1024.Idx → EReal) (ix2 0 q) = x9 (ix1 q) := by
  rw [h3_after_v51, shapeCast_a_1a_apply, h]
theorem host3_be2 (x10 : (⟨S1024, .f32⟩ : BufTy).Contents (Elt Ideal)) (h : W (Proc.devRef .tc main_arg10) = x10) (q : Fin 1024) :
    (StableHlo.after (hostOps3 (F := Ideal)) W (Proc.devRef .tc main_v52) : S1x1024.Idx → EReal) (ix2 0 q) = x10 (ix1 q) := by
  rw [h3_after_v52, shapeCast_a_1a_apply, h]
theorem host3_b2 (x12 : (⟨S256, .f32⟩ : BufTy).Contents (Elt Ideal)) (h : W (Proc.devRef .tc main_arg12) = x12) (q : Fin 256) :
    (StableHlo.after (hostOps3 (F := Ideal)) W (Proc.devRef .tc main_v53) : S1x256.Idx → EReal) (ix2 0 q) = x12 (ix1 q) := by
  rw [h3_after_v53, shapeCast_a_1a_apply, h]

/-- The five together. -/
theorem host3_value (x0 x1 : (⟨S16384x256, .f32⟩ : BufTy).Contents (Elt Ideal)) (x2 : (⟨S16384x16384, .f32⟩ : BufTy).Contents (Elt Ideal)) (x3 : (⟨S256x256, .f32⟩ : BufTy).Contents (Elt Ideal)) (x4 : (⟨S256, .f32⟩ : BufTy).Contents (Elt Ideal)) (x5 x6 : (⟨S512, .f32⟩ : BufTy).Contents (Elt Ideal)) (x7 : (⟨S1024x512, .f32⟩ : BufTy).Contents (Elt Ideal)) (x8 : (⟨S1024, .f32⟩ : BufTy).Contents (Elt Ideal))
    (x9 x10 : (⟨S1024, .f32⟩ : BufTy).Contents (Elt Ideal)) (x12 : (⟨S256, .f32⟩ : BufTy).Contents (Elt Ideal))
    (hx1 : (W (Proc.devRef .tc main_v38) : S16384x1024.Idx → EReal) = Cert.ReferenceIdeal.Read.val_main_v40 (F := Ideal) x0 x1 x2 x3 x4 x5 x6 x7 x8)
    (hg2 : W (Proc.devRef .tc main_arg9) = x9) (hbe2 : W (Proc.devRef .tc main_arg10) = x10) (hb2 : W (Proc.devRef .tc main_arg12) = x12) :
    (∀ q : Fin 1024, (StableHlo.after (hostOps3 (F := Ideal)) W (Proc.devRef .tc main_v49) : S1x1024.Idx → EReal) (ix2 0 q)
        = Cert.ReferenceIdeal.Read.val_main_v44 (F := Ideal) x0 x1 x2 x3 x4 x5 x6 x7 x8 (ix2 0 q))
    ∧ (∀ q : Fin 1024, (StableHlo.after (hostOps3 (F := Ideal)) W (Proc.devRef .tc main_v50) : S1x1024.Idx → EReal) (ix2 0 q)
        = Cert.ReferenceIdeal.Read.val_main_v51 (F := Ideal) x0 x1 x2 x3 x4 x5 x6 x7 x8 (ix2 0 q))
    ∧ (∀ q : Fin 1024, (StableHlo.after (hostOps3 (F := Ideal)) W (Proc.devRef .tc main_v51) : S1x1024.Idx → EReal) (ix2 0 q) = x9 (ix1 q))
    ∧ (∀ q : Fin 1024, (StableHlo.after (hostOps3 (F := Ideal)) W (Proc.devRef .tc main_v52) : S1x1024.Idx → EReal) (ix2 0 q) = x10 (ix1 q))
    ∧ (∀ q : Fin 256, (StableHlo.after (hostOps3 (F := Ideal)) W (Proc.devRef .tc main_v53) : S1x256.Idx → EReal) (ix2 0 q) = x12 (ix1 q)) :=
  ⟨host3_mean W x0 x1 x2 x3 x4 x5 x6 x7 x8 hx1, host3_var W x0 x1 x2 x3 x4 x5 x6 x7 x8 hx1, host3_g2 W x9 hg2, host3_be2 W x10 hbe2, host3_b2 W x12 hb2⟩

end Values

end Cert.KernelIdeal.Val

end
-- ==== Proof.KI.KV.lean ====
/-
  What the kernel program leaves in its result buffer, at the ideal instance: the reference's own last stage of the launch
  arguments. The contents at the seven boundaries of @main are walked from the launch: the reshaped bias row; region 0's
  array is the reference's projection stage; region 1's its aggregation stage; the second host stretch's rows are the
  reference's batch statistics of the concatenation read at columns below and from 256 on, and the halves of the affine
  rows and of W1; region 2's array is the reference's first-layer stage; the third host stretch's rows are its second batch
  statistics; region 3's array is the reference's result. An argument array holds its launch contents at every boundary.
-/
import proofs.«150604_j36773509988939_1_alg».proof.Proof.KI.Run
import proofs.«150604_j36773509988939_1_alg».proof.Proof.KI.V0
import proofs.«150604_j36773509988939_1_alg».proof.Proof.KI.V1
import proofs.«150604_j36773509988939_1_alg».proof.Proof.KI.V2
import proofs.«150604_j36773509988939_1_alg».proof.Proof.KI.V3
import proofs.«150604_j36773509988939_1_alg».proof.Proof.KI.VH2
import proofs.«150604_j36773509988939_1_alg».proof.Proof.KI.VH3
import proofs.«150604_j36773509988939_1_alg».proof.Proof.Ref.Read
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-! ## An argument holds its launch contents at every boundary -/

theorem W1_launch (c : Dev nD) (b : Ref sig .tc) (h0 : b ∉ hostOps0_W) :
    W1 m c (Proc.devRef .tc b) = m ((c.tc : Thread nD τ).loc b) :=
  (W1_keep m c b h0).trans <| rfl
theorem W2_launch (c : Dev nD) (b : Ref sig .tc) (h0 : b ∉ hostOps0_W) (h1 : b ≠ main_v1) :
    W2 m c (Proc.devRef .tc b) = m ((c.tc : Thread nD τ).loc b) :=
  (W2_keep m c b h1).trans <| (W1_keep m c b h0).trans <| rfl
theorem W3_launch (c : Dev nD) (b : Ref sig .tc) (h0 : b ∉ hostOps0_W) (h1 : b ≠ main_v1) (h2 : b ≠ main_v2) :
    W3 m c (Proc.devRef .tc b) = m ((c.tc : Thread nD τ).loc b) :=
  (W3_keep m c b h2).trans <| (W2_keep m c b h1).trans <| (W1_keep m c b h0).trans <| rfl
theorem W4_launch (c : Dev nD) (b : Ref sig .tc) (h0 : b ∉ hostOps0_W) (h1 : b ≠ main_v1) (h2 : b ≠ main_v2) (h3 : b ∉ hostOps2_W) :
    W4 m c (Proc.devRef .tc b) = m ((c.tc : Thread nD τ).loc b) :=
  (W4_keep m c b h3).trans <| (W3_keep m c b h2).trans <| (W2_keep m c b h1).trans <| (W1_keep m c b h0).trans <| rfl
theorem W5_launch (c : Dev nD) (b : Ref sig .tc) (h0 : b ∉ hostOps0_W) (h1 : b ≠ main_v1) (h2 : b ≠ main_v2) (h3 : b ∉ hostOps2_W) (h4 : b ≠ main_v38) :
    W5 m c (Proc.devRef .tc b) = m ((c.tc : Thread nD τ).loc b) :=
  (W5_keep m c b h4).trans <| (W4_keep m c b h3).trans <| (W3_keep m c b h2).trans <| (W2_keep m c b h1).trans <| (W1_keep m c b h0).trans <| rfl
theorem W6_launch (c : Dev nD) (b : Ref sig .tc) (h0 : b ∉ hostOps0_W) (h1 : b ≠ main_v1) (h2 : b ≠ main_v2) (h3 : b ∉ hostOps2_W) (h4 : b ≠ main_v38) (h5 : b ∉ hostOps3_W) :
    W6 m c (Proc.devRef .tc b) = m ((c.tc : Thread nD τ).loc b) :=
  (W6_keep m c b h5).trans <| (W5_keep m c b h4).trans <| (W4_keep m c b h3).trans <| (W3_keep m c b h2).trans <| (W2_keep m c b h1).trans <| (W1_keep m c b h0).trans <| rfl

/-! ## The first host stretch: the bias as a row -/

/-- The one host operation before region 0 reshapes the bias [256] to a row [1×256]: entry (0, q) is entry q. -/
theorem host0_value (W : Valuation τ sig (Elt Ideal)) (q : Fin 256) :
    (StableHlo.after (hostOps0 (F := Ideal)) W (Proc.devRef .tc main_v0) : S1x256.Idx → EReal) (ix2 0 q)
      = (W (Proc.devRef .tc main_arg4) : S256.Idx → EReal) (ix1 q) := by
  have e : (StableHlo.after (hostOps0 (F := Ideal)) W (Proc.devRef .tc main_v0) : S1x256.Idx → EReal)
      = shapeCast S1x256 (W (Proc.devRef .tc main_arg4) : S256.Idx → EReal) shapeCasts_S256_S1x256 := by
    after_results; rfl
  rw [e]
  refine shapeCast_apply _ _ _ _ ?_
  show ((⟨1, ![256]⟩ : Shape).rowMajor (ix1 q)).val = ((⟨2, ![1, 256]⟩ : Shape).rowMajor (ix2 0 q)).val
  rw [Shape.rowMajor_val_one, Shape.rowMajor_val_two]
  show q.val = (0 : Fin 1).val * 256 + q.val
  simp

/-! ## Region 0: the projection -/

/-- After region 0 its output array `main_v1` holds the reference's projection stage M·W_inᵀ + b_in of the launch arguments. -/
theorem mh_value (c : Dev nD) :
    W2 m c (Proc.devRef .tc main_v1) = Cert.ReferenceIdeal.Read.val_main_v4 (F := Ideal) (m ((c.tc : Thread nD τ).loc main_arg0)) (m ((c.tc : Thread nD τ).loc main_arg3)) (m ((c.tc : Thread nD τ).loc main_arg4)) := by
  have hb : ∀ q : Fin 256, (V1 m c main_v0 : S1x256.Idx → EReal) (ix2 0 q) = (V1 m c main_arg4 : S256.Idx → EReal) (ix1 q) := fun q =>
    (host0_value (W0 m c) q).trans (congrFun (W1_keep m c main_arg4 (by decide)).symm (ix1 q))
  have h := V0.region0_value (V1 m) c hb
  rw [show V1 m c main_arg0 = (m ((c.tc : Thread nD τ).loc main_arg0)) from W1_launch m c main_arg0 (by decide),
    show V1 m c main_arg3 = (m ((c.tc : Thread nD τ).loc main_arg3)) from W1_launch m c main_arg3 (by decide),
    show V1 m c main_arg4 = (m ((c.tc : Thread nD τ).loc main_arg4)) from W1_launch m c main_arg4 (by decide)] at h
  exact (W2_arr m c 3).trans h

/-! ## Region 1: the aggregation -/

/-- After region 1 its output array `main_v2` holds the reference's aggregation stage adj·(M·W_inᵀ + b_in). -/
theorem m2n_value (c : Dev nD) :
    W3 m c (Proc.devRef .tc main_v2) = Cert.ReferenceIdeal.Read.val_main_v5 (F := Ideal) (m ((c.tc : Thread nD τ).loc main_arg0)) (m ((c.tc : Thread nD τ).loc main_arg2)) (m ((c.tc : Thread nD τ).loc main_arg3)) (m ((c.tc : Thread nD τ).loc main_arg4)) := by
  have hadj : V2 m c main_arg2 = (m ((c.tc : Thread nD τ).loc main_arg2)) := W2_launch m c main_arg2 (by decide) (by decide)
  have hMh : V2 m c main_v1 = Cert.ReferenceIdeal.Read.val_main_v4 (F := Ideal) (m ((c.tc : Thread nD τ).loc main_arg0)) (m ((c.tc : Thread nD τ).loc main_arg3)) (m ((c.tc : Thread nD τ).loc main_arg4)) := mh_value m c
  exact (W3_arr m c 2).trans (V1.region1_value (V2 m) c _ _ _ _ hadj hMh)

/-! ## Region 2: the first layer, over the second host stretch's rows -/

/-- After region 2 its output array `main_v38` holds the reference's first-layer stage. -/
theorem x1_value (c : Dev nD) :
    W5 m c (Proc.devRef .tc main_v38) = Cert.ReferenceIdeal.Read.val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hN3 : W3 m c (Proc.devRef .tc main_arg1) = (m ((c.tc : Thread nD τ).loc main_arg1)) := W3_launch m c main_arg1 (by decide) (by decide) (by decide)
  have hM3 := m2n_value m c
  have hg1 : W3 m c (Proc.devRef .tc main_arg5) = (m ((c.tc : Thread nD τ).loc main_arg5)) := W3_launch m c main_arg5 (by decide) (by decide) (by decide)
  have hbe1 : W3 m c (Proc.devRef .tc main_arg6) = (m ((c.tc : Thread nD τ).loc main_arg6)) := W3_launch m c main_arg6 (by decide) (by decide) (by decide)
  have hW1 : W3 m c (Proc.devRef .tc main_arg7) = (m ((c.tc : Thread nD τ).loc main_arg7)) := W3_launch m c main_arg7 (by decide) (by decide) (by decide)
  have hb1 : W3 m c (Proc.devRef .tc main_arg8) = (m ((c.tc : Thread nD τ).loc main_arg8)) := W3_launch m c main_arg8 (by decide) (by decide) (by decide)
  have hN4 : V4 m c main_arg1 = (m ((c.tc : Thread nD τ).loc main_arg1)) := W4_launch m c main_arg1 (by decide) (by decide) (by decide) (by decide)
  have hM4 : V4 m c main_v2 = Cert.ReferenceIdeal.Read.val_main_v5 (F := Ideal) (m ((c.tc : Thread nD τ).loc main_arg0)) (m ((c.tc : Thread nD τ).loc main_arg2)) (m ((c.tc : Thread nD τ).loc main_arg3)) (m ((c.tc : Thread nD τ).loc main_arg4)) :=
    (W4_keep m c main_v2 (by decide)).trans hM3
  exact (W5_arr m c 13).trans (V2.region2_value (V4 m) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) c hN4 hM4
    (fun q => host2_v29 (W3 m c) _ _ _ _ _ hN3 q) (fun q => host2_v30 (W3 m c) _ _ _ _ _ hN3 q)
    (fun q => host2_v31 (W3 m c) _ hg1 q) (fun q => host2_v32 (W3 m c) _ hbe1 q)
    (fun q => host2_v33 (W3 m c) _ _ _ _ _ hM3 q) (fun q => host2_v34 (W3 m c) _ _ _ _ _ hM3 q)
    (fun q => host2_v35 (W3 m c) _ hg1 q) (fun q => host2_v36 (W3 m c) _ hbe1 q)
    (fun j k => host2_v27 (W3 m c) _ hW1 j k) (fun j k => host2_v28 (W3 m c) _ hW1 j k)
    (fun q => host2_v37 (W3 m c) _ hb1 q))

/-! ## Region 3: the second layer and the residual, over the third host stretch's rows -/

/-- At the end of @main the result buffer `main_v54` holds the reference's last stage of the launch arguments. -/
theorem result_value (c : Dev nD) :
    W7 m c (Proc.devRef .tc main_v54) = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have hx5 := x1_value m c
  have hg2 : W5 m c (Proc.devRef .tc main_arg9) = (m ((c.tc : Thread nD τ).loc main_arg9)) := W5_launch m c main_arg9 (by decide) (by decide) (by decide) (by decide) (by decide)
  have hbe2 : W5 m c (Proc.devRef .tc main_arg10) = (m ((c.tc : Thread nD τ).loc main_arg10)) := W5_launch m c main_arg10 (by decide) (by decide) (by decide) (by decide) (by decide)
  have hb2 : W5 m c (Proc.devRef .tc main_arg12) = (m ((c.tc : Thread nD τ).loc main_arg12)) := W5_launch m c main_arg12 (by decide) (by decide) (by decide) (by decide) (by decide)
  have h38 : V6 m c main_v38 = Cert.ReferenceIdeal.Read.val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := (W6_keep m c main_v38 (by decide)).trans hx5
  have hN6 : V6 m c main_arg1 = (m ((c.tc : Thread nD τ).loc main_arg1)) := W6_launch m c main_arg1 (by decide) (by decide) (by decide) (by decide) (by decide) (by decide)
  have hW2 : V6 m c main_arg11 = (m ((c.tc : Thread nD τ).loc main_arg11)) := W6_launch m c main_arg11 (by decide) (by decide) (by decide) (by decide) (by decide) (by decide)
  exact (W7_arr m c 8).trans (V3.region3_value (V6 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) h38 hN6
    (fun q => host3_mean (W5 m c) _ _ _ _ _ _ _ _ _ hx5 q) (fun q => host3_var (W5 m c) _ _ _ _ _ _ _ _ _ hx5 q)
    (fun q => host3_g2 (W5 m c) _ hg2 q) (fun q => host3_be2 (W5 m c) _ hbe2 q) hW2
    (fun q => host3_b2 (W5 m c) _ hb2 q))

end Cert.KernelIdeal.Val

end
-- ==== Proof.Ref.Run.lean ====
/- The reference program's run, read stage by stage.

   `ops` (Ref/Ops.lean) lists @main's 90 operations and `StableHlo.run_seq` ends every buffer at the fold
   `after ops` of their results over the launch contents. The composed term of the result %75 in the thirteen
   arguments is large, because a value read twice is written out twice. Read.lean names it instead through the
   stages `val_main_vN`: the value operation %N writes, each stage defined as its operation applied to the
   earlier stages. This module proves that the fold's value at %75 IS the stage `val_main_v75` of the arguments,
   without ever writing the composed term: the list is cut into seven consecutive stretches, and for a stretch
   run from ANY valuation `W` whose live buffers hold their stages, the buffers still read later hold theirs.

   The stretches and the values that cross each cut (the arguments cross every cut unchanged):
     1  %0 – %6      the input linear layer, the aggregation and the concatenate        ⟶ %6
     2  %cst – %17   the first batch norm's column mean %10 and variance %17            ⟶ %6, %10, %17
     3  %18 – %30    its normalisation, scale %arg5 and shift %arg6                     ⟶ %30
     4  %31 – %40    the first hidden linear layer and its leaky rectifier (a select)   ⟶ %40
     5  %cst_6 – %51 the second batch norm's column mean %44 and variance %51           ⟶ %40, %44, %51
     6  %52 – %64    its normalisation, scale %arg9 and shift %arg10                    ⟶ %64
     7  %65 – %75    the output linear layer, its leaky rectifier and the residual sum  ⟶ %75 -/
import proofs.«150604_j36773509988939_1_alg».proof.Proof.Ref.Ops
import proofs.«150604_j36773509988939_1_alg».proof.Proof.Ref.Read

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The stretches -/

/-- %0 – %6: `%1 = %arg0 · %arg3ᵀ`, `%4 = %1 + %arg4`, `%5 = %arg2 · %4`, `%6 = %arg1 ‖ %5`. -/
abbrev stretch1 : List (HloOp τ sig (Elt F)) := ops.take 7
/-- %cst – %17: the column means `%10` of `%6` (over its 16384 rows) and the column means `%17` of the squared
    deviations from them (the biased variance). -/
abbrev stretch2 : List (HloOp τ sig (Elt F)) := (ops.drop 7).take 15
/-- %18 – %30: `%30 = (%6 − %10) · rsqrt (%17 + ε) · %arg5 + %arg6`. -/
abbrev stretch3 : List (HloOp τ sig (Elt F)) := (ops.drop 22).take 14
/-- %31 – %40: `%35 = %30 · %arg7ᵀ + %arg8` and `%40 = select (%35 ≥ 0) %35 (0.01 · %35)`. -/
abbrev stretch4 : List (HloOp τ sig (Elt F)) := (ops.drop 36).take 12
/-- %cst_6 – %51: the column means `%44` of `%40` (over its 16384 rows) and the column means `%51` of the squared
    deviations from them (the biased variance). -/
abbrev stretch5 : List (HloOp τ sig (Elt F)) := (ops.drop 48).take 15
/-- %52 – %64: `%64 = (%40 − %44) · rsqrt (%51 + ε) · %arg9 + %arg10`. -/
abbrev stretch6 : List (HloOp τ sig (Elt F)) := (ops.drop 63).take 14
/-- %65 – %75: `%69 = %64 · %arg11ᵀ + %arg12`, `%74 = select (%69 ≥ 0) %69 (0.01 · %69)`, `%75 = %arg1 + %74`. -/
abbrev stretch7 : List (HloOp τ sig (Elt F)) := (ops.drop 77).take 13

/-- The seven stretches in a row are the whole list. -/
theorem ops_cut : (ops : List (HloOp τ sig (Elt F)))
    = stretch1 ++ (stretch2 ++ (stretch3 ++ (stretch4 ++ (stretch5 ++ (stretch6 ++ stretch7))))) := rfl

/-- @main's thirteen argument buffers. -/
abbrev argRefs : List (Ref sig .tc) :=
  [main_arg0, main_arg1, main_arg2, main_arg3, main_arg4, main_arg5, main_arg6, main_arg7, main_arg8, main_arg9,
   main_arg10, main_arg11, main_arg12]

/-- A stretch's fold at one buffer, computed: the stretch cut out of `ops`, then every operation's result at its own
    result buffer (its function of the operands' contents) and at any other buffer (what was there). What is left reads
    the valuation the stretch starts from, at the buffers the stretch reads and does not write. -/
macro "stretch_results " s:ident : tactic =>
  `(tactic| (simp (disch := decide) only [$s:ident, ops, List.drop_succ_cons, List.drop_zero, List.take_succ_cons, List.take_zero,
      after_cons, after_nil,
      nullary_result', unary_result', binary_result', ternary_result',
      nullary_result_ne', unary_result_ne', binary_result_ne', ternary_result_ne']))

/-- No operation writes an argument: a stretch leaves each argument buffer as it was. The same proof for every stretch. -/
macro "args_kept " s:ident : tactic =>
  `(tactic| (intro r hr
             simp only [argRefs, List.mem_cons, List.not_mem_nil, or_false] at hr
             rcases hr with h | h | h | h | h | h | h | h | h | h | h | h | h <;> subst h <;> stretch_results $s))

variable {x0 x1 : (⟨S16384x256, .f32⟩ : BufTy).Contents (Elt F)} {x2 : (⟨S16384x16384, .f32⟩ : BufTy).Contents (Elt F)}
  {x3 : (⟨S256x256, .f32⟩ : BufTy).Contents (Elt F)} {x4 : (⟨S256, .f32⟩ : BufTy).Contents (Elt F)}
  {x5 x6 : (⟨S512, .f32⟩ : BufTy).Contents (Elt F)} {x7 : (⟨S1024x512, .f32⟩ : BufTy).Contents (Elt F)}
  {x8 x9 x10 : (⟨S1024, .f32⟩ : BufTy).Contents (Elt F)} {x11 : (⟨S256x1024, .f32⟩ : BufTy).Contents (Elt F)}
  {x12 : (⟨S256, .f32⟩ : BufTy).Contents (Elt F)}

/-! ## Stretch 1: %0 – %6 -/

theorem stretch1_args (W : Valuation τ sig (Elt F)) :
    ∀ r ∈ argRefs, after stretch1 W (Proc.devRef .tc r) = W (Proc.devRef .tc r) := by
  args_kept stretch1

/-- From the arguments %arg0 – %arg4 the stretch leaves the stage of %6 at %6. The concatenate's two operands stand
    inside a list of shaped blocks; each operation's result is rewritten in turn, which reaches inside that list. -/
theorem stretch1_v6 (W : Valuation τ sig (Elt F))
    (a0 : W (Proc.devRef .tc main_arg0) = x0) (a1 : W (Proc.devRef .tc main_arg1) = x1) (a2 : W (Proc.devRef .tc main_arg2) = x2)
    (a3 : W (Proc.devRef .tc main_arg3) = x3) (a4 : W (Proc.devRef .tc main_arg4) = x4) :
    after stretch1 W (Proc.devRef .tc main_v6) = val_main_v6 (F := F) x0 x1 x2 x3 x4 := by
  simp only [stretch1, ops, List.take_succ_cons, List.take_zero]
  after_results
  rw [a0, a1, a2, a3, a4]
  rfl

/-! ## Stretch 2: %cst – %17 -/

theorem stretch2_args (W : Valuation τ sig (Elt F)) :
    ∀ r ∈ argRefs, after stretch2 W (Proc.devRef .tc r) = W (Proc.devRef .tc r) := by
  args_kept stretch2

/-- %6 is read, not written. -/
theorem stretch2_v6 (W : Valuation τ sig (Elt F)) :
    after stretch2 W (Proc.devRef .tc main_v6) = W (Proc.devRef .tc main_v6) := by
  stretch_results stretch2

/-- The mean: `%10 = (Σ rows of %6) / 16384`. -/
theorem stretch2_v10 (W : Valuation τ sig (Elt F))
    (h6 : W (Proc.devRef .tc main_v6) = val_main_v6 (F := F) x0 x1 x2 x3 x4) :
    after stretch2 W (Proc.devRef .tc main_v10) = val_main_v10 (F := F) x0 x1 x2 x3 x4 := by
  stretch_results stretch2
  rw [h6]
  rfl

/-- The variance: `%17 = (Σ rows of (%6 − %10)²) / 16384`. -/
theorem stretch2_v17 (W : Valuation τ sig (Elt F))
    (h6 : W (Proc.devRef .tc main_v6) = val_main_v6 (F := F) x0 x1 x2 x3 x4) :
    after stretch2 W (Proc.devRef .tc main_v17) = val_main_v17 (F := F) x0 x1 x2 x3 x4 := by
  stretch_results stretch2
  rw [h6]
  rfl

/-! ## Stretch 3: %18 – %30 -/

theorem stretch3_args (W : Valuation τ sig (Elt F)) :
    ∀ r ∈ argRefs, after stretch3 W (Proc.devRef .tc r) = W (Proc.devRef .tc r) := by
  args_kept stretch3

/-- The normalised, scaled and shifted `%30`, from %6, its mean %10, its variance %17 and the arguments %arg5, %arg6. -/
theorem stretch3_v30 (W : Valuation τ sig (Elt F))
    (h6 : W (Proc.devRef .tc main_v6) = val_main_v6 (F := F) x0 x1 x2 x3 x4)
    (h10 : W (Proc.devRef .tc main_v10) = val_main_v10 (F := F) x0 x1 x2 x3 x4)
    (h17 : W (Proc.devRef .tc main_v17) = val_main_v17 (F := F) x0 x1 x2 x3 x4)
    (a5 : W (Proc.devRef .tc main_arg5) = x5) (a6 : W (Proc.devRef .tc main_arg6) = x6) :
    after stretch3 W (Proc.devRef .tc main_v30) = val_main_v30 (F := F) x0 x1 x2 x3 x4 x5 x6 := by
  stretch_results stretch3
  rw [h6, h10, h17, a5, a6]
  rfl

/-! ## Stretch 4: %31 – %40 -/

theorem stretch4_args (W : Valuation τ sig (Elt F)) :
    ∀ r ∈ argRefs, after stretch4 W (Proc.devRef .tc r) = W (Proc.devRef .tc r) := by
  args_kept stretch4

/-- The hidden layer's output after its leaky rectifier, from %30 and the arguments %arg7, %arg8. The select is an
    operation of an inlined function, over typed references: its transports along `rfl` are the identity. -/
theorem stretch4_v40 (W : Valuation τ sig (Elt F))
    (h30 : W (Proc.devRef .tc main_v30) = val_main_v30 (F := F) x0 x1 x2 x3 x4 x5 x6)
    (a7 : W (Proc.devRef .tc main_arg7) = x7) (a8 : W (Proc.devRef .tc main_arg8) = x8) :
    after stretch4 W (Proc.devRef .tc main_v40) = val_main_v40 (F := F) x0 x1 x2 x3 x4 x5 x6 x7 x8 := by
  stretch_results stretch4
  simp only [TRef.ofBuf, TRef.toBuf, cast_eq]
  rw [h30, a7, a8]
  rfl

/-! ## Stretch 5: %cst_6 – %51 -/

theorem stretch5_args (W : Valuation τ sig (Elt F)) :
    ∀ r ∈ argRefs, after stretch5 W (Proc.devRef .tc r) = W (Proc.devRef .tc r) := by
  args_kept stretch5

/-- %40 is read, not written. -/
theorem stretch5_v40 (W : Valuation τ sig (Elt F)) :
    after stretch5 W (Proc.devRef .tc main_v40) = W (Proc.devRef .tc main_v40) := by
  stretch_results stretch5

/-- The mean: `%44 = (Σ rows of %40) / 16384`. -/
theorem stretch5_v44 (W : Valuation τ sig (Elt F))
    (h40 : W (Proc.devRef .tc main_v40) = val_main_v40 (F := F) x0 x1 x2 x3 x4 x5 x6 x7 x8) :
    after stretch5 W (Proc.devRef .tc main_v44) = val_main_v44 (F := F) x0 x1 x2 x3 x4 x5 x6 x7 x8 := by
  stretch_results stretch5
  rw [h40]
  rfl

/-- The variance: `%51 = (Σ rows of (%40 − %44)²) / 16384`. -/
theorem stretch5_v51 (W : Valuation τ sig (Elt F))
    (h40 : W (Proc.devRef .tc main_v40) = val_main_v40 (F := F) x0 x1 x2 x3 x4 x5 x6 x7 x8) :
    after stretch5 W (Proc.devRef .tc main_v51) = val_main_v51 (F := F) x0 x1 x2 x3 x4 x5 x6 x7 x8 := by
  stretch_results stretch5
  rw [h40]
  rfl

/-! ## Stretch 6: %52 – %64 -/

theorem stretch6_args (W : Valuation τ sig (Elt F)) :
    ∀ r ∈ argRefs, after stretch6 W (Proc.devRef .tc r) = W (Proc.devRef .tc r) := by
  args_kept stretch6

/-- The normalised, scaled and shifted `%64`, from %40, its mean %44, its variance %51 and the arguments %arg9, %arg10. -/
theorem stretch6_v64 (W : Valuation τ sig (Elt F))
    (h40 : W (Proc.devRef .tc main_v40) = val_main_v40 (F := F) x0 x1 x2 x3 x4 x5 x6 x7 x8)
    (h44 : W (Proc.devRef .tc main_v44) = val_main_v44 (F := F) x0 x1 x2 x3 x4 x5 x6 x7 x8)
    (h51 : W (Proc.devRef .tc main_v51) = val_main_v51 (F := F) x0 x1 x2 x3 x4 x5 x6 x7 x8)
    (a9 : W (Proc.devRef .tc main_arg9) = x9) (a10 : W (Proc.devRef .tc main_arg10) = x10) :
    after stretch6 W (Proc.devRef .tc main_v64) = val_main_v64 (F := F) x0 x1 x2 x3 x4 x5 x6 x7 x8 x9 x10 := by
  stretch_results stretch6
  rw [h40, h44, h51, a9, a10]
  rfl

/-! ## Stretch 7: %65 – %75 -/

theorem stretch7_args (W : Valuation τ sig (Elt F)) :
    ∀ r ∈ argRefs, after stretch7 W (Proc.devRef .tc r) = W (Proc.devRef .tc r) := by
  args_kept stretch7

/-- The result: the output layer's value after its leaky rectifier, added to %arg1; from %64 and the arguments
    %arg11, %arg12, %arg1. -/
theorem stretch7_v75 (W : Valuation τ sig (Elt F))
    (h64 : W (Proc.devRef .tc main_v64) = val_main_v64 (F := F) x0 x1 x2 x3 x4 x5 x6 x7 x8 x9 x10)
    (a11 : W (Proc.devRef .tc main_arg11) = x11) (a12 : W (Proc.devRef .tc main_arg12) = x12) (a1 : W (Proc.devRef .tc main_arg1) = x1) :
    after stretch7 W (Proc.devRef .tc main_v75) = val_main_v75 (F := F) x0 x1 x2 x3 x4 x5 x6 x7 x8 x9 x10 x11 x12 := by
  stretch_results stretch7
  simp only [TRef.ofBuf, TRef.toBuf, cast_eq]
  rw [h64, a11, a12, a1]
  rfl

/-! ## The whole list -/

/-- From any valuation `V`, after the ninety operations: %75 holds its stage of `V`'s arguments, and every argument
    buffer what `V` gave it. Stretch by stretch; the valuation a stretch ends at is named before the next one starts,
    so that no fact carries the operations behind it. -/
theorem after_ops (V : Valuation τ sig (Elt F)) :
    after ops V (Proc.devRef .tc main_v75)
        = val_main_v75 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
            (V (Proc.devRef .tc main_arg7)) (V (Proc.devRef .tc main_arg8)) (V (Proc.devRef .tc main_arg9)) (V (Proc.devRef .tc main_arg10)) (V (Proc.devRef .tc main_arg11)) (V (Proc.devRef .tc main_arg12))
      ∧ ∀ r ∈ argRefs, after ops V (Proc.devRef .tc r) = V (Proc.devRef .tc r) := by
  rw [ops_cut]
  simp only [after_append]
  -- stretch 1
  have K := stretch1_args V
  have h6 := stretch1_v6 V rfl rfl rfl rfl rfl
  generalize after stretch1 V = W1 at K h6 ⊢
  -- stretch 2
  have h10 := stretch2_v10 W1 h6
  have h17 := stretch2_v17 W1 h6
  replace h6 := (stretch2_v6 W1).trans h6
  replace K : ∀ r ∈ argRefs, after stretch2 W1 (Proc.devRef .tc r) = V (Proc.devRef .tc r) :=
    fun r hr => (stretch2_args W1 r hr).trans (K r hr)
  generalize after stretch2 W1 = W2 at K h6 h10 h17 ⊢
  -- stretch 3
  have h30 := stretch3_v30 W2 h6 h10 h17 (K main_arg5 (by decide)) (K main_arg6 (by decide))
  replace K : ∀ r ∈ argRefs, after stretch3 W2 (Proc.devRef .tc r) = V (Proc.devRef .tc r) :=
    fun r hr => (stretch3_args W2 r hr).trans (K r hr)
  clear h6 h10 h17
  generalize after stretch3 W2 = W3 at K h30 ⊢
  -- stretch 4
  have h40 := stretch4_v40 W3 h30 (K main_arg7 (by decide)) (K main_arg8 (by decide))
  replace K : ∀ r ∈ argRefs, after stretch4 W3 (Proc.devRef .tc r) = V (Proc.devRef .tc r) :=
    fun r hr => (stretch4_args W3 r hr).trans (K r hr)
  clear h30
  generalize after stretch4 W3 = W4 at K h40 ⊢
  -- stretch 5
  have h44 := stretch5_v44 W4 h40
  have h51 := stretch5_v51 W4 h40
  replace h40 := (stretch5_v40 W4).trans h40
  replace K : ∀ r ∈ argRefs, after stretch5 W4 (Proc.devRef .tc r) = V (Proc.devRef .tc r) :=
    fun r hr => (stretch5_args W4 r hr).trans (K r hr)
  generalize after stretch5 W4 = W5 at K h40 h44 h51 ⊢
  -- stretch 6
  have h64 := stretch6_v64 W5 h40 h44 h51 (K main_arg9 (by decide)) (K main_arg10 (by decide))
  replace K : ∀ r ∈ argRefs, after stretch6 W5 (Proc.devRef .tc r) = V (Proc.devRef .tc r) :=
    fun r hr => (stretch6_args W5 r hr).trans (K r hr)
  clear h40 h44 h51
  generalize after stretch6 W5 = W6 at K h64 ⊢
  -- stretch 7
  exact ⟨stretch7_v75 W6 h64 (K main_arg11 (by decide)) (K main_arg12 (by decide)) (K main_arg1 (by decide)),
    fun r hr => (stretch7_args W6 r hr).trans (K r hr)⟩

/-! ## The run -/

/-- On every device, for any float values, from any memory with zero counters: every weakly fair execution of
    @main terminates with the result %75 at its stage `val_main_v75` of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      have A := after_ops (F := F) (launchContents m c)
      ⟨(h c main_v75).trans A.1,
       (h c main_arg0).trans (A.2 main_arg0 (by decide)),
       (h c main_arg1).trans (A.2 main_arg1 (by decide)),
       (h c main_arg2).trans (A.2 main_arg2 (by decide)),
       (h c main_arg3).trans (A.2 main_arg3 (by decide)),
       (h c main_arg4).trans (A.2 main_arg4 (by decide)),
       (h c main_arg5).trans (A.2 main_arg5 (by decide)),
       (h c main_arg6).trans (A.2 main_arg6 (by decide)),
       (h c main_arg7).trans (A.2 main_arg7 (by decide)),
       (h c main_arg8).trans (A.2 main_arg8 (by decide)),
       (h c main_arg9).trans (A.2 main_arg9 (by decide)),
       (h c main_arg10).trans (A.2 main_arg10 (by decide)),
       (h c main_arg11).trans (A.2 main_arg11 (by decide)),
       (h c main_arg12).trans (A.2 main_arg12 (by decide))⟩)
    (run_seq scopedRefs_eq scopedSems_eq defs main (fun _ => ops) main_eq (fun _ => ops_sub) m ρ)

end Cert.ReferenceIdeal.Value

end
-- ==== Proof.lean ====
/-
  The certificate's five claims for the bipartite message-passing layer (projection of M, aggregation through the adjacency,
  concatenation with N, two batch-normalised leaky linear layers, residual): the Pallas program of four kernel regions
  against the plain reference.

  Frames. The word-level program and its idealization run their seven items — a host reshape, the projection region, the
  aggregation region (eight column blocks accumulated per row block in a carried scratch buffer), the first batch statistics,
  the first layer's region, the second batch statistics, the second layer's region — each region by its body's run at every
  grid point, and no item writes an argument array. The reference is a straight-line host program: its run, stretch by stretch.

  Preserves. The idealization rewrote nothing: the claim is `True`.

  Algebraic. At the ideal instance every format change is the identity and sums are exact, so each kernel array is the
  reference's own stage of the same arguments: the projection stage; the aggregation stage (the eight block sums re-associate
  into the one contraction over 16384 columns); the batch statistics of N and of the aggregate are those of the
  concatenation at columns below 256 and from 256 on; the first layer's contraction over 512 columns splits at 256 into the
  kernel's two; the second layer and the residual follow operation by operation. Only commutativity and associativity of the
  extended reals' addition are used, so the finiteness precondition is never opened.
-/
import proofs.«150604_j36773509988939_1_alg».proof.Defs
import proofs.«150604_j36773509988939_1_alg».proof.Proof.Gen.Kernel
import proofs.«150604_j36773509988939_1_alg».proof.Proof.Gen.KernelIdeal
import proofs.«150604_j36773509988939_1_alg».proof.Proof.Gen.ReferenceIdeal
import proofs.«150604_j36773509988939_1_alg».proof.Proof.Gen.Pre_finite_inputs
import proofs.«150604_j36773509988939_1_alg».proof.Proof.K.Run
import proofs.«150604_j36773509988939_1_alg».proof.Proof.KI.Run
import proofs.«150604_j36773509988939_1_alg».proof.Proof.KI.KV
import proofs.«150604_j36773509988939_1_alg».proof.Proof.Ref.Run
import Idealize.ShloMosaic.Adequacy
import Idealize.ShloMosaic.Init

noncomputable section

namespace Cert.Proof

open Idealize.ShloMosaic Idealize.SL.Sem

/-- The word-level program's frame. -/
theorem frame_k : Cert.frame_Kernel (hKernel := Cert.Kernel.Gen.facts) (hPre_finite_inputs := Cert.Pre_finite_inputs.Gen.facts) :=
  fun m ρ _ => Cert.Kernel.Fr.frame m ρ

/-- The idealized program's frame. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the reference's last stage of the (agreeing) arguments in their result buffers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun _ h c => ⟨(h c).1.trans (Cert.KernelIdeal.Val.result_value m c), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
